-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S100000x1536 : Shape := ⟨2, ![100000, 1536]⟩
abbrev S300000x2 : Shape := ⟨2, ![300000, 2]⟩
abbrev S2x300000 : Shape := ⟨2, ![2, 300000]⟩
abbrev S100000 : Shape := ⟨1, ![100000]⟩
abbrev S10000x256 : Shape := ⟨2, ![10000, 256]⟩
abbrev S3x256 : Shape := ⟨2, ![3, 256]⟩
abbrev S1536x256 : Shape := ⟨2, ![1536, 256]⟩
abbrev S256 : Shape := ⟨1, ![256]⟩
abbrev S8x256 : Shape := ⟨2, ![8, 256]⟩
abbrev S200x256 : Shape := ⟨2, ![200, 256]⟩
abbrev S256x256 : Shape := ⟨2, ![256, 256]⟩
abbrev S_ : Shape := ⟨0, ![]⟩
abbrev S100000x1 : Shape := ⟨2, ![100000, 1]⟩
abbrev S300000x1 : Shape := ⟨2, ![300000, 1]⟩
abbrev S300000 : Shape := ⟨1, ![300000]⟩
abbrev S1x300000 : Shape := ⟨2, ![1, 300000]⟩

class Facts : Prop where
  bcast_S_S100000x1536 : S_.BroadcastsInDim S100000x1536 (![] : Fin 0 → Fin S100000x1536.rank)
  reducesTo_S100000x1536_S_d0_1 : S100000x1536.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S3x256 : S_.BroadcastsInDim S3x256 (![] : Fin 0 → Fin S3x256.rank)
  reducesTo_S3x256_S_d0_1 : S3x256.ReducesTo [0, 1] S_
  bcast_S_S1536x256 : S_.BroadcastsInDim S1536x256 (![] : Fin 0 → Fin S1536x256.rank)
  reducesTo_S1536x256_S_d0_1 : S1536x256.ReducesTo [0, 1] S_
  bcast_S_S256 : S_.BroadcastsInDim S256 (![] : Fin 0 → Fin S256.rank)
  reducesTo_S256_S_d0 : S256.ReducesTo [0] S_
  bcast_S_S8x256 : S_.BroadcastsInDim S8x256 (![] : Fin 0 → Fin S8x256.rank)
  reducesTo_S8x256_S_d0_1 : S8x256.ReducesTo [0, 1] S_
  bcast_S_S200x256 : S_.BroadcastsInDim S200x256 (![] : Fin 0 → Fin S200x256.rank)
  reducesTo_S200x256_S_d0_1 : S200x256.ReducesTo [0, 1] S_
  bcast_S_S256x256 : S_.BroadcastsInDim S256x256 (![] : Fin 0 → Fin S256x256.rank)
  reducesTo_S256x256_S_d0_1 : S256x256.ReducesTo [0, 1] S_
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  reducesTo_S100000_S_d0 : S100000.ReducesTo [0] S_
  slices_S100000x2_S100000x1_0_1 : S100000x2.Slices ![0, 1] S100000x1
  slices_S300000x2_S300000x1_0_0 : S300000x2.Slices ![0, 0] S300000x1
  shapeCasts_S300000x1_S300000 : S300000x1.ShapeCasts S300000
  bcast_S_S300000 : S_.BroadcastsInDim S300000 (![] : Fin 0 → Fin S300000.rank)
  reducesTo_S300000_S_d0 : S300000.ReducesTo [0] S_
  slices_S2x300000_S1x300000_0_0 : S2x300000.Slices ![0, 0] S1x300000
  shapeCasts_S1x300000_S300000 : S1x300000.ShapeCasts S300000

variable [Facts]

def fn_part7 {F : FTy → Type} [FloatOps F] (main_v116 : IVec S_ 1) (main_v120 : IVec S300000 1) (main_v122 : IVec S300000 32) (main_c_42 : IVec S_ 32) : IVec S_ 1 :=
  let main_v123 : IVec S300000 32 := broadcastInDim S300000 ![] bcast_S_S300000 main_c_42
  let main_v124 : IVec S300000 1 := cmpi .slt main_v122 main_v123
  let main_v125 : IVec S300000 1 := andi main_v120 main_v124
  let main_c_43 : IVec S_ 1 := constantI S_ 1 1#1
  let main_v126 : IVec S_ 1 := (fun x v => Host.reduce IntOp.andi x v reducesTo_S300000_S_d0 h_S_) main_v125 main_c_43
  let main_v127 : IVec S_ 1 := andi main_v116 main_v126
  main_v127

def fn_part6 {F : FTy → Type} [FloatOps F] (main_arg2 : IVec S300000x2 32) (main_arg3 : IVec S2x300000 32) (main_v94 : IVec S_ 1) (main_v103 : IVec S100000 1) (main_c_37 : IVec S_ 1) : IVec S_ 1 :=
  let main_v104 : IVec S_ 1 := (fun x v => Host.reduce IntOp.andi x v reducesTo_S100000_S_d0 h_S_) main_v103 main_c_37
  let main_v105 : IVec S_ 1 := andi main_v94 main_v104
  let main_v106 : IVec S300000x1 32 := (extractStridedSlice S300000x1 ![0, 0] · slices_S300000x2_S300000x1_0_0) main_arg2
  let main_v107 : IVec S300000 32 := shapeCast S300000 main_v106 shapeCasts_S300000x1_S300000
  let main_c_38 : IVec S_ 32 := constantI S_ 32 0#32
  let main_v108 : IVec S300000 32 := broadcastInDim S300000 ![] bcast_S_S300000 main_c_38
  let main_v109 : IVec S300000 1 := cmpi .sge main_v107 main_v108
  let main_v110 : IVec S300000x1 32 := (extractStridedSlice S300000x1 ![0, 0] · slices_S300000x2_S300000x1_0_0) main_arg2
  let main_v111 : IVec S300000 32 := shapeCast S300000 main_v110 shapeCasts_S300000x1_S300000
  let main_c_39 : IVec S_ 32 := constantI S_ 32 8#32
  let main_v112 : IVec S300000 32 := broadcastInDim S300000 ![] bcast_S_S300000 main_c_39
  let main_v113 : IVec S300000 1 := cmpi .slt main_v111 main_v112
  let main_v114 : IVec S300000 1 := andi main_v109 main_v113
  let main_c_40 : IVec S_ 1 := constantI S_ 1 1#1
  let main_v115 : IVec S_ 1 := (fun x v => Host.reduce IntOp.andi x v reducesTo_S300000_S_d0 h_S_) main_v114 main_c_40
  let main_v116 : IVec S_ 1 := andi main_v105 main_v115
  let main_v117 : IVec S1x300000 32 := (extractStridedSlice S1x300000 ![0, 0] · slices_S2x300000_S1x300000_0_0) main_arg3
  let main_v118 : IVec S300000 32 := shapeCast S300000 main_v117 shapeCasts_S1x300000_S300000
  let main_c_41 : IVec S_ 32 := constantI S_ 32 0#32
  let main_v119 : IVec S300000 32 := broadcastInDim S300000 ![] bcast_S_S300000 main_c_41
  let main_v120 : IVec S300000 1 := cmpi .sge main_v118 main_v119
  let main_v121 : IVec S1x300000 32 := (extractStridedSlice S1x300000 ![0, 0] · slices_S2x300000_S1x300000_0_0) main_arg3
  let main_v122 : IVec S300000 32 := shapeCast S300000 main_v121 shapeCasts_S1x300000_S300000
  let main_c_42 : IVec S_ 32 := constantI S_ 32 100000#32
  fn_part7 (F := F) main_v116 main_v120 main_v122 main_c_42

def fn_part5 {F : FTy → Type} [FloatOps F] (main_arg0 : IVec S100000x2 32) (main_arg2 : IVec S300000x2 32) (main_arg3 : IVec S2x300000 32) (main_v83 : IVec S_ 1) (main_v85 : IVec S100000 32) : IVec S_ 1 :=
  let main_c_32 : IVec S_ 32 := constantI S_ 32 0#32
  let main_v86 : IVec S100000 32 := broadcastInDim S100000 ![] bcast_S_S100000 main_c_32
  let main_v87 : IVec S100000 1 := cmpi .sge main_v85 main_v86
  let main_v88 : IVec S100000x1 32 := (extractStridedSlice S100000x1 ![0, 0] · slices_S100000x2_S100000x1_0_0) main_arg0
  let main_v89 : IVec S100000 32 := shapeCast S100000 main_v88 shapeCasts_S100000x1_S100000
  let main_c_33 : IVec S_ 32 := constantI S_ 32 10000#32
  let main_v90 : IVec S100000 32 := broadcastInDim S100000 ![] bcast_S_S100000 main_c_33
  let main_v91 : IVec S100000 1 := cmpi .slt main_v89 main_v90
  let main_v92 : IVec S100000 1 := andi main_v87 main_v91
  let main_c_34 : IVec S_ 1 := constantI S_ 1 1#1
  let main_v93 : IVec S_ 1 := (fun x v => Host.reduce IntOp.andi x v reducesTo_S100000_S_d0 h_S_) main_v92 main_c_34
  let main_v94 : IVec S_ 1 := andi main_v83 main_v93
  let main_v95 : IVec S100000x1 32 := (extractStridedSlice S100000x1 ![0, 1] · slices_S100000x2_S100000x1_0_1) main_arg0
  let main_v96 : IVec S100000 32 := shapeCast S100000 main_v95 shapeCasts_S100000x1_S100000
  let main_c_35 : IVec S_ 32 := constantI S_ 32 0#32
  let main_v97 : IVec S100000 32 := broadcastInDim S100000 ![] bcast_S_S100000 main_c_35
  let main_v98 : IVec S100000 1 := cmpi .sge main_v96 main_v97
  let main_v99 : IVec S100000x1 32 := (extractStridedSlice S100000x1 ![0, 1] · slices_S100000x2_S100000x1_0_1) main_arg0
  let main_v100 : IVec S100000 32 := shapeCast S100000 main_v99 shapeCasts_S100000x1_S100000
  let main_c_36 : IVec S_ 32 := constantI S_ 32 3#32
  let main_v101 : IVec S100000 32 := broadcastInDim S100000 ![] bcast_S_S100000 main_c_36
  let main_v102 : IVec S100000 1 := cmpi .slt main_v100 main_v101
  let main_v103 : IVec S100000 1 := andi main_v98 main_v102
  let main_c_37 : IVec S_ 1 := constantI S_ 1 1#1
  fn_part6 (F := F) main_arg2 main_arg3 main_v94 main_v103 main_c_37

def fn_part4 {F : FTy → Type} [FloatOps F] (main_arg0 : IVec S100000x2 32) (main_arg2 : IVec S300000x2 32) (main_arg3 : IVec S2x300000 32) (main_arg18 : FVec F S256 .f32) (main_arg19 : FVec F S256x256 .f32) (main_arg20 : FVec F S256 .f32) (main_v63 : IVec S_ 1) (main_v67 : IVec S_ 1) : IVec S_ 1 :=
  let main_v68 : IVec S_ 1 := andi main_v63 main_v67
  let main_v69 : FVec F S256 .f32 := Host.absf main_arg18
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg19
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg20
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : IVec S100000x1 32 := (extractStridedSlice S100000x1 ![0, 0] · slices_S100000x2_S100000x1_0_0) main_arg0
  let main_v85 : IVec S100000 32 := shapeCast S100000 main_v84 shapeCasts_S100000x1_S100000
  fn_part5 (F := F) main_arg0 main_arg2 main_arg3 main_v83 main_v85

def fn_part3 {F : FTy → Type} [FloatOps F] (main_arg0 : IVec S100000x2 32) (main_arg2 : IVec S300000x2 32) (main_arg3 : IVec S2x300000 32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg0 main_arg2 main_arg3 main_arg18 main_arg19 main_arg20 main_v63 main_v67

def fn_part2 {F : FTy → Type} [FloatOps F] (main_arg0 : IVec S100000x2 32) (main_arg2 : IVec S300000x2 32) (main_arg3 : IVec S2x300000 32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg0 main_arg2 main_arg3 main_arg15 main_arg16 main_arg17 main_arg18 main_arg19 main_arg20 main_v48 main_v49 main_v50

def fn_part1 {F : FTy → Type} [FloatOps F] (main_arg0 : IVec S100000x2 32) (main_arg2 : IVec S300000x2 32) (main_arg3 : IVec S2x300000 32) (main_arg8 : FVec F S256 .f32) (main_arg9 : FVec F S8x256 .f32) (main_arg10 : FVec F S200x256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_v13 : IVec S_ 1) (main_v16 : IVec S1536x256 1) : IVec S_ 1 :=
  let main_c_5 : IVec S_ 1 := constantI S_ 1 1#1
  let main_v17 : IVec S_ 1 := (fun x v => Host.reduce IntOp.andi x v reducesTo_S1536x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S8x256 .f32 := Host.absf main_arg9
  let main_cst_8 : FVec F S_ .f32 := constant S_ .f32 0x7F800000#32
  let main_v25 : FVec F S8x256 .f32 := broadcastInDim S8x256 ![] bcast_S_S8x256 main_cst_8
  let main_v26 : IVec S8x256 1 := cmpf .olt main_v24 main_v25
  let main_c_9 : IVec S_ 1 := constantI S_ 1 1#1
  let main_v27 : IVec S_ 1 := (fun x v => Host.reduce IntOp.andi x v reducesTo_S8x256_S_d0_1 h_S_) main_v26 main_c_9
  let main_v28 : IVec S_ 1 := andi main_v23 main_v27
  let main_v29 : FVec F S200x256 .f32 := Host.absf main_arg10
  let main_cst_10 : FVec F S_ .f32 := constant S_ .f32 0x7F800000#32
  let main_v30 : FVec F S200x256 .f32 := broadcastInDim S200x256 ![] bcast_S_S200x256 main_cst_10
  let main_v31 : IVec S200x256 1 := cmpf .olt main_v29 main_v30
  let main_c_11 : IVec S_ 1 := constantI S_ 1 1#1
  let main_v32 : IVec S_ 1 := (fun x v => Host.reduce IntOp.andi x v reducesTo_S200x256_S_d0_1 h_S_) main_v31 main_c_11
  let main_v33 : IVec S_ 1 := andi main_v28 main_v32
  fn_part2 (F := F) main_arg0 main_arg2 main_arg3 main_arg11 main_arg12 main_arg13 main_arg14 main_arg15 main_arg16 main_arg17 main_arg18 main_arg19 main_arg20 main_v33

def fn {F : FTy → Type} [FloatOps F] (main_arg0 : IVec S100000x2 32) (main_arg1 : FVec F S100000x1536 .f32) (main_arg2 : IVec S300000x2 32) (main_arg3 : IVec S2x300000 32) (main_arg4 : IVec S100000 32) (main_arg5 : FVec F S10000x256 .f32) (main_arg6 : FVec F S3x256 .f32) (main_arg7 : FVec F S1536x256 .f32) (main_arg8 : FVec F S256 .f32) (main_arg9 : FVec F S8x256 .f32) (main_arg10 : FVec F S200x256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) : IVec S_ 1 :=
  let main_v0 : FVec F S100000x1536 .f32 := Host.absf main_arg1
  let main_cst : FVec F S_ .f32 := constant S_ .f32 0x7F800000#32
  let main_v1 : FVec F S100000x1536 .f32 := broadcastInDim S100000x1536 ![] bcast_S_S100000x1536 main_cst
  let main_v2 : IVec S100000x1536 1 := cmpf .olt main_v0 main_v1
  let main_c : IVec S_ 1 := constantI S_ 1 1#1
  let main_v3 : IVec S_ 1 := (fun x v => Host.reduce IntOp.andi x v reducesTo_S100000x1536_S_d0_1 h_S_) main_v2 main_c
  let main_v4 : FVec F S10000x256 .f32 := Host.absf main_arg5
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S3x256 .f32 := Host.absf main_arg6
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S1536x256 .f32 := Host.absf main_arg7
  let main_cst_4 : FVec F S_ .f32 := constant S_ .f32 0x7F800000#32
  let main_v15 : FVec F S1536x256 .f32 := broadcastInDim S1536x256 ![] bcast_S_S1536x256 main_cst_4
  let main_v16 : IVec S1536x256 1 := cmpf .olt main_v14 main_v15
  fn_part1 (F := F) main_arg0 main_arg2 main_arg3 main_arg8 main_arg9 main_arg10 main_arg11 main_arg12 main_arg13 main_arg14 main_arg15 main_arg16 main_arg17 main_arg18 main_arg19 main_arg20 main_v13 main_v16
-- ==== Kernel.lean ====
abbrev S100000x2 : Shape := ⟨2, ![100000, 2]⟩
abbrev S100000x1536 : Shape := ⟨2, ![100000, 1536]⟩
abbrev S300000x2 : Shape := ⟨2, ![300000, 2]⟩
abbrev S2x300000 : Shape := ⟨2, ![2, 300000]⟩
abbrev S100000 : Shape := ⟨1, ![100000]⟩
abbrev S10000x256 : Shape := ⟨2, ![10000, 256]⟩
abbrev S3x256 : Shape := ⟨2, ![3, 256]⟩
abbrev S1536x256 : Shape := ⟨2, ![1536, 256]⟩
abbrev S256 : Shape := ⟨1, ![256]⟩
abbrev S8x256 : Shape := ⟨2, ![8, 256]⟩
abbrev S200x256 : Shape := ⟨2, ![200, 256]⟩
abbrev S256x256 : Shape := ⟨2, ![256, 256]⟩
abbrev S100000x1 : Shape := ⟨2, ![100000, 1]⟩
abbrev S_ : Shape := ⟨0, ![]⟩
abbrev S1 : Shape := ⟨1, ![1]⟩
abbrev S1x1 : Shape := ⟨2, ![1, 1]⟩
abbrev S100000x256 : Shape := ⟨2, ![100000, 256]⟩
abbrev S1x256 : Shape := ⟨2, ![1, 256]⟩
abbrev S1000x1536 : Shape := ⟨2, ![1000, 1536]⟩
abbrev S1000x256 : Shape := ⟨2, ![1000, 256]⟩
abbrev S300000x1 : Shape := ⟨2, ![300000, 1]⟩
abbrev S300000 : Shape := ⟨1, ![300000]⟩
abbrev S300000x256 : Shape := ⟨2, ![300000, 256]⟩
abbrev S1x300000 : Shape := ⟨2, ![1, 300000]⟩
abbrev S4000x256 : Shape := ⟨2, ![4000, 256]⟩
abbrev S1x128 : Shape := ⟨2, ![1, 128]⟩
abbrev S100000x128 : Shape := ⟨2, ![100000, 128]⟩
abbrev S128x256 : Shape := ⟨2, ![128, 256]⟩
abbrev S4000x128 : Shape := ⟨2, ![4000, 128]⟩
abbrev S128 : Shape := ⟨1, ![128]⟩
abbrev S128x1 : Shape := ⟨2, ![128, 1]⟩

abbrev nBuf : Space → Nat
  | .hbm => 225
  | .vmem => 30
  | .smem => 0
  | _ => 0

abbrev hbmTy0_0 (i : Nat) : BufTy := match i % 128 with
  | 0 => ⟨S100000x2, .i32⟩
  | 1 => ⟨S100000x1536, .f32⟩
  | 2 => ⟨S300000x2, .i32⟩
  | 3 => ⟨S2x300000, .i32⟩
  | 4 => ⟨S100000, .i32⟩
  | 5 => ⟨S10000x256, .f32⟩
  | 6 => ⟨S3x256, .f32⟩
  | 7 => ⟨S1536x256, .f32⟩
  | 8 => ⟨S256, .f32⟩
  | 9 => ⟨S8x256, .f32⟩
  | 10 => ⟨S200x256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x256, .f32⟩
  | 20 => ⟨S256, .f32⟩
  | 21 => ⟨S100000x1, .i32⟩
  | 22 => ⟨S100000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S1, .i32⟩
  | 32 => ⟨S_, .i32⟩
  | 33 => ⟨S100000x1, .i32⟩
  | 34 => ⟨S100000x1, .i1⟩
  | 35 => ⟨S1x1, .i32⟩
  | 36 => ⟨S100000x1, .i32⟩
  | 37 => ⟨S100000x1, .i1⟩
  | 38 => ⟨S100000x1, .i1⟩
  | 39 => ⟨S_, .i1⟩
  | 40 => ⟨S100000, .i1⟩
  | 41 => ⟨S100000x256, .f32⟩
  | 42 => ⟨S100000x256, .i1⟩
  | 43 => ⟨S_, .f32⟩
  | 44 => ⟨S100000x256, .f32⟩
  | 45 => ⟨S100000x256, .f32⟩
  | 46 => ⟨S100000x1, .i32⟩
  | 47 => ⟨S100000, .i32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S1, .i32⟩
  | 57 => ⟨S_, .i32⟩
  | 58 => ⟨S100000x1, .i32⟩
  | 59 => ⟨S100000x1, .i1⟩
  | 60 => ⟨S1x1, .i32⟩
  | 61 => ⟨S100000x1, .i32⟩
  | 62 => ⟨S100000x1, .i1⟩
  | 63 => ⟨S100000x1, .i1⟩
  | 64 => ⟨S_, .i1⟩
  | 65 => ⟨S100000, .i1⟩
  | 66 => ⟨S100000x256, .f32⟩
  | 67 => ⟨S100000x256, .i1⟩
  | 68 => ⟨S_, .f32⟩
  | 69 => ⟨S100000x256, .f32⟩
  | 70 => ⟨S100000x256, .f32⟩
  | 71 => ⟨S100000x256, .f32⟩
  | 72 => ⟨S1x256, .f32⟩
  | 73 => ⟨S100000x256, .f32⟩
  | 74 => ⟨S300000x1, .i32⟩
  | 75 => ⟨S300000, .i32⟩
  | 76 => ⟨S_, .i32⟩
  | 77 => ⟨S_, .i32⟩
  | 78 => ⟨S_, .i32⟩
  | 79 => ⟨S300000, .i32⟩
  | 80 => ⟨S300000, .i32⟩
  | 81 => ⟨S_, .i32⟩
  | 82 => ⟨S300000, .i32⟩
  | 83 => ⟨S300000, .i32⟩
  | 84 => ⟨S300000x1, .i32⟩
  | 85 => ⟨S300000, .i32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S1, .i32⟩
  | 95 => ⟨S_, .i32⟩
  | 96 => ⟨S300000x1, .i32⟩
  | 97 => ⟨S300000x1, .i1⟩
  | 98 => ⟨S1x1, .i32⟩
  | 99 => ⟨S300000x1, .i32⟩
  | 100 => ⟨S300000x1, .i1⟩
  | 101 => ⟨S300000x1, .i1⟩
  | 102 => ⟨S_, .i1⟩
  | 103 => ⟨S300000, .i1⟩
  | 104 => ⟨S300000x256, .f32⟩
  | 105 => ⟨S300000x256, .i1⟩
  | 106 => ⟨S_, .f32⟩
  | 107 => ⟨S300000x256, .f32⟩
  | 108 => ⟨S300000x256, .f32⟩
  | 109 => ⟨S_, .i32⟩
  | 110 => ⟨S300000, .i32⟩
  | 111 => ⟨S300000, .i1⟩
  | 112 => ⟨S_, .i32⟩
  | 113 => ⟨S300000, .i32⟩
  | 114 => ⟨S300000, .i32⟩
  | 115 => ⟨S300000, .i32⟩
  | 116 => ⟨S300000x1, .i32⟩
  | 117 => ⟨S1, .i32⟩
  | 118 => ⟨S_, .i32⟩
  | 119 => ⟨S300000x1, .i32⟩
  | 120 => ⟨S300000x1, .i1⟩
  | 121 => ⟨S1x1, .i32⟩
  | 122 => ⟨S300000x1, .i32⟩
  | 123 => ⟨S300000x1, .i1⟩
  | 124 => ⟨S300000x1, .i1⟩
  | 125 => ⟨S_, .i1⟩
  | 126 => ⟨S300000, .i1⟩
  | 127 => ⟨S300000x256, .f32⟩
  | _ => ⟨S100000x2, .i32⟩

abbrev hbmTy0_1 (i : Nat) : BufTy := match i % 128 with
  | 0 => ⟨S300000x256, .i1⟩
  | 1 => ⟨S_, .f32⟩
  | 2 => ⟨S300000x256, .f32⟩
  | 3 => ⟨S300000x256, .f32⟩
  | 4 => ⟨S300000x256, .f32⟩
  | 5 => ⟨S300000x256, .bf16⟩
  | 6 => ⟨S1x300000, .i32⟩
  | 7 => ⟨S300000, .i32⟩
  | 8 => ⟨S1x300000, .i32⟩
  | 9 => ⟨S300000, .i32⟩
  | 10 => ⟨S1x256, .f32⟩
  | 11 => ⟨S1x256, .f32⟩
  | 12 => ⟨S1x256, .f32⟩
  | 13 => ⟨S1x256, .f32⟩
  | 14 => ⟨S_, .i32⟩
  | 15 => ⟨S300000, .i32⟩
  | 16 => ⟨S300000, .i1⟩
  | 17 => ⟨S_, .i32⟩
  | 18 => ⟨S300000, .i32⟩
  | 19 => ⟨S300000, .i32⟩
  | 20 => ⟨S300000, .i32⟩
  | 21 => ⟨S300000x1, .i32⟩
  | 22 => ⟨S1, .i32⟩
  | 23 => ⟨S_, .i32⟩
  | 24 => ⟨S300000x1, .i32⟩
  | 25 => ⟨S300000x1, .i1⟩
  | 26 => ⟨S1x1, .i32⟩
  | 27 => ⟨S300000x1, .i32⟩
  | 28 => ⟨S300000x1, .i1⟩
  | 29 => ⟨S300000x1, .i1⟩
  | 30 => ⟨S_, .i1⟩
  | 31 => ⟨S300000, .i1⟩
  | 32 => ⟨S300000x256, .f32⟩
  | 33 => ⟨S300000x256, .i1⟩
  | 34 => ⟨S_, .f32⟩
  | 35 => ⟨S300000x256, .f32⟩
  | 36 => ⟨S300000x256, .f32⟩
  | 37 => ⟨S300000x256, .f32⟩
  | 38 => ⟨S300000x256, .f32⟩
  | 39 => ⟨S_, .f32⟩
  | 40 => ⟨S300000x256, .f32⟩
  | 41 => ⟨S300000x256, .f32⟩
  | 42 => ⟨S_, .f32⟩
  | 43 => ⟨S100000x256, .f32⟩
  | 44 => ⟨S300000x1, .i32⟩
  | 45 => ⟨S100000x256, .f32⟩
  | 46 => ⟨S100000x256, .f32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S1, .i32⟩
  | 56 => ⟨S_, .i32⟩
  | 57 => ⟨S300000x1, .i32⟩
  | 58 => ⟨S300000x1, .i1⟩
  | 59 => ⟨S1x1, .i32⟩
  | 60 => ⟨S300000x1, .i32⟩
  | 61 => ⟨S300000x1, .i1⟩
  | 62 => ⟨S300000x1, .i1⟩
  | 63 => ⟨S_, .i1⟩
  | 64 => ⟨S300000, .i1⟩
  | 65 => ⟨S300000x256, .f32⟩
  | 66 => ⟨S300000x256, .i1⟩
  | 67 => ⟨S_, .f32⟩
  | 68 => ⟨S300000x256, .f32⟩
  | 69 => ⟨S300000x256, .f32⟩
  | 70 => ⟨S300000x256, .f32⟩
  | 71 => ⟨S300000x256, .f32⟩
  | 72 => ⟨S_, .f32⟩
  | 73 => ⟨S300000x256, .f32⟩
  | 74 => ⟨S300000x256, .f32⟩
  | 75 => ⟨S_, .f32⟩
  | 76 => ⟨S100000x256, .f32⟩
  | 77 => ⟨S300000x1, .i32⟩
  | 78 => ⟨S100000x256, .f32⟩
  | 79 => ⟨S100000x1, .i32⟩
  | 80 => ⟨S1x128, .i32⟩
  | 81 => ⟨S100000x128, .i32⟩
  | 82 => ⟨S100000x128, .i32⟩
  | 83 => ⟨S100000x128, .i1⟩
  | 84 => ⟨S100000x128, .bf16⟩
  | 85 => ⟨S128x256, .f32⟩
  | 86 => ⟨S1x128, .f32⟩
  | 87 => ⟨S128x1, .f32⟩
  | 88 => ⟨S_, .f32⟩
  | 89 => ⟨S128x1, .f32⟩
  | 90 => ⟨S128x1, .f32⟩
  | 91 => ⟨S128x256, .f32⟩
  | 92 => ⟨S128x256, .f32⟩
  | 93 => ⟨S128x256, .f32⟩
  | 94 => ⟨S1x256, .f32⟩
  | 95 => ⟨S128x256, .f32⟩
  | 96 => ⟨S128x256, .f32⟩
  | _ => ⟨S100000x2, .i32⟩

abbrev hbmTy (i : Nat) : BufTy := match i / 128 with
  | 0 => hbmTy0_0 i
  | 1 => hbmTy0_1 i
  | _ => ⟨S100000x2, .i32⟩

abbrev bufTy : (tb : Table) → Fin (tcTables nBuf tb) → BufTy
  | .hbm, ⟨i, _⟩ => hbmTy i
  | .local _ .vmem, ⟨0, _⟩ => ⟨S1000x1536, .f32⟩
  | .local _ .vmem, ⟨1, _⟩ => ⟨S1000x1536, .f32⟩
  | .local _ .vmem, ⟨2, _⟩ => ⟨S1536x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S4000x256, .f32⟩
  | .local _ .vmem, ⟨17, _⟩ => ⟨S4000x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S4000x128, .bf16⟩
  | .local _ .vmem, ⟨23, _⟩ => ⟨S4000x128, .bf16⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S128x256, .f32⟩
  | .local _ .vmem, ⟨29, _⟩ => ⟨S1x128, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_c : Ref sig .tc := ⟨.hbm, 76, rfl⟩
abbrev main_c_0 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v14 : Ref sig .tc := ⟨.hbm, 108, rfl⟩
abbrev main_call4_c : Ref sig .tc := ⟨.hbm, 109, rfl⟩
abbrev main_call4_v0 : Ref sig .tc := ⟨.hbm, 110, rfl⟩
abbrev main_call4_v1 : Ref sig .tc := ⟨.hbm, 111, rfl⟩
abbrev main_call4_c_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_c_1 : Ref sig .tc := ⟨.hbm, 117, rfl⟩
abbrev main_call4_c_2 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_c_3 : Ref sig .tc := ⟨.hbm, 125, rfl⟩
abbrev main_call4_v12 : Ref sig .tc := ⟨.hbm, 126, rfl⟩
abbrev main_call4_v13 : Ref sig .tc := ⟨.hbm, 127, rfl⟩
abbrev main_call4_v14 : Ref sig .tc := ⟨.hbm, 128, rfl⟩
abbrev main_call4_cst : Ref sig .tc := ⟨.hbm, 129, rfl⟩
abbrev main_call4_v15 : Ref sig .tc := ⟨.hbm, 130, rfl⟩
abbrev main_v15 : Ref sig .tc := ⟨.hbm, 131, rfl⟩
abbrev main_v16 : Ref sig .tc := ⟨.hbm, 132, rfl⟩
abbrev main_v17 : Ref sig .tc := ⟨.hbm, 133, rfl⟩
abbrev main_v18 : Ref sig .tc := ⟨.hbm, 134, rfl⟩
abbrev main_v19 : Ref sig .tc := ⟨.hbm, 135, rfl⟩
abbrev main_v20 : Ref sig .tc := ⟨.hbm, 136, rfl⟩
abbrev main_v21 : Ref sig .tc := ⟨.hbm, 137, rfl⟩
abbrev main_v22 : Ref sig .tc := ⟨.hbm, 138, rfl⟩
abbrev main_v23 : Ref sig .tc := ⟨.hbm, 139, rfl⟩
abbrev main_v24 : Ref sig .tc := ⟨.hbm, 140, rfl⟩
abbrev main_v25 : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v26 : Ref sig .tc := ⟨.hbm, 164, rfl⟩
abbrev main_v27 : Ref sig .tc := ⟨.hbm, 165, rfl⟩
abbrev main_v28 : Ref sig .tc := ⟨.hbm, 166, rfl⟩
abbrev main_call6_cst : Ref sig .tc := ⟨.hbm, 167, rfl⟩
abbrev main_call6_v0 : Ref sig .tc := ⟨.hbm, 168, rfl⟩
abbrev main_v29 : Ref sig .tc := ⟨.hbm, 169, rfl⟩
abbrev main_cst : Ref sig .tc := ⟨.hbm, 170, rfl⟩
abbrev main_v30 : Ref sig .tc := ⟨.hbm, 171, rfl⟩
abbrev main_v31 : Ref sig .tc := ⟨.hbm, 172, rfl⟩
abbrev main_v32 : Ref sig .tc := ⟨.hbm, 173, rfl⟩
abbrev main_v33 : Ref sig .tc := ⟨.hbm, 174, rfl⟩
abbrev main_call7_c : Ref sig .tc := ⟨.hbm, 175, rfl⟩
abbrev main_call7_v0 : Ref sig .tc := ⟨.hbm, 176, rfl⟩
abbrev main_call7_v1 : Ref sig .tc := ⟨.hbm, 177, rfl⟩
abbrev main_call7_c_0 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_call7_v5 : Ref sig .tc := ⟨.hbm, 182, rfl⟩
abbrev main_call7_c_1 : Ref sig .tc := ⟨.hbm, 183, rfl⟩
abbrev main_call7_c_2 : Ref sig .tc := ⟨.hbm, 184, rfl⟩
abbrev main_call7_v6 : Ref sig .tc := ⟨.hbm, 185, rfl⟩
abbrev main_call7_v7 : Ref sig .tc := ⟨.hbm, 186, rfl⟩
abbrev main_call7_v8 : Ref sig .tc := ⟨.hbm, 187, rfl⟩
abbrev main_call7_v9 : Ref sig .tc := ⟨.hbm, 188, rfl⟩
abbrev main_call7_v10 : Ref sig .tc := ⟨.hbm, 189, rfl⟩
abbrev main_call7_v11 : Ref sig .tc := ⟨.hbm, 190, rfl⟩
abbrev main_call7_c_3 : Ref sig .tc := ⟨.hbm, 191, rfl⟩
abbrev main_call7_v12 : Ref sig .tc := ⟨.hbm, 192, rfl⟩
abbrev main_call7_v13 : Ref sig .tc := ⟨.hbm, 193, rfl⟩
abbrev main_call7_v14 : Ref sig .tc := ⟨.hbm, 194, rfl⟩
abbrev main_call7_cst : Ref sig .tc := ⟨.hbm, 195, rfl⟩
abbrev main_call7_v15 : Ref sig .tc := ⟨.hbm, 196, rfl⟩
abbrev main_v34 : Ref sig .tc := ⟨.hbm, 197, rfl⟩
abbrev main_v35 : Ref sig .tc := ⟨.hbm, 198, rfl⟩
abbrev main_v36 : Ref sig .tc := ⟨.hbm, 199, rfl⟩
abbrev main_call8_cst : Ref sig .tc := ⟨.hbm, 200, rfl⟩
abbrev main_call8_v0 : Ref sig .tc := ⟨.hbm, 201, rfl⟩
abbrev main_v37 : Ref sig .tc := ⟨.hbm, 202, rfl⟩
abbrev main_cst_1 : Ref sig .tc := ⟨.hbm, 203, rfl⟩
abbrev main_v38 : Ref sig .tc := ⟨.hbm, 204, rfl⟩
abbrev main_v39 : Ref sig .tc := ⟨.hbm, 205, rfl⟩
abbrev main_v40 : Ref sig .tc := ⟨.hbm, 206, rfl⟩
abbrev main_call9_v0 : Ref sig .tc := ⟨.hbm, 207, rfl⟩
abbrev main_call9_v1 : Ref sig .tc := ⟨.hbm, 208, rfl⟩
abbrev main_call9_v2 : Ref sig .tc := ⟨.hbm, 209, rfl⟩
abbrev main_call9_v3 : Ref sig .tc := ⟨.hbm, 210, rfl⟩
abbrev main_call9_v4 : Ref sig .tc := ⟨.hbm, 211, rfl⟩
abbrev main_v41 : Ref sig .tc := ⟨.hbm, 212, rfl⟩
abbrev main_v42_0 : Ref sig .tc := ⟨.hbm, 213, rfl⟩
abbrev main_v42_1 : Ref sig .tc := ⟨.hbm, 214, rfl⟩
abbrev main_v43 : Ref sig .tc := ⟨.hbm, 215, rfl⟩
abbrev main_cst_2 : Ref sig .tc := ⟨.hbm, 216, rfl⟩
abbrev main_v44 : Ref sig .tc := ⟨.hbm, 217, rfl⟩
abbrev main_v45 : Ref sig .tc := ⟨.hbm, 218, rfl⟩
abbrev main_v46 : Ref sig .tc := ⟨.hbm, 219, rfl⟩
abbrev main_v47 : Ref sig .tc := ⟨.hbm, 220, rfl⟩
abbrev main_v48 : Ref sig .tc := ⟨.hbm, 221, rfl⟩
abbrev main_v49 : Ref sig .tc := ⟨.hbm, 222, rfl⟩
abbrev main_v50 : Ref sig .tc := ⟨.hbm, 223, rfl⟩
abbrev main_v51 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x256_0 : S100000.BroadcastsInDim S100000x256 (![0] : Fin 1 → Fin S100000x256.rank)
  bcast_S_S100000x256 : S_.BroadcastsInDim S100000x256 (![] : Fin 0 → Fin S100000x256.rank)
  slices_S100000x2_S100000x1_0_1 : S100000x2.Slices ![0, 1] S100000x1
  shapeCasts_S256_S1x256 : S256.ShapeCasts S1x256
  inb_S1000x1536_S1000x1536_0_0 : ∀ a, (![0, 0] : Fin 2 → Nat) a + S1000x1536.size a ≤ S1000x1536.size a
  h_S1000x1536 : 0 < S1000x1536.numel
  bitsLt_bf16_f32 : FTy.bits .bf16 < FTy.bits .f32
  inb_S1536x256_S1536x256_0_0 : ∀ a, (![0, 0] : Fin 2 → Nat) a + S1536x256.size a ≤ S1536x256.size a
  h_S1536x256 : 0 < S1536x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  slices_S300000x2_S300000x1_0_1 : S300000x2.Slices ![0, 1] S300000x1
  shapeCasts_S300000x1_S300000 : S300000x1.ShapeCasts S300000
  bcast_S_S300000 : S_.BroadcastsInDim S300000 (![] : Fin 0 → Fin S300000.rank)
  slices_S300000x2_S300000x1_0_0 : S300000x2.Slices ![0, 0] S300000x1
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1x1_S300000x1_0_1 : S1x1.BroadcastsInDim S300000x1 (![0, 1] : Fin 2 → Fin S300000x1.rank)
  reducesTo_S300000x1_S300000_d1 : S300000x1.ReducesTo [1] S300000
  bcast_S300000_S300000x256_0 : S300000.BroadcastsInDim S300000x256 (![0] : Fin 1 → Fin S300000x256.rank)
  bcast_S_S300000x256 : S_.BroadcastsInDim S300000x256 (![] : Fin 0 → Fin S300000x256.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  broadcasts_S1x256_S4000x256 : S1x256.Broadcasts S4000x256
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S128 : S4000x128.Reduces [0] S128
  shapeCasts_S128_S1x128 : S128.ShapeCasts S1x128
  shapeCasts_S128x256_S128x256 : S128x256.ShapeCasts S128x256
  shapeCasts_S1x128_S1x128 : S1x128.ShapeCasts S1x128
  shapeCasts_S1x128_S128x1 : S1x128.ShapeCasts S128x1
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  gather_S10000x256_S100000x1_S100000x256_1_0_n_n_0_1_1256_wf : GatherDims.WF S10000x256 S100000x1 S100000x256 [1] [0] [] [0] [] 1 ![1, 256]
  gather_S3x256_S100000x1_S100000x256_1_0_n_n_0_1_1256_wf : GatherDims.WF S3x256 S100000x1 S100000x256 [1] [0] [] [0] [] 1 ![1, 256]
  dot_S1000x1536_S1536x256_S1000x256_1_0_0_1_n_n_wf : DotDims.WF S1000x1536 S1536x256 S1000x256 [1] [0] [0] [1] [] []
  gather_S8x256_S300000x1_S300000x256_1_0_n_n_0_1_1256_wf : GatherDims.WF S8x256 S300000x1 S300000x256 [1] [0] [] [0] [] 1 ![1, 256]
  gather_S200x256_S300000x1_S300000x256_1_0_n_n_0_1_1256_wf : GatherDims.WF S200x256 S300000x1 S300000x256 [1] [0] [] [0] [] 1 ![1, 256]
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S4000x256_S256x256_S4000x256_1_0_0_1_n_n_wf : DotDims.WF S4000x256 S256x256 S4000x256 [1] [0] [0] [1] [] []
  dot_S4000x128_S4000x256_S128x256_0_0_1_1_n_n_wf : DotDims.WF S4000x128 S4000x256 S128x256 [0] [0] [1] [1] [] []
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1536.size a ≤ S100000x1536.size a
  hwx0_0 : ∀ i : grid0.Coords, EltTy.bits .f32 = 32 ∨ (Rect.block (s := S100000x1536) S1000x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x256.size a ≤ S1536x256.size a
  hwx0_1 : ∀ i : grid0.Coords, EltTy.bits .f32 = 32 ∨ (Rect.block (s := S1536x256) S1536x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S100000x256.size a
  hwx0_3 : ∀ i : grid0.Coords, EltTy.bits .f32 = 32 ∨ (Rect.block (s := S100000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S100000x256.size a
  hwx0_4 : ∀ i : grid0.Coords, EltTy.bits .f32 = 32 ∨ (Rect.block (s := S100000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x256.size a ≤ S100000x256.size a
  hwx1_6 : ∀ i : grid1.Coords, EltTy.bits .f32 = 32 ∨ (Rect.block (s := S100000x256) S4000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .f32 = 32 ∨ (Rect.block (s := S100000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S100000x256.size a
  hwx2_1 : ∀ i : grid2.Coords, EltTy.bits .f32 = 32 ∨ (Rect.block (s := S100000x256) S4000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .bf16 = 32 ∨ (Rect.block (s := S100000x128) S4000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x256.size a ≤ S128x256.size a
  hwx2_7 : ∀ i : grid2.Coords, EltTy.bits .f32 = 32 ∨ (Rect.block (s := S128x256) S128x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)

variable [Facts₀]

def gather_S10000x256_S100000x1_S100000x256_1_0_n_n_0_1_1256 : GatherDims S10000x256 S100000x1 S100000x256 where
  offsetDims := [1]
  collapsedSliceDims := [0]
  operandBatchingDims := []
  startIndicesBatchingDims := []
  startIndexMap := [0]
  indexVectorDim := 1
  sliceSizes := ![1, 256]
  wf := gather_S10000x256_S100000x1_S100000x256_1_0_n_n_0_1_1256_wf
def gather_S3x256_S100000x1_S100000x256_1_0_n_n_0_1_1256 : GatherDims S3x256 S100000x1 S100000x256 where
  offsetDims := [1]
  collapsedSliceDims := [0]
  operandBatchingDims := []
  startIndicesBatchingDims := []
  startIndexMap := [0]
  indexVectorDim := 1
  sliceSizes := ![1, 256]
  wf := gather_S3x256_S100000x1_S100000x256_1_0_n_n_0_1_1256_wf
def dot_S1000x1536_S1536x256_S1000x256_1_0_0_1_n_n : DotDims S1000x1536 S1536x256 S1000x256 where
  lhsContracting := [1]
  rhsContracting := [0]
  lhsNonContracting := [0]
  rhsNonContracting := [1]
  lhsBatch := []
  rhsBatch := []
  wf := dot_S1000x1536_S1536x256_S1000x256_1_0_0_1_n_n_wf
def gather_S8x256_S300000x1_S300000x256_1_0_n_n_0_1_1256 : GatherDims S8x256 S300000x1 S300000x256 where
  offsetDims := [1]
  collapsedSliceDims := [0]
  operandBatchingDims := []
  startIndicesBatchingDims := []
  startIndexMap := [0]
  indexVectorDim := 1
  sliceSizes := ![1, 256]
  wf := gather_S8x256_S300000x1_S300000x256_1_0_n_n_0_1_1256_wf
def gather_S200x256_S300000x1_S300000x256_1_0_n_n_0_1_1256 : GatherDims S200x256 S300000x1 S300000x256 where
  offsetDims := [1]
  collapsedSliceDims := [0]
  operandBatchingDims := []
  startIndicesBatchingDims := []
  startIndexMap := [0]
  indexVectorDim := 1
  sliceSizes := ![1, 256]
  wf := gather_S200x256_S300000x1_S300000x256_1_0_n_n_0_1_1256_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x128_S4000x256_S128x256_0_0_1_1_n_n : DotDims S4000x128 S4000x256 S128x256 where
  lhsContracting := [0]
  rhsContracting := [0]
  lhsNonContracting := [1]
  rhsNonContracting := [1]
  lhsBatch := []
  rhsBatch := []
  wf := dot_S4000x128_S4000x256_S128x256_0_0_1_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_arg1) S1000x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1536x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S4000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42_0) S128x256.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42_1) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x2 : Shape := ⟨2, ![100000, 2]⟩
abbrev S100000x1536 : Shape := ⟨2, ![100000, 1536]⟩
abbrev S300000x2 : Shape := ⟨2, ![300000, 2]⟩
abbrev S2x300000 : Shape := ⟨2, ![2, 300000]⟩
abbrev S100000 : Shape := ⟨1, ![100000]⟩
abbrev S10000x256 : Shape := ⟨2, ![10000, 256]⟩
abbrev S3x256 : Shape := ⟨2, ![3, 256]⟩
abbrev S1536x256 : Shape := ⟨2, ![1536, 256]⟩
abbrev S256 : Shape := ⟨1, ![256]⟩
abbrev S8x256 : Shape := ⟨2, ![8, 256]⟩
abbrev S200x256 : Shape := ⟨2, ![200, 256]⟩
abbrev S256x256 : Shape := ⟨2, ![256, 256]⟩
abbrev S100000x1 : Shape := ⟨2, ![100000, 1]⟩
abbrev S_ : Shape := ⟨0, ![]⟩
abbrev S100000x256 : Shape := ⟨2, ![100000, 256]⟩
abbrev S1x256 : Shape := ⟨2, ![1, 256]⟩
abbrev S300000x1 : Shape := ⟨2, ![300000, 1]⟩
abbrev S300000 : Shape := ⟨1, ![300000]⟩
abbrev S300000x256 : Shape := ⟨2, ![300000, 256]⟩
abbrev S1x300000 : Shape := ⟨2, ![1, 300000]⟩
abbrev S128x256 : Shape := ⟨2, ![128, 256]⟩
abbrev S128 : Shape := ⟨1, ![128]⟩
abbrev S128x1 : Shape := ⟨2, ![128, 1]⟩

abbrev nBuf : Space → Nat
  | .hbm => 162
  | .vmem => 0
  | .smem => 0
  | _ => 0

abbrev hbmTy0_0 (i : Nat) : BufTy := match i % 128 with
  | 0 => ⟨S100000x2, .i32⟩
  | 1 => ⟨S100000x1536, .f32⟩
  | 2 => ⟨S300000x2, .i32⟩
  | 3 => ⟨S2x300000, .i32⟩
  | 4 => ⟨S100000, .i32⟩
  | 5 => ⟨S10000x256, .f32⟩
  | 6 => ⟨S3x256, .f32⟩
  | 7 => ⟨S1536x256, .f32⟩
  | 8 => ⟨S256, .f32⟩
  | 9 => ⟨S8x256, .f32⟩
  | 10 => ⟨S200x256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x256, .f32⟩
  | 20 => ⟨S256, .f32⟩
  | 21 => ⟨S100000x1, .i32⟩
  | 22 => ⟨S100000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x256, .f32⟩
  | 32 => ⟨S100000x1, .i32⟩
  | 33 => ⟨S100000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x256, .f32⟩
  | 43 => ⟨S100000x256, .f32⟩
  | 44 => ⟨S100000x256, .f32⟩
  | 45 => ⟨S1x256, .f32⟩
  | 46 => ⟨S100000x256, .f32⟩
  | 47 => ⟨S100000x256, .f32⟩
  | 48 => ⟨S100000x256, .f32⟩
  | 49 => ⟨S300000x1, .i32⟩
  | 50 => ⟨S300000, .i32⟩
  | 51 => ⟨S_, .i32⟩
  | 52 => ⟨S_, .i32⟩
  | 53 => ⟨S_, .i32⟩
  | 54 => ⟨S300000, .i32⟩
  | 55 => ⟨S300000, .i32⟩
  | 56 => ⟨S_, .i32⟩
  | 57 => ⟨S300000, .i32⟩
  | 58 => ⟨S300000, .i32⟩
  | 59 => ⟨S300000x1, .i32⟩
  | 60 => ⟨S300000, .i32⟩
  | 61 => ⟨S_, .i32⟩
  | 62 => ⟨S300000, .i32⟩
  | 63 => ⟨S300000, .i1⟩
  | 64 => ⟨S_, .i32⟩
  | 65 => ⟨S300000, .i32⟩
  | 66 => ⟨S300000, .i32⟩
  | 67 => ⟨S300000, .i32⟩
  | 68 => ⟨S300000x1, .i32⟩
  | 69 => ⟨S300000x256, .f32⟩
  | 70 => ⟨S_, .i32⟩
  | 71 => ⟨S300000, .i32⟩
  | 72 => ⟨S300000, .i1⟩
  | 73 => ⟨S_, .i32⟩
  | 74 => ⟨S300000, .i32⟩
  | 75 => ⟨S300000, .i32⟩
  | 76 => ⟨S300000, .i32⟩
  | 77 => ⟨S300000x1, .i32⟩
  | 78 => ⟨S300000x256, .f32⟩
  | 79 => ⟨S300000x256, .f32⟩
  | 80 => ⟨S1x300000, .i32⟩
  | 81 => ⟨S300000, .i32⟩
  | 82 => ⟨S1x300000, .i32⟩
  | 83 => ⟨S300000, .i32⟩
  | 84 => ⟨S_, .i32⟩
  | 85 => ⟨S300000, .i32⟩
  | 86 => ⟨S300000, .i1⟩
  | 87 => ⟨S_, .i32⟩
  | 88 => ⟨S300000, .i32⟩
  | 89 => ⟨S300000, .i32⟩
  | 90 => ⟨S300000, .i32⟩
  | 91 => ⟨S300000x1, .i32⟩
  | 92 => ⟨S300000x256, .f32⟩
  | 93 => ⟨S300000x256, .f32⟩
  | 94 => ⟨S_, .f32⟩
  | 95 => ⟨S300000x256, .f32⟩
  | 96 => ⟨S300000x256, .f32⟩
  | 97 => ⟨S_, .f32⟩
  | 98 => ⟨S100000x256, .f32⟩
  | 99 => ⟨S300000x1, .i32⟩
  | 100 => ⟨S100000x256, .f32⟩
  | 101 => ⟨S100000x256, .f32⟩
  | 102 => ⟨S100000x256, .f32⟩
  | 103 => ⟨S1x256, .f32⟩
  | 104 => ⟨S100000x256, .f32⟩
  | 105 => ⟨S100000x256, .f32⟩
  | 106 => ⟨S_, .f32⟩
  | 107 => ⟨S100000x256, .f32⟩
  | 108 => ⟨S100000x256, .f32⟩
  | 109 => ⟨S100000x256, .f32⟩
  | 110 => ⟨S1x256, .f32⟩
  | 111 => ⟨S100000x256, .f32⟩
  | 112 => ⟨S100000x256, .f32⟩
  | 113 => ⟨S_, .i32⟩
  | 114 => ⟨S300000, .i32⟩
  | 115 => ⟨S300000, .i1⟩
  | 116 => ⟨S_, .i32⟩
  | 117 => ⟨S300000, .i32⟩
  | 118 => ⟨S300000, .i32⟩
  | 119 => ⟨S300000, .i32⟩
  | 120 => ⟨S300000x1, .i32⟩
  | 121 => ⟨S300000x256, .f32⟩
  | 122 => ⟨S300000x256, .f32⟩
  | 123 => ⟨S_, .f32⟩
  | 124 => ⟨S300000x256, .f32⟩
  | 125 => ⟨S300000x256, .f32⟩
  | 126 => ⟨S_, .f32⟩
  | 127 => ⟨S100000x256, .f32⟩
  | _ => ⟨S100000x2, .i32⟩

abbrev hbmTy0_1 (i : Nat) : BufTy := match i % 128 with
  | 0 => ⟨S300000x1, .i32⟩
  | 1 => ⟨S100000x256, .f32⟩
  | 2 => ⟨S100000x256, .f32⟩
  | 3 => ⟨S100000x256, .f32⟩
  | 4 => ⟨S1x256, .f32⟩
  | 5 => ⟨S100000x256, .f32⟩
  | 6 => ⟨S100000x256, .f32⟩
  | 7 => ⟨S_, .f32⟩
  | 8 => ⟨S100000x256, .f32⟩
  | 9 => ⟨S100000x256, .f32⟩
  | 10 => ⟨S100000x256, .f32⟩
  | 11 => ⟨S1x256, .f32⟩
  | 12 => ⟨S100000x256, .f32⟩
  | 13 => ⟨S100000x256, .f32⟩
  | 14 => ⟨S_, .f32⟩
  | 15 => ⟨S128x256, .f32⟩
  | 16 => ⟨S100000x1, .i32⟩
  | 17 => ⟨S128x256, .f32⟩
  | 18 => ⟨S_, .f32⟩
  | 19 => ⟨S100000, .f32⟩
  | 20 => ⟨S_, .f32⟩
  | 21 => ⟨S128, .f32⟩
  | 22 => ⟨S100000x1, .i32⟩
  | 23 => ⟨S128, .f32⟩
  | 24 => ⟨S_, .f32⟩
  | 25 => ⟨S128, .f32⟩
  | 26 => ⟨S128, .f32⟩
  | 27 => ⟨S128x1, .f32⟩
  | 28 => ⟨S128x256, .f32⟩
  | 29 => ⟨S128x256, .f32⟩
  | 30 => ⟨S128x256, .f32⟩
  | 31 => ⟨S1x256, .f32⟩
  | 32 => ⟨S128x256, .f32⟩
  | 33 => ⟨S128x256, .f32⟩
  | _ => ⟨S100000x2, .i32⟩

abbrev hbmTy (i : Nat) : BufTy := match i / 128 with
  | 0 => hbmTy0_0 i
  | 1 => hbmTy0_1 i
  | _ => ⟨S100000x2, .i32⟩

abbrev bufTy : (tb : Table) → Fin (tcTables nBuf tb) → BufTy
  | .hbm, ⟨i, _⟩ => hbmTy i
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_c_4 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_7 : Ref sig .tc := ⟨.hbm, 70, rfl⟩
abbrev main_v36 : Ref sig .tc := ⟨.hbm, 71, rfl⟩
abbrev main_v37 : Ref sig .tc := ⟨.hbm, 72, rfl⟩
abbrev main_c_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_9 : Ref sig .tc := ⟨.hbm, 84, rfl⟩
abbrev main_v48 : Ref sig .tc := ⟨.hbm, 85, rfl⟩
abbrev main_v49 : Ref sig .tc := ⟨.hbm, 86, rfl⟩
abbrev main_c_10 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_call1_cst : Ref sig .tc := ⟨.hbm, 94, rfl⟩
abbrev main_call1_v0 : Ref sig .tc := ⟨.hbm, 95, rfl⟩
abbrev main_v56 : Ref sig .tc := ⟨.hbm, 96, rfl⟩
abbrev main_cst : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call2_cst : Ref sig .tc := ⟨.hbm, 106, rfl⟩
abbrev main_call2_v0 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_11 : Ref sig .tc := ⟨.hbm, 113, rfl⟩
abbrev main_v70 : Ref sig .tc := ⟨.hbm, 114, rfl⟩
abbrev main_v71 : Ref sig .tc := ⟨.hbm, 115, rfl⟩
abbrev main_c_12 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_call3_cst : Ref sig .tc := ⟨.hbm, 123, rfl⟩
abbrev main_call3_v0 : Ref sig .tc := ⟨.hbm, 124, rfl⟩
abbrev main_v78 : Ref sig .tc := ⟨.hbm, 125, rfl⟩
abbrev main_cst_13 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_call4_cst : Ref sig .tc := ⟨.hbm, 135, rfl⟩
abbrev main_call4_v0 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_14 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_15 : Ref sig .tc := ⟨.hbm, 146, rfl⟩
abbrev main_v95 : Ref sig .tc := ⟨.hbm, 147, rfl⟩
abbrev main_cst_16 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_17 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩

abbrev nD : Nat := 1
abbrev τ : Topo := Topo.v7x

variable {F : FTy → Type} [FloatOps F]

class Facts₀ : Prop where
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S300000x2_S300000x1_0_1 : S300000x2.Slices ![0, 1] S300000x1
  shapeCasts_S300000x1_S300000 : S300000x1.ShapeCasts S300000
  bcast_S_S300000 : S_.BroadcastsInDim S300000 (![] : Fin 0 → Fin S300000.rank)
  slices_S300000x2_S300000x1_0_0 : S300000x2.Slices ![0, 0] S300000x1
  bcast_S300000_S300000x1_0 : S300000.BroadcastsInDim S300000x1 (![0] : Fin 1 → Fin S300000x1.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000x256 : S_.BroadcastsInDim S300000x256 (![] : Fin 0 → Fin S300000x256.rank)
  bcast_S_S100000x256 : S_.BroadcastsInDim S100000x256 (![] : Fin 0 → Fin S100000x256.rank)
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S1x256_S128x256_0_1 : S1x256.BroadcastsInDim S128x256 (![0, 1] : Fin 2 → Fin S128x256.rank)
  gather_S10000x256_S100000x1_S100000x256_1_0_n_n_0_1_1256_wf : GatherDims.WF S10000x256 S100000x1 S100000x256 [1] [0] [] [0] [] 1 ![1, 256]
  gather_S3x256_S100000x1_S100000x256_1_0_n_n_0_1_1256_wf : GatherDims.WF S3x256 S100000x1 S100000x256 [1] [0] [] [0] [] 1 ![1, 256]
  dot_S100000x1536_S1536x256_S100000x256_1_0_0_1_n_n_wf : DotDims.WF S100000x1536 S1536x256 S100000x256 [1] [0] [0] [1] [] []
  gather_S8x256_S300000x1_S300000x256_1_0_n_n_0_1_1256_wf : GatherDims.WF S8x256 S300000x1 S300000x256 [1] [0] [] [0] [] 1 ![1, 256]
  gather_S200x256_S300000x1_S300000x256_1_0_n_n_0_1_1256_wf : GatherDims.WF S200x256 S300000x1 S300000x256 [1] [0] [] [0] [] 1 ![1, 256]
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S100000x256_S256x256_S100000x256_1_0_0_1_n_n_wf : DotDims.WF S100000x256 S256x256 S100000x256 [1] [0] [0] [1] [] []
  scatter_S128x256_S100000x1_S100000x256_1_0_0_1_wf : ScatterDims.WF S128x256 S100000x1 S100000x256 [1] [0] [0] 1
  scatter_S128_S100000x1_S100000_n_0_0_1_wf : ScatterDims.WF S128 S100000x1 S100000 [] [0] [0] 1
  dot_S128x256_S256x256_S128x256_1_0_0_1_n_n_wf : DotDims.WF S128x256 S256x256 S128x256 [1] [0] [0] [1] [] []

variable [Facts₀]

def gather_S10000x256_S100000x1_S100000x256_1_0_n_n_0_1_1256 : GatherDims S10000x256 S100000x1 S100000x256 where
  offsetDims := [1]
  collapsedSliceDims := [0]
  operandBatchingDims := []
  startIndicesBatchingDims := []
  startIndexMap := [0]
  indexVectorDim := 1
  sliceSizes := ![1, 256]
  wf := gather_S10000x256_S100000x1_S100000x256_1_0_n_n_0_1_1256_wf
def gather_S3x256_S100000x1_S100000x256_1_0_n_n_0_1_1256 : GatherDims S3x256 S100000x1 S100000x256 where
  offsetDims := [1]
  collapsedSliceDims := [0]
  operandBatchingDims := []
  startIndicesBatchingDims := []
  startIndexMap := [0]
  indexVectorDim := 1
  sliceSizes := ![1, 256]
  wf := gather_S3x256_S100000x1_S100000x256_1_0_n_n_0_1_1256_wf
def dot_S100000x1536_S1536x256_S100000x256_1_0_0_1_n_n : DotDims S100000x1536 S1536x256 S100000x256 where
  lhsContracting := [1]
  rhsContracting := [0]
  lhsNonContracting := [0]
  rhsNonContracting := [1]
  lhsBatch := []
  rhsBatch := []
  wf := dot_S100000x1536_S1536x256_S100000x256_1_0_0_1_n_n_wf
def gather_S8x256_S300000x1_S300000x256_1_0_n_n_0_1_1256 : GatherDims S8x256 S300000x1 S300000x256 where
  offsetDims := [1]
  collapsedSliceDims := [0]
  operandBatchingDims := []
  startIndicesBatchingDims := []
  startIndexMap := [0]
  indexVectorDim := 1
  sliceSizes := ![1, 256]
  wf := gather_S8x256_S300000x1_S300000x256_1_0_n_n_0_1_1256_wf
def gather_S200x256_S300000x1_S300000x256_1_0_n_n_0_1_1256 : GatherDims S200x256 S300000x1 S300000x256 where
  offsetDims := [1]
  collapsedSliceDims := [0]
  operandBatchingDims := []
  startIndicesBatchingDims := []
  startIndexMap := [0]
  indexVectorDim := 1
  sliceSizes := ![1, 256]
  wf := gather_S200x256_S300000x1_S300000x256_1_0_n_n_0_1_1256_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S128x256_S100000x1_S100000x256_1_0_0_1 : ScatterDims S128x256 S100000x1 S100000x256 where
  updateWindowDims := [1]
  insertedWindowDims := [0]
  scatterDimsToOperandDims := [0]
  indexVectorDim := 1
  wf := scatter_S128x256_S100000x1_S100000x256_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

class Facts : Prop extends Facts₀ where

variable [Facts]
-- ==== Proof.Spec.lean ====
/-
  The mathematics shared by the two programs, as functions of whole arrays read index by index over the
  extended reals: an affine map of rows (a matrix product plus a row bias), the rectifier, the two-layer
  perceptron of a graph-isomorphism convolution, and the pooled sums and counts of rows against a 0/1
  membership matrix.
-/
import Idealize.ShloMosaic.PureOps.Ideal
import Idealize.ShloMosaic.Lib.ValueIdx

noncomputable section

open scoped BigOperators

namespace Cert.Spec

open Idealize.ShloMosaic Idealize.ShloMosaic.ValueIdx

/-- An n-by-m array of extended reals. -/
abbrev A2 (n m : Nat) : Type := (⟨2, ![n, m]⟩ : Shape).Idx → EReal

/-- Rows times a matrix, plus a bias along the columns: entry (r, j) is the sum over k of x(r,k)·w(k,j), plus b(j). -/
def lin {N K M : Nat} (x : A2 N K) (w : A2 K M) (b : Fin M → EReal) : A2 N M :=
  fun i => (∑ k : Fin K, x (ix2 (i 0) k) * w (ix2 k (i 1))) + b (i 1)

/-- The rectifier, entry by entry. -/
def relu {N M : Nat} (x : A2 N M) : A2 N M := fun i => max (x i) 0

/-- The sum of two arrays, entry by entry. -/
def add {N M : Nat} (x y : A2 N M) : A2 N M := fun i => x i + y i

/-- The convolution's perceptron on h + agg: two affine maps with a rectifier between them. -/
def mlp {N D : Nat} (h agg : A2 N D) (W1 : A2 D D) (b1 : Fin D → EReal) (W2 : A2 D D) (b2 : Fin D → EReal) : A2 N D :=
  lin (relu (lin (add h agg) W1 b1)) W2 b2

/-- Pooled sums: entry (g, d) is the sum over rows n of oh(n,g)·H(n,d). -/
def pool {N G D : Nat} (oh : A2 N G) (H : A2 N D) : A2 G D :=
  fun i => ∑ n : Fin N, oh (ix2 n (i 0)) * H (ix2 n (i 1))

/-- Pooled counts, as a single row: entry (0, g) is the sum over rows n of oh(n,g). -/
def count {N G : Nat} (oh : A2 N G) : A2 1 G :=
  fun i => ∑ n : Fin N, oh (ix2 n (i 1))

end Cert.Spec

end
-- ==== Proof.LibTake.lean ====
/-
  A bounds-checked table lookup whose indices are all in range is the plain lookup. The checked lookup wraps a
  negative index by the table's length, tests every wrapped index against 0 and the last row, and replaces a row
  whose test fails by a fill value; when every index already lies in [0, n) no index is wrapped and no test fails.
  Also: clamping an index into [lo, hi] puts it in range.
-/
import Idealize.ShloMosaic.PureOps
import Idealize.ShloMosaic.Lib.StableHlo.Predicate
import Idealize.ShloMosaic.Lib.ValueIdx
import Idealize.ShloMosaic.PureOps.Reduce

noncomputable section

namespace Cert.LibTake

open Idealize.ShloMosaic Idealize.ShloMosaic.ValueIdx

/-- The scalar shape, a vector, a column, and the shapes of the bound the test broadcasts. -/
abbrev S0 : Shape := ⟨0, ![]⟩
abbrev V1 (N : Nat) : Shape := ⟨1, ![N]⟩
abbrev C1 (N : Nat) : Shape := ⟨2, ![N, 1]⟩
abbrev R2 (N D : Nat) : Shape := ⟨2, ![N, D]⟩

/-- An index word is in range of a table of n rows: signed, 0 ≤ idx < n. -/
def InRange {N : Nat} (n : BitVec 32) (idx : IVec (V1 N) 32) : Prop :=
  ∀ p, IntOp.cmpi .sge (idx p) 0#32 = 1#1 ∧ IntOp.cmpi .slt (idx p) n = 1#1

/-- The lookup's wrapped index: idx + n where idx is negative, idx elsewhere. -/
def wrapIdx {N : Nat} (hb : S0.BroadcastsInDim (V1 N) (![] : Fin 0 → Fin (V1 N).rank)) (n : BitVec 32) (idx : IVec (V1 N) 32) : IVec (V1 N) 32 :=
  select (cmpi .slt idx (broadcastInDim (V1 N) ![] hb (constantI S0 32 0#32)))
    (addi idx (broadcastInDim (V1 N) ![] hb (constantI S0 32 n))) idx

/-- The lookup's range test of a column of wrapped indices: per row, 0 ≤ w ∧ w ≤ hi, folded over the column's one entry. -/
def rangeTest {N : Nat}
    (hbc : S0.BroadcastsInDim (C1 N) (![] : Fin 0 → Fin (C1 N).rank))
    (hb1 : (V1 1).BroadcastsInDim (C1 1) (![1] : Fin 1 → Fin (C1 1).rank))
    (hb11 : (C1 1).BroadcastsInDim (C1 N) (![0, 1] : Fin 2 → Fin (C1 N).rank))
    (hred : (C1 N).ReducesTo [1] (V1 N)) (h0 : 0 < S0.numel)
    (hi : BitVec 32) (w : IVec (C1 N) 32) : IVec (V1 N) 1 :=
  Host.reduce IntOp.andi
    (andi (cmpi .sge w (broadcastInDim (C1 N) ![] hbc (constantI S0 32 0#32)))
          (cmpi .sle w (broadcastInDim (C1 N) ![0, 1] hb11 (broadcastInDim (C1 1) ![1] hb1 (constantI (V1 1) 32 hi)))))
    (constantI S0 1 1#1) hred h0

/-! ## Words: the signed comparisons of the test, read as values -/

/-- A word that passes the signed test "0 ≤ a" has its sign bit clear: its value is below 2³¹. -/
theorem toNat_lt_of_sge {a : BitVec 32} (h : IntOp.cmpi .sge a 0#32 = 1#1) : a.toNat < 2 ^ 31 := by
  have h' : BitVec.ofBool ((0#32 : BitVec 32).sle a) = 1#1 := h
  rw [StableHlo.Predicate.ofBool_eq_one_iff] at h'
  have h0 : (0#32 : BitVec 32).toInt = 0 := by decide
  simp only [BitVec.sle, decide_eq_true_eq, h0] at h'
  rw [BitVec.toInt_eq_toNat_cond] at h'
  have := a.isLt
  split at h' <;> omega

/-- One row's test: a word in [0, n) signed passes "0 ≤ a ∧ a ≤ n − 1" (n positive and below 2³¹, so n − 1 does not wrap). -/
theorem test_word {a n hi : BitVec 32} (hn : 0 < n.toNat ∧ n.toNat < 2 ^ 31) (hhi : hi = n - 1#32)
    (h0 : IntOp.cmpi .sge a 0#32 = 1#1) (h1 : IntOp.cmpi .slt a n = 1#1) :
    IntOp.andi (IntOp.cmpi .sge a 0#32) (IntOp.cmpi .sle a hi) = 1#1 := by
  have ha := toNat_lt_of_sge h0
  have hlt : a.toNat < n.toNat := (StableHlo.Predicate.slt_iff_toNat ha hn.2).1 h1
  have hh : hi.toNat = n.toNat - 1 := by
    subst hhi
    rw [BitVec.toNat_sub, show (1#32 : BitVec 32).toNat = 1 from rfl]
    omega
  have h2 : IntOp.cmpi .sle a hi = 1#1 := (StableHlo.Predicate.sle_iff_toNat ha (by omega)).2 (by omega)
  rw [h0, h2]; rfl

/-- A conjunction folded from 1 over bits that are all 1 is 1, whatever the list folded over. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    have e : IntOp.andi 1#1 1#1 = 1#1 := by decide
    rw [List.foldl_cons, hx a, e]; exact ih

/-- The signed maximum with 0 has its sign bit clear. -/
theorem maxsi_zero_lt (v : BitVec 32) : (IntOp.maxsi 0#32 v).toNat < 2 ^ 31 := by
  unfold IntOp.maxsi
  split
  · show (0#32 : BitVec 32).toNat < 2 ^ 31
    simp
  · rename_i h
    have h0 : (0#32 : BitVec 32).toInt = 0 := by decide
    simp only [BitVec.slt, decide_eq_true_eq, h0] at h
    rw [BitVec.toInt_eq_toNat_cond] at h
    have := v.isLt
    split at h <;> omega

/-- The clamp's value is at most its upper bound (the bound below 2³¹). -/
theorem clamp_le (hi v : BitVec 32) (hhi : hi.toNat < 2 ^ 31) :
    (IntOp.minsi hi (IntOp.maxsi 0#32 v)).toNat ≤ hi.toNat := by
  have hm := maxsi_zero_lt v
  generalize IntOp.maxsi 0#32 v = m at hm ⊢
  unfold IntOp.minsi
  split
  · exact le_refl _
  · rename_i h
    simp only [BitVec.slt, decide_eq_true_eq, StableHlo.Predicate.toInt_eq_toNat_of_lt hhi,
      StableHlo.Predicate.toInt_eq_toNat_of_lt hm] at h
    omega

/-! ## The four facts about the checked lookup -/

/-- With every index in [0, n) (n positive and below 2³¹, hi = n − 1) no index is wrapped. -/
theorem wrapIdx_eq {N : Nat} (hb : S0.BroadcastsInDim (V1 N) (![] : Fin 0 → Fin (V1 N).rank)) (n : BitVec 32)
    (idx : IVec (V1 N) 32) (hidx : InRange n idx) : wrapIdx hb n idx = idx := by
  funext p
  have hlt : (idx p).toNat < 2 ^ 31 := toNat_lt_of_sge (hidx p).1
  -- a word with its sign bit clear is not below 0 signed, so the choice keeps it
  have hc : IntOp.cmpi .slt (idx p) 0#32 = 0#1 := by
    apply eq_zero_of_ne_one
    intro h
    have h' := (StableHlo.Predicate.slt_iff_toNat hlt (by decide)).1 h
    exact Nat.not_lt_zero _ h'
  show Scalar.select (IntOp.cmpi .slt (idx p) 0#32) (IntOp.addi (idx p) n) (idx p) = idx p
  rw [hc, select_zero]

/-- With every index in [0, n) and hi = n − 1 the range test passes on every row. -/
theorem rangeTest_eq_one {N : Nat}
    (hb : S0.BroadcastsInDim (V1 N) (![] : Fin 0 → Fin (V1 N).rank))
    (hbcol : (V1 N).BroadcastsInDim (C1 N) (![0] : Fin 1 → Fin (C1 N).rank))
    (hbc : S0.BroadcastsInDim (C1 N) (![] : Fin 0 → Fin (C1 N).rank))
    (hb1 : (V1 1).BroadcastsInDim (C1 1) (![1] : Fin 1 → Fin (C1 1).rank))
    (hb11 : (C1 1).BroadcastsInDim (C1 N) (![0, 1] : Fin 2 → Fin (C1 N).rank))
    (hred : (C1 N).ReducesTo [1] (V1 N)) (h0 : 0 < S0.numel)
    (n hi : BitVec 32) (hn : 0 < n.toNat ∧ n.toNat < 2 ^ 31) (hhi : hi = n - 1#32)
    (idx : IVec (V1 N) 32) (hidx : InRange n idx) :
    rangeTest hbc hb1 hb11 hred h0 hi (broadcastInDim (C1 N) ![0] hbcol (wrapIdx hb n idx)) = fun _ => 1#1 := by
  rw [wrapIdx_eq hb n idx hidx]
  funext j
  unfold rangeTest
  rw [Host.reduce_eq_foldl]
  -- every entry of the column is one of the index words, whichever it is
  have hw : ∀ i, ∃ q, broadcastInDim (C1 N) ![0] hbcol idx i = idx q := fun i => ⟨_, rfl⟩
  refine foldl_andi_one _ (fun i => ?_) _
  obtain ⟨q, hq⟩ := hw i
  show IntOp.andi (IntOp.cmpi .sge (broadcastInDim (C1 N) ![0] hbcol idx i) 0#32)
    (IntOp.cmpi .sle (broadcastInDim (C1 N) ![0] hbcol idx i) hi) = 1#1
  rw [hq]
  exact test_word hn hhi (hidx q).1 (hidx q).2

/-- A row-wise choice between two arrays by a test that passes on every row is the first array. -/
theorem select_rows_of_one {α : Type} {N D : Nat}
    (hbm : (V1 N).BroadcastsInDim (R2 N D) (![0] : Fin 1 → Fin (R2 N D).rank))
    (t : IVec (V1 N) 1) (ht : t = fun _ => 1#1) (g fill : (R2 N D).Idx → α) :
    select (broadcastInDim (R2 N D) ![0] hbm t) g fill = g := by
  subst ht
  funext j
  show Scalar.select 1#1 (g j) (fill j) = g j
  exact select_one _ _

/-- Clamping into [0, hi] (hi below 2³¹ − 1) puts every index in [0, hi + 1). -/
theorem clamp_inRange {N : Nat} (hb : S0.BroadcastsInDim (V1 N) (![] : Fin 0 → Fin (V1 N).rank))
    (hi : BitVec 32) (hhi : hi.toNat < 2 ^ 31 - 1) (v : IVec (V1 N) 32) :
    InRange (hi + 1#32)
      (minsi (broadcastInDim (V1 N) ![] hb (constantI S0 32 hi))
             (maxsi (broadcastInDim (V1 N) ![] hb (constantI S0 32 0#32)) v)) := by
  intro p
  show IntOp.cmpi .sge (IntOp.minsi hi (IntOp.maxsi 0#32 (v p))) 0#32 = 1#1
    ∧ IntOp.cmpi .slt (IntOp.minsi hi (IntOp.maxsi 0#32 (v p))) (hi + 1#32) = 1#1
  have hle := clamp_le hi (v p) (by omega)
  have hs : (hi + 1#32).toNat = hi.toNat + 1 := by
    rw [BitVec.toNat_add, show (1#32 : BitVec 32).toNat = 1 from rfl]
    omega
  exact ⟨(StableHlo.Predicate.sge_iff_toNat (by omega) (by decide)).2 (Nat.zero_le _),
    (StableHlo.Predicate.slt_iff_toNat (by omega) (by omega)).2 (by omega)⟩

end Cert.LibTake

end
-- ==== Proof.KTerm.lean ====
/-
  The kernel's program as functions of whole arrays: its host operations composed as printed, with each launch's
  output written as the specification function the launch computes. A bounds-checked lookup whose indices are all
  in range is the plain lookup.
-/
import proofs.«411472_j4595615007316_2_alg».proof.Proof.Gen.KernelIdeal
import proofs.«411472_j4595615007316_2_alg».proof.Proof.Spec
import proofs.«411472_j4595615007316_2_alg».proof.Proof.LibTake

noncomputable section

open scoped BigOperators

namespace Cert.KernelIdeal.KValue

open Cert.KernelIdeal Cert.KernelIdeal.Gen
open Idealize.ShloMosaic Idealize.ShloMosaic.ValueIdx

/-! ## The bounds-checked lookup -/

/-- The lookup as printed: rows of the table at the wrapped indices, a row whose wrapped index fails the range test
    replaced by the fill word's value. -/
def kTake {T : Shape} {N D : Nat} (d : GatherDims T (LibTake.C1 N) (LibTake.R2 N D))
    (hb : LibTake.S0.BroadcastsInDim (LibTake.V1 N) (![] : Fin 0 → Fin (LibTake.V1 N).rank))
    (hbcol : (LibTake.V1 N).BroadcastsInDim (LibTake.C1 N) (![0] : Fin 1 → Fin (LibTake.C1 N).rank))
    (hbc : LibTake.S0.BroadcastsInDim (LibTake.C1 N) (![] : Fin 0 → Fin (LibTake.C1 N).rank))
    (hb1 : (LibTake.V1 1).BroadcastsInDim (LibTake.C1 1) (![1] : Fin 1 → Fin (LibTake.C1 1).rank))
    (hb11 : (LibTake.C1 1).BroadcastsInDim (LibTake.C1 N) (![0, 1] : Fin 2 → Fin (LibTake.C1 N).rank))
    (hred : (LibTake.C1 N).ReducesTo [1] (LibTake.V1 N)) (h0 : 0 < LibTake.S0.numel)
    (hbm : (LibTake.V1 N).BroadcastsInDim (LibTake.R2 N D) (![0] : Fin 1 → Fin (LibTake.R2 N D).rank))
    (hbf : LibTake.S0.BroadcastsInDim (LibTake.R2 N D) (![] : Fin 0 → Fin (LibTake.R2 N D).rank))
    (n hi : BitVec 32) (tab : FVec Ideal T .f32) (idx : IVec (LibTake.V1 N) 32) : FVec Ideal (LibTake.R2 N D) .f32 :=
  select (broadcastInDim (LibTake.R2 N D) ![0] hbm
      (LibTake.rangeTest hbc hb1 hb11 hred h0 hi (broadcastInDim (LibTake.C1 N) ![0] hbcol (LibTake.wrapIdx hb n idx))))
    (Host.gather d tab (broadcastInDim (LibTake.C1 N) ![0] hbcol (LibTake.wrapIdx hb n idx)))
    (broadcastInDim (LibTake.R2 N D) ![] hbf (constant (F := Ideal) LibTake.S0 .f32 0x7FC00000#32))

/-- With every index in range the checked lookup is the plain lookup at the (wrapped) indices. -/
theorem kTake_eq {T : Shape} {N D : Nat} (d : GatherDims T (LibTake.C1 N) (LibTake.R2 N D))
    (hb hbcol hbc hb1 hb11 hred h0 hbm hbf) (n hi : BitVec 32) (hn : 0 < n.toNat ∧ n.toNat < 2 ^ 31) (hhi : hi = n - 1#32)
    (tab : FVec Ideal T .f32) (idx : IVec (LibTake.V1 N) 32) (hidx : LibTake.InRange n idx) :
    kTake d hb hbcol hbc hb1 hb11 hred h0 hbm hbf n hi tab idx
      = Host.gather d tab (broadcastInDim (LibTake.C1 N) ![0] hbcol (LibTake.wrapIdx hb n idx)) := by
  unfold kTake
  exact LibTake.select_rows_of_one hbm _
    (LibTake.rangeTest_eq_one hb hbcol hbc hb1 hb11 hred h0 n hi hn hhi idx hidx) _ _

/-! ## The index vectors -/

def idxX0 (a0 : IVec S100000x2 32) : IVec S100000 32 :=
  shapeCast S100000 (extractStridedSlice S100000x1 ![0, 0] a0 slices_S100000x2_S100000x1_0_0) shapeCasts_S100000x1_S100000
def idxX1 (a0 : IVec S100000x2 32) : IVec S100000 32 :=
  shapeCast S100000 (extractStridedSlice S100000x1 ![0, 1] a0 slices_S100000x2_S100000x1_0_1) shapeCasts_S100000x1_S100000
def idxE0 (a2 : IVec S300000x2 32) : IVec S300000 32 :=
  shapeCast S300000 (extractStridedSlice S300000x1 ![0, 0] a2 slices_S300000x2_S300000x1_0_0) shapeCasts_S300000x1_S300000
def idxE1 (a2 : IVec S300000x2 32) : IVec S300000 32 :=
  shapeCast S300000 (extractStridedSlice S300000x1 ![0, 1] a2 slices_S300000x2_S300000x1_0_1) shapeCasts_S300000x1_S300000
def idxSrc (a3 : IVec S2x300000 32) : IVec S300000 32 :=
  shapeCast S300000 (extractStridedSlice S1x300000 ![0, 0] a3 slices_S2x300000_S1x300000_0_0) shapeCasts_S1x300000_S300000
def idxDst (a3 : IVec S2x300000 32) : IVec S300000 32 :=
  shapeCast S300000 (extractStridedSlice S1x300000 ![1, 0] a3 slices_S2x300000_S1x300000_1_0) shapeCasts_S1x300000_S300000
/-- The child index clamped into [0, 199]. -/
def clipE (v : IVec S300000 32) : IVec S300000 32 :=
  minsi (broadcastInDim S300000 ![] bcast_S_S300000 (id (constantI S_ 32 199#32)))
    (maxsi (broadcastInDim S300000 ![] bcast_S_S300000 (id (constantI S_ 32 0#32))) v)

/-! ## The lookups of the program -/

def takeLabel (tab : FVec Ideal S10000x256 .f32) (idx : IVec S100000 32) : FVec Ideal S100000x256 .f32 :=
  kTake gather_S10000x256_S100000x1_S100000x256_1_0_n_n_0_1_1256 bcast_S_S100000 bcast_S100000_S100000x1_0 bcast_S_S100000x1
    bcast_S1_S1x1_1 bcast_S1x1_S100000x1_0_1 reducesTo_S100000x1_S100000_d1 h_S_ bcast_S100000_S100000x256_0 bcast_S_S100000x256
    10000#32 9999#32 tab idx
def takeType (tab : FVec Ideal S3x256 .f32) (idx : IVec S100000 32) : FVec Ideal S100000x256 .f32 :=
  kTake gather_S3x256_S100000x1_S100000x256_1_0_n_n_0_1_1256 bcast_S_S100000 bcast_S100000_S100000x1_0 bcast_S_S100000x1
    bcast_S1_S1x1_1 bcast_S1x1_S100000x1_0_1 reducesTo_S100000x1_S100000_d1 h_S_ bcast_S100000_S100000x256_0 bcast_S_S100000x256
    3#32 2#32 tab idx
def takeRole (tab : FVec Ideal S8x256 .f32) (idx : IVec S300000 32) : FVec Ideal S300000x256 .f32 :=
  kTake gather_S8x256_S300000x1_S300000x256_1_0_n_n_0_1_1256 bcast_S_S300000 bcast_S300000_S300000x1_0 bcast_S_S300000x1
    bcast_S1_S1x1_1 bcast_S1x1_S300000x1_0_1 reducesTo_S300000x1_S300000_d1 h_S_ bcast_S300000_S300000x256_0 bcast_S_S300000x256
    8#32 7#32 tab idx
def takeChild (tab : FVec Ideal S200x256 .f32) (idx : IVec S300000 32) : FVec Ideal S300000x256 .f32 :=
  kTake gather_S200x256_S300000x1_S300000x256_1_0_n_n_0_1_1256 bcast_S_S300000 bcast_S300000_S300000x1_0 bcast_S_S300000x1
    bcast_S1_S1x1_1 bcast_S1x1_S300000x1_0_1 reducesTo_S300000x1_S300000_d1 h_S_ bcast_S300000_S300000x256_0 bcast_S_S300000x256
    200#32 199#32 tab idx
def takeNode (tab : FVec Ideal S100000x256 .f32) (idx : IVec S300000 32) : FVec Ideal S300000x256 .f32 :=
  kTake gather_S100000x256_S300000x1_S300000x256_1_0_n_n_0_1_1256 bcast_S_S300000 bcast_S300000_S300000x1_0 bcast_S_S300000x1
    bcast_S1_S1x1_1 bcast_S1x1_S300000x1_0_1 reducesTo_S300000x1_S300000_d1 h_S_ bcast_S300000_S300000x256_0 bcast_S_S300000x256
    100000#32 99999#32 tab idx

/-! ## The stages -/

/-- A bias vector as a one-row array. -/
def biasRow (b : FVec Ideal S256 .f32) : FVec Ideal S1x256 .f32 := shapeCast S1x256 b shapeCasts_S256_S1x256
/-- A one-row array's row, as a function of the column. -/
def rowOf (b : FVec Ideal S1x256 .f32) : Fin 256 → EReal := fun j => b (ix2 0 j)

/-- The gathered node embedding: label row plus type row. -/
def kEmb (a0 : IVec S100000x2 32) (a5 : FVec Ideal S10000x256 .f32) (a6 : FVec Ideal S3x256 .f32) : FVec Ideal S100000x256 .f32 :=
  addf (takeLabel a5 (idxX0 a0)) (takeType a6 (idxX1 a0))

/-- The first launch's output. -/
def kH0 (a0 : IVec S100000x2 32) (a1 : FVec Ideal S100000x1536 .f32) (a5 : FVec Ideal S10000x256 .f32) (a6 : FVec Ideal S3x256 .f32)
    (a7 : FVec Ideal S1536x256 .f32) (a8 : FVec Ideal S256 .f32) : FVec Ideal S100000x256 .f32 :=
  Spec.add (Spec.lin a1 a7 (rowOf (biasRow a8))) (kEmb a0 a5 a6)

/-- The edge embedding, stored in the narrow format. -/
def kEa (a2 : IVec S300000x2 32) (a9 : FVec Ideal S8x256 .f32) (a10 : FVec Ideal S200x256 .f32) : FVec Ideal S300000x256 .bf16 :=
  truncf .bf16 (addf (takeRole a9 (idxE0 a2)) (takeChild a10 (clipE (idxE1 a2)))) bitsLt_bf16_f32

/-- The messages of one layer: the rectified sum of the source node's row and the edge embedding. -/
def kMsg (h : FVec Ideal S100000x256 .f32) (a3 : IVec S2x300000 32) (ea : FVec Ideal S300000x256 .bf16) : FVec Ideal S300000x256 .f32 :=
  maximumf (addf (takeNode h (idxSrc a3)) (extf .f32 ea bitsLt_bf16_f32))
    (broadcastInDim S300000x256 ![] bcast_S_S300000x256 (constant (F := Ideal) S_ .f32 0x00000000#32))

/-- The messages summed at their destination nodes. -/
def kAgg (h : FVec Ideal S100000x256 .f32) (a3 : IVec S2x300000 32) (ea : FVec Ideal S300000x256 .bf16) : FVec Ideal S100000x256 .f32 :=
  Host.scatterAdd scatter_S100000x256_S300000x1_S300000x256_1_0_0_1
    (broadcastInDim S100000x256 ![] bcast_S_S100000x256 (constant (F := Ideal) S_ .f32 0x00000000#32))
    (broadcastInDim S300000x1 ![0] bcast_S300000_S300000x1_0 (idxDst a3)) (kMsg h a3 ea)

/-- One convolution: the perceptron of h plus its aggregated messages. -/
def kConv (h : FVec Ideal S100000x256 .f32) (a3 : IVec S2x300000 32) (ea : FVec Ideal S300000x256 .bf16)
    (W1 : FVec Ideal S256x256 .f32) (b1 : FVec Ideal S256 .f32) (W2 : FVec Ideal S256x256 .f32) (b2 : FVec Ideal S256 .f32) : FVec Ideal S100000x256 .f32 :=
  Spec.mlp h (kAgg h a3 ea) W1 (rowOf (biasRow b1)) W2 (rowOf (biasRow b2))

/-- The membership matrix: entry (n, g) is 1 where node n's graph id is g, else 0. -/
def kOh (a4 : IVec S100000 32) : FVec Ideal S100000x128 .bf16 :=
  uitofp .bf16 (cmpi .eq (broadcastInDim S100000x128 ![0, 1] bcast_S100000x1_S100000x128_0_1 (broadcastInDim S100000x1 ![0] bcast_S100000_S100000x1_0 a4))
    (broadcastInDim S100000x128 ![0, 1] bcast_S1x128_S100000x128_0_1 (iotaInDim S1x128 32 1)))

/-- The program's tail: the pooled sums divided by the counts (at least 1), then the output projection. -/
def kTail (S : FVec Ideal S128x256 .f32) (C : FVec Ideal S1x128 .f32) (a19 : FVec Ideal S256x256 .f32) (a20 : FVec Ideal S256 .f32) : FVec Ideal S128x256 .f32 :=
  addf (Host.dotGeneral dot_S128x256_S256x256_S128x256_1_0_0_1_n_n none
      (Host.divf S (broadcastInDim S128x256 ![0, 1] bcast_S128x1_S128x256_0_1
        (maximumf (shapeCast S128x1 C shapeCasts_S1x128_S128x1) (broadcastInDim S128x1 ![] bcast_S_S128x1 (constant (F := Ideal) S_ .f32 0x3F800000#32))))) a19)
    (broadcastInDim S128x256 ![0, 1] bcast_S1x256_S128x256_0_1 (broadcastInDim S1x256 ![1] bcast_S256_S1x256_1 a20))

/-- The kernel's result as one function of its twenty-one arguments. -/
def kOut (a0 : IVec S100000x2 32) (a1 : FVec Ideal S100000x1536 .f32) (a2 : IVec S300000x2 32) (a3 : IVec S2x300000 32) (a4 : IVec S100000 32)
    (a5 : FVec Ideal S10000x256 .f32) (a6 : FVec Ideal S3x256 .f32) (a7 : FVec Ideal S1536x256 .f32) (a8 : FVec Ideal S256 .f32)
    (a9 : FVec Ideal S8x256 .f32) (a10 : FVec Ideal S200x256 .f32)
    (a11 : FVec Ideal S256x256 .f32) (a12 : FVec Ideal S256 .f32) (a13 : FVec Ideal S256x256 .f32) (a14 : FVec Ideal S256 .f32)
    (a15 : FVec Ideal S256x256 .f32) (a16 : FVec Ideal S256 .f32) (a17 : FVec Ideal S256x256 .f32) (a18 : FVec Ideal S256 .f32)
    (a19 : FVec Ideal S256x256 .f32) (a20 : FVec Ideal S256 .f32) : FVec Ideal S128x256 .f32 :=
  kTail
    (Spec.pool (kOh a4) (kConv (kConv (kH0 a0 a1 a5 a6 a7 a8) a3 (kEa a2 a9 a10) a11 a12 a13 a14) a3 (kEa a2 a9 a10) a15 a16 a17 a18))
    (Spec.count (kOh a4)) a19 a20

end Cert.KernelIdeal.KValue

end
-- ==== Proof.Region0.lean ====
/-
  The first launch as one function of whole arrays. Grid point t writes rows 1000·t … 1000·t + 999 of the output; each
  entry (r, j) is the full-length product of row r of the node features with column j of the projection, plus the bias
  at j, plus the gathered embedding at (r, j). The hundred row blocks tile the array.
-/
import proofs.«411472_j4595615007316_2_alg».proof.Proof.Gen.KernelIdeal.Frame
import proofs.«411472_j4595615007316_2_alg».proof.Proof.Spec
import Idealize.ShloMosaic.PureOps.Ideal.Laws
import Idealize.ShloMosaic.Lib.ValueLayout
import Idealize.ShloMosaic.Lib.Pipeline.Value

set_option maxRecDepth 16384

noncomputable section

open scoped BigOperators

namespace Cert.KernelIdeal.Value0

open Cert.KernelIdeal Cert.KernelIdeal.Gen
open Idealize.ShloMosaic Idealize.ShloMosaic.TcCoe Idealize.ShloMosaic.ValueIdx Idealize.SL.Sem

/-! ## The product at an index -/

/-- The left operand's row is the output's row. -/
theorem lhs_row (i : S1000x256.Idx) (q : dot_S1000x1536_S1536x256_S1000x256_1_0_0_1_n_n.contr.Idx) :
    (dot_S1000x1536_S1536x256_S1000x256_1_0_0_1_n_n.lhsIdx i q 0).val = (i 0).val := by
  unfold DotDims.lhsIdx
  rw [dif_neg (show ¬(0 : Fin S1000x1536.rank) ∈ dot_S1000x1536_S1536x256_S1000x256_1_0_0_1_n_n.lhsBatch by decide), dif_pos (show (0 : Fin S1000x1536.rank) ∈ dot_S1000x1536_S1536x256_S1000x256_1_0_0_1_n_n.lhsNonContracting by decide)]
  rfl
/-- The left operand's column is the contraction coordinate. -/
theorem lhs_col (i : S1000x256.Idx) (q : dot_S1000x1536_S1536x256_S1000x256_1_0_0_1_n_n.contr.Idx) :
    (dot_S1000x1536_S1536x256_S1000x256_1_0_0_1_n_n.lhsIdx i q 1).val = (q ⟨0, by decide⟩).val :=
  dot_S1000x1536_S1536x256_S1000x256_1_0_0_1_n_n.lhsIdx_val_of_single rfl i q
/-- The right operand's row is the contraction coordinate. -/
theorem rhs_row (i : S1000x256.Idx) (q : dot_S1000x1536_S1536x256_S1000x256_1_0_0_1_n_n.contr.Idx) :
    (dot_S1000x1536_S1536x256_S1000x256_1_0_0_1_n_n.rhsIdx i q 0).val = (q ⟨0, by decide⟩).val :=
  dot_S1000x1536_S1536x256_S1000x256_1_0_0_1_n_n.rhsIdx_val_of_single rfl i q
/-- The right operand's column is the output's column. -/
theorem rhs_col (i : S1000x256.Idx) (q : dot_S1000x1536_S1536x256_S1000x256_1_0_0_1_n_n.contr.Idx) :
    (dot_S1000x1536_S1536x256_S1000x256_1_0_0_1_n_n.rhsIdx i q 1).val = (i 1).val := by
  unfold DotDims.rhsIdx
  rw [dif_neg (show ¬(1 : Fin S1536x256.rank) ∈ dot_S1000x1536_S1536x256_S1000x256_1_0_0_1_n_n.rhsBatch by decide), dif_pos (show (1 : Fin S1536x256.rank) ∈ dot_S1000x1536_S1536x256_S1000x256_1_0_0_1_n_n.rhsNonContracting by decide)]
  rfl

/-- The block product into the zero accumulator, at (p, q): the sum over the 1536 contraction coordinates of row p of the
    left operand against column q of the right one. -/
theorem matmul_at {φ₁ φ₂ : FTy} (x : FVec Ideal S1000x1536 φ₁) (w : FVec Ideal S1536x256 φ₂) (p : Fin 1000) (q : Fin 256) :
    FloatOps.matmul dot_S1000x1536_S1536x256_S1000x256_1_0_0_1_n_n none x w (constant (F := Ideal) S1000x256 .f32 0x00000000#32) (ix2 p q)
      = ∑ k : Fin 1536, x (ix2 p k) * w (ix2 k q) := by
  rw [Ideal.matmul_constant_zero_apply, ← Equiv.sum_comp (ValueIdx.contrEquiv1 dot_S1000x1536_S1536x256_S1000x256_1_0_0_1_n_n 1536 rfl rfl).symm]
  refine Finset.sum_congr rfl fun k _ => ?_
  have hk := ValueIdx.contrEquiv1_symm_val dot_S1000x1536_S1536x256_S1000x256_1_0_0_1_n_n 1536 rfl rfl k
  have el : dot_S1000x1536_S1536x256_S1000x256_1_0_0_1_n_n.lhsIdx (ix2 p q) ((ValueIdx.contrEquiv1 dot_S1000x1536_S1536x256_S1000x256_1_0_0_1_n_n 1536 rfl rfl).symm k) = ix2 p k := funext fun a => Fin.ext (by
    match a with
    | ⟨0, _⟩ => exact lhs_row _ _
    | ⟨1, _⟩ => exact (lhs_col _ _).trans hk)
  have er : dot_S1000x1536_S1536x256_S1000x256_1_0_0_1_n_n.rhsIdx (ix2 p q) ((ValueIdx.contrEquiv1 dot_S1000x1536_S1536x256_S1000x256_1_0_0_1_n_n 1536 rfl rfl).symm k) = ix2 k q := funext fun a => Fin.ext (by
    match a with
    | ⟨0, _⟩ => exact (rhs_row _ _).trans hk
    | ⟨1, _⟩ => exact rhs_col _ _)
  rw [el, er]

/-! ## The body's arithmetic at an index -/

/-- Entry (p, q) of what the body stores: row p of the feature block against column q of the projection, plus the bias
    at q, plus the embedding block at (p, q). Narrowing to bf16 is the identity on the extended reals. -/
theorem pay_at (v0 : Vec Ideal S1000x1536 .f32) (v2 : Vec Ideal S1536x256 .f32) (v5 : Vec Ideal S1x256 .f32)
    (v9 : Vec Ideal S1000x256 .f32) (p : Fin 1000) (q : Fin 256) :
    k0_pay1 (F := Ideal) v0 v2 v5 v9 (ix2 p q)
      = ((∑ k : Fin 1536, v0 (ix2 p k) * v2 (ix2 k q)) + v5 (ix2 (0 : Fin 1) q)) + v9 (ix2 p q) := by
  unfold k0_pay1
  simp only [addf_apply, shapeCast_self]
  refine congrArg₂ (· + ·) (congrArg₂ (· + ·) ?_ ?_) rfl
  · exact matmul_at (truncf .bf16 v0 bitsLt_bf16_f32) (truncf .bf16 v2 bitsLt_bf16_f32) p q
  · exact broadcastTo_1b_ab_apply v5 broadcasts_S1x256_S1000x256 p q

/-- Entry (p, q) of the stored block as entry (r, q) of the whole-array function, given where each loaded block sits in
    its array: the feature and embedding blocks are rows n·1000 … n·1000 + 999, the projection and the bias are whole. -/
theorem block_entry (X : Spec.A2 100000 1536) (W : Spec.A2 1536 256) (B : Spec.A2 1 256) (E : Spec.A2 100000 256)
    (x0 : Vec Ideal S1000x1536 .f32) (x1 : Vec Ideal S1536x256 .f32) (x2 : Vec Ideal S1x256 .f32) (x3 : Vec Ideal S1000x256 .f32)
    (n : Nat) (y : S1000x256.Idx) (i : S100000x256.Idx)
    (hi0 : (i 0).val = n * 1000 + (y 0).val) (hi1 : (i 1).val = (y 1).val)
    (h0 : ∀ (p : Fin 1000) (k : Fin 1536) (r : Fin 100000), r.val = n * 1000 + p.val → x0 (ix2 p k) = X (ix2 r k))
    (h1 : ∀ (k : Fin 1536) (q : Fin 256), x1 (ix2 k q) = W (ix2 k q))
    (h2 : ∀ q : Fin 256, x2 (ix2 (0 : Fin 1) q) = B (ix2 (0 : Fin 1) q))
    (h3 : ∀ (p : Fin 1000) (q : Fin 256) (r : Fin 100000), r.val = n * 1000 + p.val → x3 (ix2 p q) = E (ix2 r q)) :
    k0_pay1 (F := Ideal) x0 x1 x2 x3 y = Spec.add (Spec.lin X W (fun j => B (ix2 (0 : Fin 1) j))) E i := by
  obtain ⟨p, q, rfl⟩ : ∃ (p : Fin 1000) (q : Fin 256), y = ix2 p q := ⟨y 0, y 1, eq_ix2 y⟩
  obtain ⟨r, s, rfl⟩ : ∃ (r : Fin 100000) (s : Fin 256), i = ix2 r s := ⟨i 0, i 1, eq_ix2 i⟩
  have hr : r.val = n * 1000 + p.val := hi0
  obtain rfl : s = q := Fin.ext hi1
  rw [pay_at]
  unfold Spec.add Spec.lin
  show _ = ((∑ k : Fin 1536, X (ix2 r k) * W (ix2 k s)) + B (ix2 (0 : Fin 1) s)) + E (ix2 r s)
  refine congrArg₂ (· + ·) (congrArg₂ (· + ·) (Finset.sum_congr rfl fun k _ => ?_) (h2 s)) (h3 p s r hr)
  rw [h0 p k r hr, h1 k s]

/-! ## The blocks in their arrays -/

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by
  match a with
  | ⟨0, _⟩ => rfl
  | ⟨1, _⟩ => rfl

/-- The index maps over the hundred points: the features, the embedding and the output move down one row block per
    point; the projection and the bias stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The arrays the launch reads, as the region finds them, at their literal types. -/
abbrev feat (c : Dev nD) : Spec.A2 100000 1536 := V c main_arg1
abbrev proj (c : Dev nD) : Spec.A2 1536 256 := V c main_arg7
abbrev bias (c : Dev nD) : Spec.A2 1 256 := V c main_v7
abbrev emb (c : Dev nD) : Spec.A2 100000 256 := V c main_v6

/-- The blocks the body loads at point t, at their literal types. -/
abbrev featBlk (c : Dev nD) (t : Fin cfg0.N) : Vec Ideal S1000x1536 .f32 := iblk0 V c 0 t
abbrev projBlk (c : Dev nD) (t : Fin cfg0.N) : Vec Ideal S1536x256 .f32 := iblk0 V c 1 t
abbrev biasBlk (c : Dev nD) (t : Fin cfg0.N) : Vec Ideal S1x256 .f32 := iblk0 V c 2 t
abbrev embBlk (c : Dev nD) (t : Fin cfg0.N) : Vec Ideal S1000x256 .f32 := iblk0 V c 3 t

/-- The feature block at point t is rows 1000·t … 1000·t + 999 of the node features. -/
theorem featBlk_at (c : Dev nD) (t : Fin cfg0.N) (p : Fin 1000) (k : Fin 1536) (r : Fin 100000)
    (hr : r.val = t.val * 1000 + p.val) : featBlk V c t (ix2 p k) = feat V c (ix2 r k) := by
  obtain ⟨e0, e1, -⟩ := idx_facts t
  unfold featBlk feat iblk0
  rw [View.read_apply]
  show V c main_arg1 _ = V c main_arg1 _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 1536 + 1 * k.val = k.val; rw [e1]; omega

/-- The projection block at every point is the whole projection. -/
theorem projBlk_at (c : Dev nD) (t : Fin cfg0.N) (k : Fin 1536) (q : Fin 256) :
    projBlk V c t (ix2 k q) = proj V c (ix2 k q) := by
  obtain ⟨-, -, e0, e1, -⟩ := idx_facts t
  unfold projBlk proj iblk0
  rw [View.read_apply]
  show V c main_arg7 _ = V c main_arg7 _
  congr 1
  funext a
  apply Fin.ext
  match a with
  | ⟨0, _⟩ => show win0_1.index t (0 : Fin 2) * 1536 + 1 * k.val = k.val; rw [e0]; omega
  | ⟨1, _⟩ => show win0_1.index t (1 : Fin 2) * 256 + 1 * q.val = q.val; rw [e1]; omega

/-- The bias block at every point is the whole one-row bias. -/
theorem biasBlk_at (c : Dev nD) (t : Fin cfg0.N) (q : Fin 256) :
    biasBlk V c t (ix2 (0 : Fin 1) q) = bias V c (ix2 (0 : Fin 1) q) := by
  obtain ⟨-, -, -, -, e0, e1, -⟩ := idx_facts t
  unfold biasBlk bias iblk0
  rw [View.read_apply]
  show V c main_v7 _ = V c main_v7 _
  congr 1
  funext a
  apply Fin.ext
  match a with
  | ⟨0, _⟩ => show win0_2.index t (0 : Fin 2) * 1 + 1 * 0 = 0; rw [e0]
  | ⟨1, _⟩ => show win0_2.index t (1 : Fin 2) * 256 + 1 * q.val = q.val; rw [e1]; omega

/-- The embedding block at point t is rows 1000·t … 1000·t + 999 of the embedding. -/
theorem embBlk_at (c : Dev nD) (t : Fin cfg0.N) (p : Fin 1000) (q : Fin 256) (r : Fin 100000)
    (hr : r.val = t.val * 1000 + p.val) : embBlk V c t (ix2 p q) = emb V c (ix2 r q) := by
  obtain ⟨-, -, -, -, -, -, e0, e1, -⟩ := idx_facts t
  unfold embBlk emb iblk0
  rw [View.read_apply]
  show V c main_v6 _ = V c main_v6 _
  congr 1
  funext a
  apply Fin.ext
  match a with
  | ⟨0, _⟩ => show win0_3.index t (0 : Fin 2) * 1000 + 1 * p.val = r.val; rw [e0, hr]; omega
  | ⟨1, _⟩ => show win0_3.index t (1 : Fin 2) * 256 + 1 * q.val = q.val; rw [e1]; omega

/-! ## From blocks to the array -/

/-- The output array as one function of the arrays the launch reads. -/
abbrev G0 (c : Dev nD) : Spec.A2 100000 256 :=
  Spec.add (Spec.lin (feat V c) (proj V c) (fun j => bias V c (ix2 (0 : Fin 1) j))) (emb V c)

/-- What point t writes back is block t of that function: rows 1000·t … 1000·t + 999. -/
theorem flushed_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  unfold out0_4
  rw [View.canon_unit_zero hz]
  simp only [View.ld_unit_zero (S := S1000x1536) hz, View.ld_unit_zero (S := S1536x256) hz,
    View.ld_unit_zero (S := S1x256) hz, View.ld_unit_zero (S := S1000x256) hz]
  obtain ⟨-, -, -, -, -, -, -, -, e0, e1⟩ := idx_facts t
  funext y
  show k0_pay1 (F := Ideal) (featBlk V c t) (projBlk V c t) (biasBlk V c t) (embBlk V c t) y
    = G0 V c (((cfg0.win 4).blk t).view.emb y)
  refine block_entry (feat V c) (proj V c) (bias V c) (emb V c) (featBlk V c t) (projBlk V c t) (biasBlk V c t)
    (embBlk V c t) t.val y (((cfg0.win 4).blk t).view.emb y) ?_ ?_
    (fun p k r hr => featBlk_at V c t p k r hr) (fun k q => projBlk_at V c t k q) (fun q => biasBlk_at V c t q)
    (fun p q r hr => embBlk_at V c t p q r hr)
  · show win0_4.index t (0 : Fin 2) * 1000 + 1 * (y 0).val = t.val * 1000 + (y 0).val
    rw [e0]; omega
  · show win0_4.index t (1 : Fin 2) * 256 + 1 * (y 1).val = (y 1).val
    rw [e1]; omega

/-- An index of the array is in point t's block iff each coordinate is in the block's range on its axis. -/
theorem mem_blk (t : Fin cfg0.N) (i : S100000x256.Idx) :
    i ∈ ((cfg0.win 4).blk t).view.set ↔ ∀ a : Fin 2, win0_4.index t a * S1000x256.size a ≤ (i a).val
      ∧ (i a).val < win0_4.index t a * S1000x256.size a + S1000x256.size a := by
  show i ∈ ((View.whole main_v8).slice (win0_4.rect t)).set ↔ _
  rw [View.set_slice_whole, Rect.mem_set_unit]
  exact Iff.rfl

/-- Row r is written by point r / 1000: the hundred row blocks tile the array. -/
theorem cover (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  obtain ⟨t, ht⟩ : ∃ t : Fin cfg0.N, t.val = (i 0).val / 1000 :=
    ⟨⟨(i 0).val / 1000, by rw [show cfg0.N = 100 from N_0]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 1000 ≤ (i 0).val ∧ (i 0).val < win0_4.index t (0 : Fin 2) * 1000 + 1000
    rw [e0, ht]; omega
  | ⟨1, _⟩ =>
    show win0_4.index t (1 : Fin 2) * 256 ≤ (i 1).val ∧ (i 1).val < win0_4.index t (1 : Fin 2) * 256 + 256
    rw [e1]; omega

/-- After the first launch its output array is the affine map of the node features plus the embedding. -/
theorem region0_value (c : Dev nD) :
    ((dat0 V c).arrAt 4 cfg0.N : Spec.A2 100000 256)
      = Spec.add (Spec.lin (V c main_arg1 : Spec.A2 100000 1536) (V c main_arg7 : Spec.A2 1536 256)
          (fun j => (V c main_v7 : Spec.A2 1 256) (ix2 0 j))) (V c main_v6 : Spec.A2 100000 256) :=
  (dat0 V c).arrAt_eq_of_cover 4 (G0 V c) (fun t _ => flushed_eq V c t) cover

end Cert.KernelIdeal.Value0

end
-- ==== Proof.LibPlainMatmul.lean ====
/-
  A plain matrix product read at an index.

  For the dimension numbers `[1] x [0]` with no batch axes (`DotDims.plain M K N`: rows by contraction times contraction by
  columns), a `tpu.matmul` into the zero accumulator, read on the extended reals at the output index `(r, j)`, is
  `∑ k, x (r, k) * w (k, j)`, for any extents and any operand formats. A printed dot record with the same six axis lists is
  that record (its well-formedness field is a proof), so the lemma serves every such record through `rfl`.
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- A plain product into the zero accumulator, at `(r, j)`: the sum over the contraction of the row of the left operand
    against the column of the right one. -/
theorem matmul_zero_apply {φ₁ φ₂ : FTy} (x : FVec Ideal ⟨2, ![M, K]⟩ φ₁) (w : FVec Ideal ⟨2, ![K, N]⟩ φ₂)
    (r : Fin M) (j : Fin N) :
    FloatOps.matmul (DotDims.plain M K N) none x w (constant ⟨2, ![M, N]⟩ .f32 0x00000000#32) (ix2 r j)
      = ∑ k : Fin K, x (ix2 r k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact lhs_row M K N _ _
      | ⟨1, _⟩ => exact (lhs_col M K N _ _).trans hk)
  have er : (DotDims.plain M K N).rhsIdx (ix2 r j) ((contrEquiv1 (DotDims.plain M K N) K rfl rfl).symm k) = ix2 k j :=
    funext fun a => Fin.ext (by
      match a with
      | ⟨0, _⟩ => exact (rhs_row M K N _ _).trans hk
      | ⟨1, _⟩ => exact rhs_col M K N _ _)
  rw [el, er]

end Idealize.ShloMosaic.PlainMatmul

end
-- ==== Proof.Region1.lean ====
/-
  The second launch as one function of whole arrays. Grid point t writes rows 4000·t … 4000·t + 3999 of the output;
  each row is the two-layer perceptron of the same row of h + agg. The twenty-five row blocks tile the array.
-/
import proofs.«411472_j4595615007316_2_alg».proof.Proof.Gen.KernelIdeal.Frame
import proofs.«411472_j4595615007316_2_alg».proof.Proof.Spec
import proofs.«411472_j4595615007316_2_alg».proof.Proof.LibPlainMatmul
import Idealize.ShloMosaic.Lib.ValueLayout
import Idealize.ShloMosaic.PureOps.Ideal.Laws

set_option maxRecDepth 16384

noncomputable section

open scoped BigOperators

namespace Cert.KernelIdeal.Value1

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The body's stored value at an index -/

/-- The printed dimension numbers of both products are the plain ones: rows by contraction times contraction by columns. -/
theorem dot_eq_plain : dot_S4000x256_S256x256_S4000x256_1_0_0_1_n_n = DotDims.plain 4000 256 256 := rfl

/-- The f32 zero word read on the extended reals. -/
theorem zero_word : (FloatOps.ofBits (F := Ideal) FTy.f32 0x00000000#32 : EReal) = 0 := Ideal.ofBits_zero_f32

/-- The body's stored value at row p, column q of its block: the second affine map of the rectified first affine map of
    the sum of the two row blocks. The shape casts are identities, the narrowings to bf16 change nothing on the extended
    reals, each product into the zero accumulator is the plain sum over the contraction, each bias row is read at row 0. -/
theorem pay_apply (v0 v2 : Vec Ideal S4000x256 .f32) (v6 : Vec Ideal S256x256 .f32) (v9 : Vec Ideal S1x256 .f32)
    (v16 : Vec Ideal S256x256 .f32) (v19 : Vec Ideal S1x256 .f32) (p : Fin 4000) (q : Fin 256) :
    k1_pay1 (F := Ideal) v0 v2 v6 v9 v16 v19 (ix2 p q)
      = (∑ k : Fin 256, max ((∑ k' : Fin 256, (v0 (ix2 p k') + v2 (ix2 p k')) * v6 (ix2 k' k)) + v9 (ix2 0 k)) 0
            * v16 (ix2 k q)) + v19 (ix2 0 q) := by
  unfold k1_pay1
  simp only [shapeCast_self, matmul]
  rw [addf_apply, broadcastTo_1b_ab_apply, dot_eq_plain, PlainMatmul.matmul_zero_apply]
  refine congrArg (· + v19 (ix2 0 q)) (Finset.sum_congr rfl fun k _ => ?_)
  rw [truncf_apply, truncf_apply, maximumf_apply, broadcast_apply, zero_word, addf_apply, broadcastTo_1b_ab_apply,
    PlainMatmul.matmul_zero_apply]
  refine congrArg (fun z => max (z + v9 (ix2 0 k)) 0 * v16 (ix2 k q)) (Finset.sum_congr rfl fun k' _ => ?_)
  rw [truncf_apply, truncf_apply, addf_apply]

/-- The specification at row r, column q, spelt out. -/
theorem mlp_apply (h agg : Spec.A2 100000 256) (W1 : Spec.A2 256 256) (b1 : Spec.A2 1 256) (W2 : Spec.A2 256 256)
    (b2 : Spec.A2 1 256) (r : Fin 100000) (q : Fin 256) :
    Spec.mlp h agg W1 (fun j => b1 (ix2 0 j)) W2 (fun j => b2 (ix2 0 j)) (ix2 r q)
      = (∑ k : Fin 256, max ((∑ k' : Fin 256, (h (ix2 r k') + agg (ix2 r k')) * W1 (ix2 k' k)) + b1 (ix2 0 k)) 0
            * W2 (ix2 k q)) + b2 (ix2 0 q) := rfl

/-- The stored value at (p, q) is the specification at (r, q) as soon as row p of the two row blocks is row r of h and agg
    and the four small blocks are the weight and bias arrays themselves. -/
theorem pay_eq_mlp (v0 v2 : Vec Ideal S4000x256 .f32) (v6 : Vec Ideal S256x256 .f32) (v9 : Vec Ideal S1x256 .f32)
    (v16 : Vec Ideal S256x256 .f32) (v19 : Vec Ideal S1x256 .f32)
    (h agg : Spec.A2 100000 256) (W1 : Spec.A2 256 256) (b1 : Spec.A2 1 256) (W2 : Spec.A2 256 256) (b2 : Spec.A2 1 256)
    (p : Fin 4000) (r : Fin 100000) (q : Fin 256)
    (h0 : ∀ k : Fin 256, v0 (ix2 p k) = h (ix2 r k)) (h2 : ∀ k : Fin 256, v2 (ix2 p k) = agg (ix2 r k))
    (h6 : ∀ k' k : Fin 256, v6 (ix2 k' k) = W1 (ix2 k' k)) (h9 : ∀ k : Fin 256, v9 (ix2 0 k) = b1 (ix2 0 k))
    (h16 : ∀ k' k : Fin 256, v16 (ix2 k' k) = W2 (ix2 k' k)) (h19 : ∀ k : Fin 256, v19 (ix2 0 k) = b2 (ix2 0 k)) :
    k1_pay1 (F := Ideal) v0 v2 v6 v9 v16 v19 (ix2 p q)
      = Spec.mlp h agg W1 (fun j => b1 (ix2 0 j)) W2 (fun j => b2 (ix2 0 j)) (ix2 r q) := by
  rw [pay_apply, mlp_apply]
  simp only [h0, h2, h6, h9, h16, h19]

/-! ## The blocks: where each window's block sits in its array -/

/-- The printed index maps over the grid: the three row windows are at block (t, 0), the four small windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem lt_25 (t : Fin cfg1.N) : t.val < 25 := Nat.lt_of_lt_of_eq t.isLt N_1

/-- Row p of block t is row 4000·t + p of the array. -/
def rowOf (t : Fin cfg1.N) (p : Fin 4000) : Fin 100000 := ⟨t.val * 4000 + p.val, by have := lt_25 t; omega⟩

/-- A block's coordinate is its block index times the block size plus the coordinate inside the block: the row windows. -/
theorem emb0 (t : Fin cfg1.N) (p : Fin 4000) (k : Fin 256) :
    (((cfg1.win 0).blk t).view.emb (ix2 p k) : S100000x256.Idx) = ix2 (rowOf t p) k := by
  obtain ⟨e0, e1, -⟩ := idx_facts t
  funext a; apply Fin.ext
  match a with
  | ⟨0, _⟩ => show win1_0.index t (0 : Fin 2) * 4000 + 1 * p.val = t.val * 4000 + p.val; rw [e0]; omega
  | ⟨1, _⟩ => show win1_0.index t (1 : Fin 2) * 256 + 1 * k.val = k.val; rw [e1]; omega

theorem emb1 (t : Fin cfg1.N) (p : Fin 4000) (k : Fin 256) :
    (((cfg1.win 1).blk t).view.emb (ix2 p k) : S100000x256.Idx) = ix2 (rowOf t p) k := by
  obtain ⟨-, -, e0, e1, -⟩ := idx_facts t
  funext a; apply Fin.ext
  match a with
  | ⟨0, _⟩ => show win1_1.index t (0 : Fin 2) * 4000 + 1 * p.val = t.val * 4000 + p.val; rw [e0]; omega
  | ⟨1, _⟩ => show win1_1.index t (1 : Fin 2) * 256 + 1 * k.val = k.val; rw [e1]; omega

theorem emb6 (t : Fin cfg1.N) (p : Fin 4000) (k : Fin 256) :
    (((cfg1.win 6).blk t).view.emb (ix2 p k) : S100000x256.Idx) = ix2 (rowOf t p) k := by
  obtain ⟨-, -, -, -, -, -, -, -, -, -, -, -, e0, e1⟩ := idx_facts t
  funext a; apply Fin.ext
  match a with
  | ⟨0, _⟩ => show win1_6.index t (0 : Fin 2) * 4000 + 1 * p.val = t.val * 4000 + p.val; rw [e0]; omega
  | ⟨1, _⟩ => show win1_6.index t (1 : Fin 2) * 256 + 1 * k.val = k.val; rw [e1]; omega

/-- The small windows' one block is the whole array. -/
theorem emb2 (t : Fin cfg1.N) (a b : Fin 256) :
    (((cfg1.win 2).blk t).view.emb (ix2 a b) : S256x256.Idx) = ix2 a b := by
  obtain ⟨-, -, -, -, e0, e1, -⟩ := idx_facts t
  funext x; apply Fin.ext
  match x with
  | ⟨0, _⟩ => show win1_2.index t (0 : Fin 2) * 256 + 1 * a.val = a.val; rw [e0]; omega
  | ⟨1, _⟩ => show win1_2.index t (1 : Fin 2) * 256 + 1 * b.val = b.val; rw [e1]; omega

theorem emb3 (t : Fin cfg1.N) (a : Fin 1) (b : Fin 256) :
    (((cfg1.win 3).blk t).view.emb (ix2 a b) : S1x256.Idx) = ix2 a b := by
  obtain ⟨-, -, -, -, -, -, e0, e1, -⟩ := idx_facts t
  funext x; apply Fin.ext
  match x with
  | ⟨0, _⟩ => show win1_3.index t (0 : Fin 2) * 1 + 1 * a.val = a.val; rw [e0]; omega
  | ⟨1, _⟩ => show win1_3.index t (1 : Fin 2) * 256 + 1 * b.val = b.val; rw [e1]; omega

theorem emb4 (t : Fin cfg1.N) (a b : Fin 256) :
    (((cfg1.win 4).blk t).view.emb (ix2 a b) : S256x256.Idx) = ix2 a b := by
  obtain ⟨-, -, -, -, -, -, -, -, e0, e1, -⟩ := idx_facts t
  funext x; apply Fin.ext
  match x with
  | ⟨0, _⟩ => show win1_4.index t (0 : Fin 2) * 256 + 1 * a.val = a.val; rw [e0]; omega
  | ⟨1, _⟩ => show win1_4.index t (1 : Fin 2) * 256 + 1 * b.val = b.val; rw [e1]; omega

theorem emb5 (t : Fin cfg1.N) (a : Fin 1) (b : Fin 256) :
    (((cfg1.win 5).blk t).view.emb (ix2 a b) : S1x256.Idx) = ix2 a b := by
  obtain ⟨-, -, -, -, -, -, -, -, -, -, e0, e1, -⟩ := idx_facts t
  funext x; apply Fin.ext
  match x with
  | ⟨0, _⟩ => show win1_5.index t (0 : Fin 2) * 1 + 1 * a.val = a.val; rw [e0]; omega
  | ⟨1, _⟩ => show win1_5.index t (1 : Fin 2) * 256 + 1 * b.val = b.val; rw [e1]; omega

/-! ## What a point writes back -/

theorem hz : (![0, 0] : Fin 2 → Nat) = fun _ => 0 := funext fun a => by fin_cases a <;> rfl

/-- A block of 4000 rows whose entry (p, q) is entry (4000·t + p, q) of a whole array G is block t of G. -/
theorem cut_eq_read (t : Fin cfg1.N) (X : Vec Ideal S4000x256 .f32) (G : Spec.A2 100000 256)
    (h : ∀ (p : Fin 4000) (q : Fin 256), X (ix2 p q) = G (ix2 (rowOf t p) q)) :
    (cfg1.win 6).cut (grid1.coords t) X = ((cfg1.win 6).blk t).view.read (Elt Ideal) G := by
  funext j
  obtain ⟨p, q, rfl⟩ : ∃ (p : Fin 4000) (q : Fin 256), j = ix2 p q := ⟨j 0, j 1, eq_ix2 (n0 := 4000) (n1 := 256) j⟩
  show X (ix2 p q) = G (((cfg1.win 6).blk t).view.emb (ix2 p q))
  rw [emb6, h]

/-- What point t writes back is block t of the perceptron of the entry contents. -/
theorem flushed_eq (c : Dev nD) (t : Fin cfg1.N) :
    (dat1 V c).flushed 6 t = ((cfg1.win 6).blk t).view.read (Elt Ideal)
      (Spec.mlp (V c main_v8 : Spec.A2 100000 256) (V c main_v32 : Spec.A2 100000 256)
          (V c main_arg11 : Spec.A2 256 256) (fun j => (V c main_v22 : Spec.A2 1 256) (ix2 0 j))
          (V c main_arg13 : Spec.A2 256 256) (fun j => (V c main_v23 : Spec.A2 1 256) (ix2 0 j))) := by
  show (cfg1.win 6).cut (grid1.coords t) ((dat1 V c).after 6 t) = _
  rw [after1_6]
  unfold out1_6
  rw [View.canon_unit_zero hz]
  simp only [View.ld_unit_zero (S := S4000x256) hz, View.ld_unit_zero (S := S256x256) hz, View.ld_unit_zero (S := S1x256) hz]
  refine cut_eq_read t _ _ fun p q => ?_
  refine pay_eq_mlp _ _ _ _ _ _ _ _ _ _ _ _ p (rowOf t p) q ?_ ?_ ?_ ?_ ?_ ?_
  · intro k
    show V c main_v8 (((cfg1.win 0).blk t).view.emb (ix2 p k)) = V c main_v8 (ix2 (rowOf t p) k)
    rw [emb0]
  · intro k
    show V c main_v32 (((cfg1.win 1).blk t).view.emb (ix2 p k)) = V c main_v32 (ix2 (rowOf t p) k)
    rw [emb1]
  · intro k' k
    show V c main_arg11 (((cfg1.win 2).blk t).view.emb (ix2 k' k)) = V c main_arg11 (ix2 k' k)
    rw [emb2]
  · intro k
    show V c main_v22 (((cfg1.win 3).blk t).view.emb (ix2 0 k)) = V c main_v22 (ix2 0 k)
    rw [emb3]
  · intro k' k
    show V c main_arg13 (((cfg1.win 4).blk t).view.emb (ix2 k' k)) = V c main_arg13 (ix2 k' k)
    rw [emb4]
  · intro k
    show V c main_v23 (((cfg1.win 5).blk t).view.emb (ix2 0 k)) = V c main_v23 (ix2 0 k)
    rw [emb5]

/-! ## The cover: row r lies in the block of point r / 4000 -/

/-- An index of the array is in point t's block iff each coordinate is in the block's range on its axis. -/
theorem mem_blk6 (t : Fin cfg1.N) (i : S100000x256.Idx) :
    i ∈ ((cfg1.win 6).blk t).view.set ↔ ∀ a : Fin 2, win1_6.index t a * S4000x256.size a ≤ (i a).val
      ∧ (i a).val < win1_6.index t a * S4000x256.size a + S4000x256.size a := by
  show i ∈ ((View.whole main_v33).slice (win1_6.rect t)).set ↔ _
  rw [View.set_slice_whole, Rect.mem_set_unit]
  exact Iff.rfl

theorem cover6 (i : S100000x256.Idx) :
    ∃ t : Fin cfg1.N, (cfg1.win 6).flush t = true ∧ i ∈ ((cfg1.win 6).blk t).view.set := by
  have hi0 : (i 0).val < 100000 := (i 0).isLt
  have hi1 : (i 1).val < 256 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, e0, e1⟩ := idx_facts t
  refine ⟨t, flush1_6 t, ?_⟩
  rw [mem_blk6]
  intro a
  match a with
  | ⟨0, _⟩ =>
    show win1_6.index t (0 : Fin 2) * 4000 ≤ (i 0).val ∧ (i 0).val < win1_6.index t (0 : Fin 2) * 4000 + 4000
    rw [e0, ht]; omega
  | ⟨1, _⟩ =>
    show win1_6.index t (1 : Fin 2) * 256 ≤ (i 1).val ∧ (i 1).val < win1_6.index t (1 : Fin 2) * 256 + 256
    rw [e1]; omega

/-- After the second launch its output array is the perceptron of h + agg, row by row. -/
theorem region1_value (c : Dev nD) :
    ((dat1 V c).arrAt 6 cfg1.N : Spec.A2 100000 256)
      = Spec.mlp (V c main_v8 : Spec.A2 100000 256) (V c main_v32 : Spec.A2 100000 256)
          (V c main_arg11 : Spec.A2 256 256) (fun j => (V c main_v22 : Spec.A2 1 256) (ix2 0 j))
          (V c main_arg13 : Spec.A2 256 256) (fun j => (V c main_v23 : Spec.A2 1 256) (ix2 0 j)) :=
  (dat1 V c).arrAt_eq_of_cover 6 _ (fun t _ => flushed_eq V c t) cover6

end Cert.KernelIdeal.Value1

end
-- ==== Proof.Region2.lean ====
/-
  The third launch as functions of whole arrays. Both outputs are one block revisited by every grid point: point 0
  clears them, and point t adds the pooled sums and counts of rows 4000·t … 4000·t + 3999 of the perceptron's output
  against the same rows of the membership matrix. After the last point the blocks hold the sums over all rows.

  The argument, in order: what each control case leaves in the two output blocks, as the body's arithmetic applied to
  the loaded blocks; that arithmetic read at an index over the extended reals (two matrix products, a column sum, the
  rectifier, the additions); the input blocks as rows of the arrays; the invariant "after point n the blocks hold the
  sums over tiles 0 … n", by induction on the point, where 0 + x = x joins the cleared block to the first tile; the sum
  over 100000 rows as 25 tiles of 4000 rows; and the one write-back at the last point, whose block is the whole array.
-/
import proofs.«411472_j4595615007316_2_alg».proof.Proof.Gen.KernelIdeal.Frame
import proofs.«411472_j4595615007316_2_alg».proof.Proof.Spec
import Idealize.ShloMosaic.Lib.Pipeline.Value
import Idealize.ShloMosaic.PureOps.Ideal.Laws

set_option maxRecDepth 16384

noncomputable section

open scoped BigOperators

namespace Cert.KernelIdeal.Value2

open Cert.KernelIdeal Cert.KernelIdeal.Gen
open Idealize.ShloMosaic Idealize.ShloMosaic.TcCoe Idealize.ShloMosaic.ValueIdx Idealize.SL.Sem

section Pieces
variable {F : FTy → Type} [FloatOps F]

theorem hz : (![0, 0] : Fin 2 → Nat) = fun _ => 0 := funext fun a => by fin_cases a <;> rfl

/-- At a later point the first output's block ends as the carried block plus this tile's pooled sums. -/
theorem out_B_7 (c : Dev nD) (i : grid2.Coords) (arg1 : Memref sig .tc .vmem S4000x256 .f32) (harg1 : arg1.IsWhole) (arg2 : Memref sig .tc .vmem S4000x256 .f32) (harg2 : arg2.IsWhole) (arg3 : Memref sig .tc .vmem S4000x128 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S128x256 .f32) (harg8 : arg8.IsWhole) (arg9 : Memref sig .tc .vmem S1x128 .f32) (harg9 : arg9.IsWhole) (hc0 : ¬cond2_0 i) (x0 : Vec F S4000x256 .f32) (x1 : Vec F S4000x256 .f32) (x2 : Vec F S4000x128 .bf16) (x3 : Vec F S256x256 .f32) (x4 : Vec F S1x256 .f32) (x5 : Vec F S256x256 .f32) (x6 : Vec F S1x256 .f32) (xo7 : Vec F S128x256 .f32) (xo8 : Vec F S1x128 .f32) :
    out2_B_7 c i arg1 harg1 arg2 harg2 arg3 harg3 arg4 harg4 arg5 harg5 arg6 harg6 arg7 harg7 arg8 harg8 arg9 harg9 hc0 x0 x1 x2 x3 x4 x5 x6 xo7 xo8 = k2_pay1 (k2_pay6 x0 x1 x3 x4 x5 x6 x2) (k2_pay8 xo7) := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 x6 xo7 xo8)]
  unfold kernelRun2_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x256) hz, View.ld_unit_zero (S := S4000x128) hz, View.ld_unit_zero (S := S256x256) hz, View.ld_unit_zero (S := S1x256) hz, View.ld_unit_zero (S := S128x256) hz, View.ld_unit_zero (S := S1x128) hz]

/-- At a later point the second output's block ends as the carried block plus this tile's counts. -/
theorem out_B_8 (c : Dev nD) (i : grid2.Coords) (arg1 : Memref sig .tc .vmem S4000x256 .f32) (harg1 : arg1.IsWhole) (arg2 : Memref sig .tc .vmem S4000x256 .f32) (harg2 : arg2.IsWhole) (arg3 : Memref sig .tc .vmem S4000x128 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S128x256 .f32) (harg8 : arg8.IsWhole) (arg9 : Memref sig .tc .vmem S1x128 .f32) (harg9 : arg9.IsWhole) (hc0 : ¬cond2_0 i) (x0 : Vec F S4000x256 .f32) (x1 : Vec F S4000x256 .f32) (x2 : Vec F S4000x128 .bf16) (x3 : Vec F S256x256 .f32) (x4 : Vec F S1x256 .f32) (x5 : Vec F S256x256 .f32) (x6 : Vec F S1x256 .f32) (xo7 : Vec F S128x256 .f32) (xo8 : Vec F S1x128 .f32) :
    out2_B_8 c i arg1 harg1 arg2 harg2 arg3 harg3 arg4 harg4 arg5 harg5 arg6 harg6 arg7 harg7 arg8 harg8 arg9 harg9 hc0 x0 x1 x2 x3 x4 x5 x6 xo7 xo8 = k2_pay2 (k2_pay7 x2) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 x6 xo7 xo8)]
  unfold kernelRun2_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S4000x256) hz, View.ld_unit_zero (S := S4000x128) hz, View.ld_unit_zero (S := S256x256) hz, View.ld_unit_zero (S := S1x256) hz, View.ld_unit_zero (S := S128x256) hz, View.ld_unit_zero (S := S1x128) hz]

/-- At the first point the first output's block is cleared and then takes this tile's pooled sums. -/
theorem out_A_7 (c : Dev nD) (i : grid2.Coords) (arg1 : Memref sig .tc .vmem S4000x256 .f32) (harg1 : arg1.IsWhole) (arg2 : Memref sig .tc .vmem S4000x256 .f32) (harg2 : arg2.IsWhole) (arg3 : Memref sig .tc .vmem S4000x128 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S128x256 .f32) (harg8 : arg8.IsWhole) (arg9 : Memref sig .tc .vmem S1x128 .f32) (harg9 : arg9.IsWhole) (hc0 : cond2_0 i) (x0 : Vec F S4000x256 .f32) (x1 : Vec F S4000x256 .f32) (x2 : Vec F S4000x128 .bf16) (x3 : Vec F S256x256 .f32) (x4 : Vec F S1x256 .f32) (x5 : Vec F S256x256 .f32) (x6 : Vec F S1x256 .f32) :
    out2_A_7 c i arg1 harg1 arg2 harg2 arg3 harg3 arg4 harg4 arg5 harg5 arg6 harg6 arg7 harg7 arg8 harg8 arg9 harg9 hc0 x0 x1 x2 x3 x4 x5 x6 = k2_pay1 (k2_pay6 x0 x1 x3 x4 x5 x6 x2) (k2_pay8 (k2_pay3 (F := F))) := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5 x6)]
  unfold kernelRun2_A
  dsimp only
  sl_unfold_words
  rw [View.canon_cons_unit_zero (S := S128x256) hz]
  simp only [View.readAt_eq_ld, harg1.read_unread, harg2.read_unread, harg3.read_unread, harg4.read_unread, harg5.read_unread, harg6.read_unread, harg7.read_unread, harg8.read_unread, harg9.read_unread, View.ld_unit_zero (S := S4000x256) hz, View.ld_unit_zero (S := S4000x128) hz, View.ld_unit_zero (S := S256x256) hz, View.ld_unit_zero (S := S1x256) hz, View.ld_unit_zero (S := S128x256) hz, View.ld_unit_zero (S := S1x128) hz, View.readCov_unit_zero (S := S128x256) _ hz]

/-- At the first point the second output's block is cleared and then takes this tile's counts. -/
theorem out_A_8 (c : Dev nD) (i : grid2.Coords) (arg1 : Memref sig .tc .vmem S4000x256 .f32) (harg1 : arg1.IsWhole) (arg2 : Memref sig .tc .vmem S4000x256 .f32) (harg2 : arg2.IsWhole) (arg3 : Memref sig .tc .vmem S4000x128 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S128x256 .f32) (harg8 : arg8.IsWhole) (arg9 : Memref sig .tc .vmem S1x128 .f32) (harg9 : arg9.IsWhole) (hc0 : cond2_0 i) (x0 : Vec F S4000x256 .f32) (x1 : Vec F S4000x256 .f32) (x2 : Vec F S4000x128 .bf16) (x3 : Vec F S256x256 .f32) (x4 : Vec F S1x256 .f32) (x5 : Vec F S256x256 .f32) (x6 : Vec F S1x256 .f32) :
    out2_A_8 c i arg1 harg1 arg2 harg2 arg3 harg3 arg4 harg4 arg5 harg5 arg6 harg6 arg7 harg7 arg8 harg8 arg9 harg9 hc0 x0 x1 x2 x3 x4 x5 x6 = k2_pay2 (k2_pay7 x2) (k2_pay4 (F := F)) := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5 x6)]
  unfold kernelRun2_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg9.read_unread, View.ld_unit_zero (S := S4000x256) hz, View.ld_unit_zero (S := S4000x128) hz, View.ld_unit_zero (S := S256x256) hz, View.ld_unit_zero (S := S1x256) hz, View.ld_unit_zero (S := S128x256) hz, View.ld_unit_zero (S := S1x128) hz, View.readCov_unit_zero (S := S1x128) _ hz]

end Pieces

section Arithmetic

/-! The two matrix products of the body, read at an index over the extended reals. -/

theorem lhs_lin_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs_lin_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhs_lin_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhs_lin_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- Rows times a 256-by-256 matrix into a zero accumulator: entry (r, j) is the sum over k of lhs(r,k)·rhs(k,j). -/
theorem matmul_lin {φ₁ φ₂ : FTy} (lhs : FVec Ideal S4000x256 φ₁) (rhs : FVec Ideal S256x256 φ₂) (r : Fin 4000) (j : Fin 256) :
    matmul dot_S4000x256_S256x256_S4000x256_1_0_0_1_n_n none lhs rhs (constant (F := Ideal) S4000x256 .f32 0x00000000#32) (ix2 r j)
      = ∑ k : Fin 256, lhs (ix2 r k) * rhs (ix2 k j) := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 r j) ((contrEquiv1 dot_S4000x256_S256x256_S4000x256_1_0_0_1_n_n 256 rfl rfl).symm k) = ix2 r k := funext fun a => Fin.ext (by
    match a with
    | ⟨0, _⟩ => exact lhs_lin_0 _ _
    | ⟨1, _⟩ => exact (lhs_lin_1 _ _).trans hk)
  have er : dot_S4000x256_S256x256_S4000x256_1_0_0_1_n_n.rhsIdx (ix2 r j) ((contrEquiv1 dot_S4000x256_S256x256_S4000x256_1_0_0_1_n_n 256 rfl rfl).symm k) = ix2 k j := funext fun a => Fin.ext (by
    match a with
    | ⟨0, _⟩ => exact (rhs_lin_0 _ _).trans hk
    | ⟨1, _⟩ => exact rhs_lin_1 _ _)
  rw [el, er]

theorem lhs_pool_0 (i : S128x256.Idx) (q : dot_S4000x128_S4000x256_S128x256_0_0_1_1_n_n.contr.Idx) :
    (dot_S4000x128_S4000x256_S128x256_0_0_1_1_n_n.lhsIdx i q 0).val = (q ⟨0, by decide⟩).val :=
  dot_S4000x128_S4000x256_S128x256_0_0_1_1_n_n.lhsIdx_val_of_single rfl i q
theorem lhs_pool_1 (i : S128x256.Idx) (q : dot_S4000x128_S4000x256_S128x256_0_0_1_1_n_n.contr.Idx) :
    (dot_S4000x128_S4000x256_S128x256_0_0_1_1_n_n.lhsIdx i q 1).val = (i 0).val := by
  unfold DotDims.lhsIdx
  rw [dif_neg (show ¬(1 : Fin S4000x128.rank) ∈ dot_S4000x128_S4000x256_S128x256_0_0_1_1_n_n.lhsBatch by decide), dif_pos (show (1 : Fin S4000x128.rank) ∈ dot_S4000x128_S4000x256_S128x256_0_0_1_1_n_n.lhsNonContracting by decide)]
  rfl
theorem rhs_pool_0 (i : S128x256.Idx) (q : dot_S4000x128_S4000x256_S128x256_0_0_1_1_n_n.contr.Idx) :
    (dot_S4000x128_S4000x256_S128x256_0_0_1_1_n_n.rhsIdx i q 0).val = (q ⟨0, by decide⟩).val :=
  dot_S4000x128_S4000x256_S128x256_0_0_1_1_n_n.rhsIdx_val_of_single rfl i q
theorem rhs_pool_1 (i : S128x256.Idx) (q : dot_S4000x128_S4000x256_S128x256_0_0_1_1_n_n.contr.Idx) :
    (dot_S4000x128_S4000x256_S128x256_0_0_1_1_n_n.rhsIdx i q 1).val = (i 1).val := by
  unfold DotDims.rhsIdx
  rw [dif_neg (show ¬(1 : Fin S4000x256.rank) ∈ dot_S4000x128_S4000x256_S128x256_0_0_1_1_n_n.rhsBatch by decide), dif_pos (show (1 : Fin S4000x256.rank) ∈ dot_S4000x128_S4000x256_S128x256_0_0_1_1_n_n.rhsNonContracting by decide)]
  rfl

/-- The pooling product contracts the row axis of both operands: entry (g, d) is the sum over the tile's rows s of
    lhs(s,g)·rhs(s,d). -/
theorem matmul_pool {φ₁ φ₂ : FTy} (lhs : FVec Ideal S4000x128 φ₁) (rhs : FVec Ideal S4000x256 φ₂) (g : Fin 128) (d : Fin 256) :
    matmul dot_S4000x128_S4000x256_S128x256_0_0_1_1_n_n none lhs rhs (constant (F := Ideal) S128x256 .f32 0x00000000#32) (ix2 g d)
      = ∑ s : Fin 4000, lhs (ix2 s g) * rhs (ix2 s d) := by
  simp only [matmul]
  rw [Ideal.matmul_constant_zero_apply, ← Equiv.sum_comp (contrEquiv1 dot_S4000x128_S4000x256_S128x256_0_0_1_1_n_n 4000 rfl rfl).symm]
  refine Finset.sum_congr rfl fun s _ => ?_
  have hk := contrEquiv1_symm_val dot_S4000x128_S4000x256_S128x256_0_0_1_1_n_n 4000 rfl rfl s
  have el : dot_S4000x128_S4000x256_S128x256_0_0_1_1_n_n.lhsIdx (ix2 g d) ((contrEquiv1 dot_S4000x128_S4000x256_S128x256_0_0_1_1_n_n 4000 rfl rfl).symm s) = ix2 s g := funext fun a => Fin.ext (by
    match a with
    | ⟨0, _⟩ => exact (lhs_pool_0 _ _).trans hk
    | ⟨1, _⟩ => exact lhs_pool_1 _ _)
  have er : dot_S4000x128_S4000x256_S128x256_0_0_1_1_n_n.rhsIdx (ix2 g d) ((contrEquiv1 dot_S4000x128_S4000x256_S128x256_0_0_1_1_n_n 4000 rfl rfl).symm s) = ix2 s d := funext fun a => Fin.ext (by
    match a with
    | ⟨0, _⟩ => exact (rhs_pool_0 _ _).trans hk
    | ⟨1, _⟩ => exact rhs_pool_1 _ _)
  rw [el, er]

end Arithmetic

section Payloads

/-- One affine layer of the body on a tile of rows: the product with the weights into a zero accumulator, plus the bias
    row repeated down the rows. -/
def layer {F : FTy → Type} [FloatOps F] (x : FVec F S4000x256 .bf16) (w : Vec F S256x256 .f32) (b : Vec F S1x256 .f32) :
    FVec F S4000x256 .f32 :=
  addf (matmul dot_S4000x256_S256x256_S4000x256_1_0_0_1_n_n none x (truncf .bf16 w bitsLt_bf16_f32) (constant S4000x256 .f32 0x00000000#32))
    (broadcastTo S4000x256 (shapeCast S1x256 b shapeCasts_S1x256_S1x256) broadcasts_S1x256_S4000x256)

/-- The perceptron the body applies to a tile before pooling: two affine layers with a rectifier between them, on the
    sum of the two input tiles. -/
def tileH {F : FTy → Type} [FloatOps F] (x0 x1 : Vec F S4000x256 .f32) (x3 : Vec F S256x256 .f32) (x4 : Vec F S1x256 .f32)
    (x5 : Vec F S256x256 .f32) (x6 : Vec F S1x256 .f32) : FVec F S4000x256 .f32 :=
  layer (truncf .bf16 (maximumf (layer (truncf .bf16 (addf (shapeCast S4000x256 x0 shapeCasts_S4000x256_S4000x256)
      (shapeCast S4000x256 x1 shapeCasts_S4000x256_S4000x256)) bitsLt_bf16_f32) x3 x4)
    (broadcast S4000x256 (Scalar.ofBits .f32 0x00000000#32))) bitsLt_bf16_f32) x5 x6

/-- The pooled-sums payload is the pooling product of the membership tile with the tile's perceptron. -/
theorem pay6_eq {F : FTy → Type} [FloatOps F] (x0 x1 : Vec F S4000x256 .f32) (x2 : Vec F S4000x128 .bf16) (x3 : Vec F S256x256 .f32)
    (x4 : Vec F S1x256 .f32) (x5 : Vec F S256x256 .f32) (x6 : Vec F S1x256 .f32) :
    k2_pay6 x0 x1 x3 x4 x5 x6 x2
      = matmul dot_S4000x128_S4000x256_S128x256_0_0_1_1_n_n none (shapeCast S4000x128 x2 shapeCasts_S4000x128_S4000x128)
          (truncf .bf16 (tileH x0 x1 x3 x4 x5 x6) bitsLt_bf16_f32) (constant S128x256 .f32 0x00000000#32) := rfl

/-- An affine layer over the extended reals is the specification's, entry by entry. -/
theorem layer_eq (x : FVec Ideal S4000x256 .bf16) (w : Vec Ideal S256x256 .f32) (b : Vec Ideal S1x256 .f32) :
    layer (F := Ideal) x w b = Spec.lin (x : Spec.A2 4000 256) (w : Spec.A2 256 256) (fun j => (b : Spec.A2 1 256) (ix2 0 j)) := by
  funext i
  obtain ⟨s, d, rfl⟩ : ∃ (s : Fin 4000) (d : Fin 256), i = ix2 s d := ⟨i 0, i 1, eq_ix2 i⟩
  unfold layer
  rw [addf_apply]
  refine congrArg₂ (· + ·) (matmul_lin x (truncf .bf16 w bitsLt_bf16_f32) s d) ?_
  refine (broadcastTo_apply _ _ (ix2 s d) (ix2 0 d) (fun a => ?_)).trans ?_
  · match a with
    | ⟨0, _⟩ => rfl
    | ⟨1, _⟩ => rfl
  · rw [shapeCast_self]

/-- So the tile's perceptron over the extended reals is the specification's perceptron of the two tiles. -/
theorem tileH_eq (x0 x1 : Vec Ideal S4000x256 .f32) (x3 : Vec Ideal S256x256 .f32) (x4 : Vec Ideal S1x256 .f32)
    (x5 : Vec Ideal S256x256 .f32) (x6 : Vec Ideal S1x256 .f32) :
    tileH (F := Ideal) x0 x1 x3 x4 x5 x6
      = Spec.mlp (x0 : Spec.A2 4000 256) (x1 : Spec.A2 4000 256) (x3 : Spec.A2 256 256) (fun j => (x4 : Spec.A2 1 256) (ix2 0 j))
          (x5 : Spec.A2 256 256) (fun j => (x6 : Spec.A2 1 256) (ix2 0 j)) := by
  unfold tileH Spec.mlp
  rw [layer_eq, layer_eq, shapeCast_self, shapeCast_self]
  refine congrArg (fun X => Spec.lin X (x5 : Spec.A2 256 256) (fun j => (x6 : Spec.A2 1 256) (ix2 0 j))) ?_
  funext i
  show max _ (Ideal.ofBits .f32 0x00000000#32) = max _ 0
  rw [Ideal.ofBits_zero_f32]
  rfl

/-- The pooled-sums payload at (g, d): the sum over the tile's rows s of oh(s,g)·H(s,d). -/
theorem pay6_apply (x0 x1 : Vec Ideal S4000x256 .f32) (x2 : Vec Ideal S4000x128 .bf16) (x3 : Vec Ideal S256x256 .f32)
    (x4 : Vec Ideal S1x256 .f32) (x5 : Vec Ideal S256x256 .f32) (x6 : Vec Ideal S1x256 .f32) (g : Fin 128) (d : Fin 256) :
    k2_pay6 (F := Ideal) x0 x1 x3 x4 x5 x6 x2 (ix2 g d)
      = ∑ s : Fin 4000, (x2 : Spec.A2 4000 128) (ix2 s g)
          * Spec.mlp (x0 : Spec.A2 4000 256) (x1 : Spec.A2 4000 256) (x3 : Spec.A2 256 256) (fun j => (x4 : Spec.A2 1 256) (ix2 0 j))
              (x5 : Spec.A2 256 256) (fun j => (x6 : Spec.A2 1 256) (ix2 0 j)) (ix2 s d) := by
  rw [pay6_eq]
  refine (matmul_pool _ _ g d).trans ?_
  rw [shapeCast_self, tileH_eq]
  rfl

/-- The counts payload at (0, g): the sum over the tile's rows s of oh(s,g). -/
theorem pay7_apply (x2 : Vec Ideal S4000x128 .bf16) (g : Fin 128) :
    k2_pay7 (F := Ideal) x2 (ix2 0 g) = ∑ s : Fin 4000, (x2 : Spec.A2 4000 128) (ix2 s g) := by
  unfold k2_pay7 k2_pay5
  refine (shapeCast_apply _ _ (ix2 0 g) (ix1 g) ?_).trans ?_
  · rw [Shape.rowMajor_val_one, Shape.rowMajor_val_two]
    show g.val = 0 * 128 + g.val
    omega
  refine (Ideal.multiReduction_add_single _ _ reduces_S4000x128_S128 (.inl rfl) rfl (ix1 g)).trans ?_
  refine Finset.sum_congr rfl fun s _ => ?_
  rw [shapeCast_self]
  show x2 (reduces_S4000x128_S128.lift (ix1 g) s) = x2 (ix2 s g)
  refine congrArg x2 (funext fun a => Fin.ext ?_)
  match a with
  | ⟨0, _⟩ => rfl
  | ⟨1, _⟩ => rfl

end Payloads

section Blocks

variable (V : (c : Dev nD) → (b : Ref sig .tc) → Buf (Elt Ideal) ((c : Thread nD τ).loc b))

/-- The printed index maps over the grid: the three row-tiled inputs sit at block (t, 0) at point t, every other window
    at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-! Row s of the block at point t is row 4000·t + s of the array; the weights' and biases' one block is the array. -/

theorem blk0_apply (c : Dev nD) (t : Fin cfg2.N) (s : Fin 4000) (k : Fin 256) (h : 4000 * t.val + s.val < 100000) :
    (iblk2 V c 0 t : Vec Ideal S4000x256 .f32) (ix2 s k) = (V c main_v33 : Spec.A2 100000 256) (ix2 ⟨4000 * t.val + s.val, h⟩ k) := by
  have e := idx_facts t
  unfold iblk2
  rw [View.read_apply]
  show V c main_v33 _ = V c main_v33 _
  refine congrArg (V c main_v33) (funext fun a => Fin.ext ?_)
  match a with
  | ⟨0, _⟩ => show win2_0.index t (0 : Fin 2) * 4000 + 1 * s.val = 4000 * t.val + s.val; omega
  | ⟨1, _⟩ => show win2_0.index t (1 : Fin 2) * 256 + 1 * k.val = k.val; omega

theorem blk1_apply (c : Dev nD) (t : Fin cfg2.N) (s : Fin 4000) (k : Fin 256) (h : 4000 * t.val + s.val < 100000) :
    (iblk2 V c 1 t : Vec Ideal S4000x256 .f32) (ix2 s k) = (V c main_v40 : Spec.A2 100000 256) (ix2 ⟨4000 * t.val + s.val, h⟩ k) := by
  have e := idx_facts t
  unfold iblk2
  rw [View.read_apply]
  show V c main_v40 _ = V c main_v40 _
  refine congrArg (V c main_v40) (funext fun a => Fin.ext ?_)
  match a with
  | ⟨0, _⟩ => show win2_1.index t (0 : Fin 2) * 4000 + 1 * s.val = 4000 * t.val + s.val; omega
  | ⟨1, _⟩ => show win2_1.index t (1 : Fin 2) * 256 + 1 * k.val = k.val; omega

theorem blk2_apply (c : Dev nD) (t : Fin cfg2.N) (s : Fin 4000) (k : Fin 128) (h : 4000 * t.val + s.val < 100000) :
    (iblk2 V c 2 t : Vec Ideal S4000x128 .bf16) (ix2 s k) = (V c main_v41 : Spec.A2 100000 128) (ix2 ⟨4000 * t.val + s.val, h⟩ k) := by
  have e := idx_facts t
  unfold iblk2
  rw [View.read_apply]
  show V c main_v41 _ = V c main_v41 _
  refine congrArg (V c main_v41) (funext fun a => Fin.ext ?_)
  match a with
  | ⟨0, _⟩ => show win2_2.index t (0 : Fin 2) * 4000 + 1 * s.val = 4000 * t.val + s.val; omega
  | ⟨1, _⟩ => show win2_2.index t (1 : Fin 2) * 128 + 1 * k.val = k.val; omega

theorem blk3_eq (c : Dev nD) (t : Fin cfg2.N) : (iblk2 V c 3 t : Vec Ideal S256x256 .f32) = (V c main_arg15 : Spec.A2 256 256) := by
  have e := idx_facts t
  funext j
  unfold iblk2
  rw [View.read_apply]
  show V c main_arg15 _ = V c main_arg15 j
  refine congrArg (V c main_arg15) (funext fun a => Fin.ext ?_)
  match a with
  | ⟨0, _⟩ => show win2_3.index t (0 : Fin 2) * 256 + 1 * (j 0).val = (j 0).val; omega
  | ⟨1, _⟩ => show win2_3.index t (1 : Fin 2) * 256 + 1 * (j 1).val = (j 1).val; omega

theorem blk4_eq (c : Dev nD) (t : Fin cfg2.N) : (iblk2 V c 4 t : Vec Ideal S1x256 .f32) = (V c main_v24 : Spec.A2 1 256) := by
  have e := idx_facts t
  funext j
  unfold iblk2
  rw [View.read_apply]
  show V c main_v24 _ = V c main_v24 j
  refine congrArg (V c main_v24) (funext fun a => Fin.ext ?_)
  match a with
  | ⟨0, _⟩ => show win2_4.index t (0 : Fin 2) * 1 + 1 * (j 0).val = (j 0).val; omega
  | ⟨1, _⟩ => show win2_4.index t (1 : Fin 2) * 256 + 1 * (j 1).val = (j 1).val; omega

theorem blk5_eq (c : Dev nD) (t : Fin cfg2.N) : (iblk2 V c 5 t : Vec Ideal S256x256 .f32) = (V c main_arg17 : Spec.A2 256 256) := by
  have e := idx_facts t
  funext j
  unfold iblk2
  rw [View.read_apply]
  show V c main_arg17 _ = V c main_arg17 j
  refine congrArg (V c main_arg17) (funext fun a => Fin.ext ?_)
  match a with
  | ⟨0, _⟩ => show win2_5.index t (0 : Fin 2) * 256 + 1 * (j 0).val = (j 0).val; omega
  | ⟨1, _⟩ => show win2_5.index t (1 : Fin 2) * 256 + 1 * (j 1).val = (j 1).val; omega

theorem blk6_eq (c : Dev nD) (t : Fin cfg2.N) : (iblk2 V c 6 t : Vec Ideal S1x256 .f32) = (V c main_v25 : Spec.A2 1 256) := by
  have e := idx_facts t
  funext j
  unfold iblk2
  rw [View.read_apply]
  show V c main_v25 _ = V c main_v25 j
  refine congrArg (V c main_v25) (funext fun a => Fin.ext ?_)
  match a with
  | ⟨0, _⟩ => show win2_6.index t (0 : Fin 2) * 1 + 1 * (j 0).val = (j 0).val; omega
  | ⟨1, _⟩ => show win2_6.index t (1 : Fin 2) * 256 + 1 * (j 1).val = (j 1).val; omega

end Blocks

section SpecLaws

/-- Row r of the perceptron's output depends on row r of the two inputs only. -/
theorem mlp_row {N M D : Nat} (h agg : Spec.A2 N D) (h' agg' : Spec.A2 M D) (W1 W1' : Spec.A2 D D) (b1 b1' : Fin D → EReal)
    (W2 W2' : Spec.A2 D D) (b2 b2' : Fin D → EReal) (r : Fin N) (r' : Fin M)
    (hh : ∀ k, h (ix2 r k) = h' (ix2 r' k)) (ha : ∀ k, agg (ix2 r k) = agg' (ix2 r' k))
    (hW1 : W1 = W1') (hb1 : b1 = b1') (hW2 : W2 = W2') (hb2 : b2 = b2') (d : Fin D) :
    Spec.mlp h agg W1 b1 W2 b2 (ix2 r d) = Spec.mlp h' agg' W1' b1' W2' b2' (ix2 r' d) := by
  subst hW1 hb1 hW2 hb2
  show (∑ k : Fin D, max ((∑ k' : Fin D, (h (ix2 r k') + agg (ix2 r k')) * W1 (ix2 k' k)) + b1 k) 0 * W2 (ix2 k d)) + b2 d
    = (∑ k : Fin D, max ((∑ k' : Fin D, (h' (ix2 r' k') + agg' (ix2 r' k')) * W1 (ix2 k' k)) + b1 k) 0 * W2 (ix2 k d)) + b2 d
  simp only [hh, ha]

/-- Row 4000·t + s of an array of 100000 rows: row s of tile t. -/
def row (t : ℕ) (ht : t < 25) (s : Fin 4000) : Fin 100000 := ⟨4000 * t + s.val, by have := s.isLt; omega⟩

/-- A sum over the 100000 rows is the sum over the 25 tiles of the sums over each tile's 4000 rows. -/
theorem sum_rows (f : Fin 100000 → EReal) :
    ∑ n : Fin 100000, f n = ∑ t : Fin 25, ∑ s : Fin 4000, f (row t.val t.isLt s) := by
  have e := Equiv.sum_comp (finProdFinEquiv : Fin 25 × Fin 4000 ≃ Fin (25 * 4000)) f
  rw [Fintype.sum_prod_type] at e
  refine e.symm.trans (Finset.sum_congr rfl fun t _ => Finset.sum_congr rfl fun s _ => congrArg f (Fin.ext ?_))
  show s.val + 4000 * t.val = 4000 * t.val + s.val
  omega

end SpecLaws

section Points

variable (V : (c : Dev nD) → (b : Ref sig .tc) → Buf (Elt Ideal) ((c : Thread nD τ).loc b))

/-- The perceptron's output over all rows, from the arrays the region finds. -/
abbrev Hout (c : Dev nD) : Spec.A2 100000 256 :=
  Spec.mlp (V c main_v33 : Spec.A2 100000 256) (V c main_v40 : Spec.A2 100000 256)
    (V c main_arg15 : Spec.A2 256 256) (fun j => (V c main_v24 : Spec.A2 1 256) (ix2 0 j))
    (V c main_arg17 : Spec.A2 256 256) (fun j => (V c main_v25 : Spec.A2 1 256) (ix2 0 j))

/-- The membership matrix over all rows, as the region finds it. -/
abbrev ohA (c : Dev nD) : Spec.A2 100000 128 := V c main_v41

/-- The pooled sums over the rows of tile t: entry (g, d) is the sum over s of oh(4000·t+s, g)·H(4000·t+s, d). -/
def tileSum (c : Dev nD) (t : ℕ) (ht : t < 25) (g : Fin 128) (d : Fin 256) : EReal :=
  ∑ s : Fin 4000, ohA V c (ix2 (row t ht s) g) * Hout V c (ix2 (row t ht s) d)

/-- The counts over the rows of tile t: entry g is the sum over s of oh(4000·t+s, g). -/
def tileCnt (c : Dev nD) (t : ℕ) (ht : t < 25) (g : Fin 128) : EReal :=
  ∑ s : Fin 4000, ohA V c (ix2 (row t ht s) g)

/-- The update of the first output adds the new partial sums to the carried block, entry by entry. -/
theorem pay1_apply (a : FVec Ideal S128x256 .f32) (xo : Vec Ideal S128x256 .f32) (i : S128x256.Idx) :
    k2_pay1 (F := Ideal) a (k2_pay8 xo) i = xo i + a i := by
  unfold k2_pay1 k2_pay8
  rw [shapeCast_self]
  rfl

/-- The update of the second output adds the new partial counts to the carried block, entry by entry. -/
theorem pay2_apply (a : FVec Ideal S1x128 .f32) (xo : Vec Ideal S1x128 .f32) (i : S1x128.Idx) :
    k2_pay2 (F := Ideal) a xo i = xo i + a i := by
  unfold k2_pay2
  rw [shapeCast_self]
  rfl

/-- The two fills are the extended real zero. -/
theorem pay3_apply (i : S128x256.Idx) : k2_pay3 (F := Ideal) i = 0 := Ideal.ofBits_zero_f32
theorem pay4_apply (i : S1x128.Idx) : k2_pay4 (F := Ideal) i = 0 := Ideal.ofBits_zero_f32

/-- At point t the pooled-sums payload of the point's blocks is tile t's pooled sums. -/
theorem pay6_blk (c : Dev nD) (t : Fin cfg2.N) (ht : t.val < 25) (g : Fin 128) (d : Fin 256) :
    k2_pay6 (F := Ideal) (iblk2 V c 0 t) (iblk2 V c 1 t) (iblk2 V c 3 t) (iblk2 V c 4 t) (iblk2 V c 5 t) (iblk2 V c 6 t)
        (iblk2 V c 2 t) (ix2 g d) = tileSum V c t.val ht g d := by
  refine (pay6_apply (iblk2 V c 0 t) (iblk2 V c 1 t) (iblk2 V c 2 t) (iblk2 V c 3 t) (iblk2 V c 4 t) (iblk2 V c 5 t)
    (iblk2 V c 6 t) g d).trans ?_
  unfold tileSum
  refine Finset.sum_congr rfl fun s _ => ?_
  refine congrArg₂ (· * ·) (blk2_apply V c t s g _) ?_
  exact mlp_row _ _ _ _ _ _ _ _ _ _ _ _ s (row t.val ht s) (fun k => blk0_apply V c t s k _) (fun k => blk1_apply V c t s k _)
    (blk3_eq V c t) (funext fun j => congrFun (blk4_eq V c t) (ix2 0 j)) (blk5_eq V c t)
    (funext fun j => congrFun (blk6_eq V c t) (ix2 0 j)) d

/-- At point t the counts payload of the point's membership block is tile t's counts. -/
theorem pay7_blk (c : Dev nD) (t : Fin cfg2.N) (ht : t.val < 25) (g : Fin 128) :
    k2_pay7 (F := Ideal) (iblk2 V c 2 t) (ix2 0 g) = tileCnt V c t.val ht g := by
  refine (pay7_apply (iblk2 V c 2 t) g).trans ?_
  unfold tileCnt
  exact Finset.sum_congr rfl fun s _ => blk2_apply V c t s g _

/-- After the first point the first output's block holds tile 0's pooled sums. -/
theorem sums_A (c : Dev nD) (t : Fin cfg2.N) (h0 : t.val % 25 = 0) (ht : t.val < 25) (g : Fin 128) (d : Fin 256) :
    (outsAt2 V c t.val t.isLt).1 (ix2 g d) = tileSum V c t.val ht g d := by
  rw [outsAt2_A V c t h0]
  dsimp only
  refine (congrFun (out_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) (iblk2 V c 6 t)) (ix2 g d)).trans ?_
  refine (pay1_apply _ _ _).trans ?_
  exact (congrArg₂ (· + ·) (pay3_apply _) (pay6_blk V c t ht g d)).trans (zero_add _)

/-- After a later point it holds what the point before left plus tile t's pooled sums. -/
theorem sums_B (c : Dev nD) (t : Fin cfg2.N) (h0 : ¬t.val % 25 = 0) (ht : t.val < 25) (g : Fin 128) (d : Fin 256) :
    (outsAt2 V c t.val t.isLt).1 (ix2 g d)
      = (outsAt2 V c (t.val - 1) (Nat.lt_of_le_of_lt (Nat.sub_le _ _) t.isLt)).1 (ix2 g d) + tileSum V c t.val ht g d := by
  rw [outsAt2_B V c t h0]
  dsimp only
  refine (congrFun (out_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (iblk2 V c 6 t)
    (outsAt2 V c (t.val - 1) (Nat.lt_of_le_of_lt (Nat.sub_le _ _) t.isLt)).1
    (outsAt2 V c (t.val - 1) (Nat.lt_of_le_of_lt (Nat.sub_le _ _) t.isLt)).2) (ix2 g d)).trans ?_
  refine (pay1_apply _ _ _).trans ?_
  exact congrArg₂ (· + ·) rfl (pay6_blk V c t ht g d)

/-- After the first point the second output's block holds tile 0's counts. -/
theorem cnts_A (c : Dev nD) (t : Fin cfg2.N) (h0 : t.val % 25 = 0) (ht : t.val < 25) (g : Fin 128) :
    (outsAt2 V c t.val t.isLt).2 (ix2 0 g) = tileCnt V c t.val ht g := by
  rw [outsAt2_A V c t h0]
  dsimp only
  refine (congrFun (out_A_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) (iblk2 V c 6 t)) (ix2 0 g)).trans ?_
  refine (pay2_apply _ _ _).trans ?_
  exact (congrArg₂ (· + ·) (pay4_apply _) (pay7_blk V c t ht g)).trans (zero_add _)

/-- After a later point it holds what the point before left plus tile t's counts. -/
theorem cnts_B (c : Dev nD) (t : Fin cfg2.N) (h0 : ¬t.val % 25 = 0) (ht : t.val < 25) (g : Fin 128) :
    (outsAt2 V c t.val t.isLt).2 (ix2 0 g)
      = (outsAt2 V c (t.val - 1) (Nat.lt_of_le_of_lt (Nat.sub_le _ _) t.isLt)).2 (ix2 0 g) + tileCnt V c t.val ht g := by
  rw [outsAt2_B V c t h0]
  dsimp only
  refine (congrFun (out_B_8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (iblk2 V c 6 t)
    (outsAt2 V c (t.val - 1) (Nat.lt_of_le_of_lt (Nat.sub_le _ _) t.isLt)).1
    (outsAt2 V c (t.val - 1) (Nat.lt_of_le_of_lt (Nat.sub_le _ _) t.isLt)).2) (ix2 0 g)).trans ?_
  refine (pay2_apply _ _ _).trans ?_
  exact congrArg₂ (· + ·) rfl (pay7_blk V c t ht g)

theorem lt25 {n : ℕ} (h : n < cfg2.N) (t' : Fin (n + 1)) : t'.val < 25 := by
  have hN : cfg2.N = 25 := N_2
  have := t'.isLt
  omega

/-- THE INVARIANT of the first output: after point n its block holds the pooled sums over tiles 0 … n. -/
theorem sums_inv (c : Dev nD) : ∀ (n : ℕ) (h : n < cfg2.N) (g : Fin 128) (d : Fin 256),
    (outsAt2 V c n h).1 (ix2 g d) = ∑ t' : Fin (n + 1), tileSum V c t'.val (lt25 h t') g d
  | 0, h, g, d => by
    refine (sums_A V c ⟨0, h⟩ rfl (by dsimp only; omega) g d).trans ?_
    exact (Fin.sum_univ_one (fun t' : Fin 1 => tileSum V c t'.val (lt25 h t') g d)).symm
  | n + 1, h, g, d => by
    have hN : cfg2.N = 25 := N_2
    have hB : ¬(⟨n + 1, h⟩ : Fin cfg2.N).val % 25 = 0 := by dsimp only; omega
    rw [Fin.sum_univ_castSucc]
    refine (sums_B V c ⟨n + 1, h⟩ hB (by dsimp only; omega) g d).trans ?_
    exact congrArg₂ (· + ·) (sums_inv c n (Nat.lt_of_succ_lt h) g d) rfl

/-- THE INVARIANT of the second output: after point n its block holds the counts over tiles 0 … n. -/
theorem cnts_inv (c : Dev nD) : ∀ (n : ℕ) (h : n < cfg2.N) (g : Fin 128),
    (outsAt2 V c n h).2 (ix2 0 g) = ∑ t' : Fin (n + 1), tileCnt V c t'.val (lt25 h t') g
  | 0, h, g => by
    refine (cnts_A V c ⟨0, h⟩ rfl (by dsimp only; omega) g).trans ?_
    exact (Fin.sum_univ_one (fun t' : Fin 1 => tileCnt V c t'.val (lt25 h t') g)).symm
  | n + 1, h, g => by
    have hN : cfg2.N = 25 := N_2
    have hB : ¬(⟨n + 1, h⟩ : Fin cfg2.N).val % 25 = 0 := by dsimp only; omega
    rw [Fin.sum_univ_castSucc]
    refine (cnts_B V c ⟨n + 1, h⟩ hB (by dsimp only; omega) g).trans ?_
    exact congrArg₂ (· + ·) (cnts_inv c n (Nat.lt_of_succ_lt h) g) rfl

end Points

section Final

variable (V : (c : Dev nD) → (b : Ref sig .tc) → Buf (Elt Ideal) ((c : Thread nD τ).loc b))

theorem h24 : 24 < cfg2.N := by rw [show cfg2.N = 25 from N_2]; decide

/-- After the last point the first output's block holds the pooled sums over all 100000 rows. -/
theorem sums_last (c : Dev nD) (t : Fin cfg2.N) (h : t.val = 24) :
    ((outsAt2 V c t.val t.isLt).1 : Vec Ideal S128x256 .f32) = Spec.pool (ohA V c) (Hout V c) := by
  obtain ⟨n, hn⟩ := t
  dsimp only at h
  subst h
  funext i
  obtain ⟨g, d, rfl⟩ : ∃ (g : Fin 128) (d : Fin 256), i = ix2 g d := ⟨i 0, i 1, eq_ix2 i⟩
  refine (sums_inv V c 24 hn g d).trans ?_
  exact (sum_rows fun n => ohA V c (ix2 n g) * Hout V c (ix2 n d)).symm

/-- After the last point the second output's block holds the counts over all 100000 rows. -/
theorem cnts_last (c : Dev nD) (t : Fin cfg2.N) (h : t.val = 24) :
    ((outsAt2 V c t.val t.isLt).2 : Vec Ideal S1x128 .f32) = Spec.count (ohA V c) := by
  obtain ⟨n, hn⟩ := t
  dsimp only at h
  subst h
  funext i
  obtain ⟨z, g, rfl⟩ : ∃ (z : Fin 1) (g : Fin 128), i = ix2 z g := ⟨i 0, i 1, eq_ix2 i⟩
  obtain rfl : z = 0 := Subsingleton.elim _ _
  refine (cnts_inv V c 24 hn g).trans ?_
  exact (sum_rows fun n => ohA V c (ix2 n g)).symm

/-- The one write-back of the first output, at the last point, writes the pooled sums: its block (0, 0) is the array. -/
theorem flushed7_eq (c : Dev nD) (t : Fin cfg2.N) (hf : (cfg2.win 7).flush t = true) :
    (dat2 V c).flushed 7 t = ((cfg2.win 7).blk t).view.read (Elt Ideal) (Spec.pool (ohA V c) (Hout V c)) := by
  have hN : cfg2.N = 25 := N_2
  have ht : t.val = 24 := by have := (flush2_7 t).mp hf; have := t.isLt; omega
  have e := idx_facts t
  show (cfg2.win 7).cut (grid2.coords t) ((dat2 V c).after 7 t) = _
  rw [after2_7, sums_last V c t ht]
  have hz' : (fun a => win2_7.index t a * main_v42_0.ty.shape.size a) = fun _ => 0 := funext fun a => by
    match a with
    | ⟨0, _⟩ => show win2_7.index t (0 : Fin 2) * 128 = 0; omega
    | ⟨1, _⟩ => show win2_7.index t (1 : Fin 2) * 256 = 0; omega
  exact (Memref.read_access_unit_zero (Elt Ideal) main_v42_0 hz' (fun a => by rw [congrFun hz' a]; simp) _).symm

/-- The one write-back of the second output, at the last point, writes the counts. -/
theorem flushed8_eq (c : Dev nD) (t : Fin cfg2.N) (hf : (cfg2.win 8).flush t = true) :
    (dat2 V c).flushed 8 t = ((cfg2.win 8).blk t).view.read (Elt Ideal) (Spec.count (ohA V c)) := by
  have hN : cfg2.N = 25 := N_2
  have ht : t.val = 24 := by have := (flush2_8 t).mp hf; have := t.isLt; omega
  have e := idx_facts t
  show (cfg2.win 8).cut (grid2.coords t) ((dat2 V c).after 8 t) = _
  rw [after2_8, cnts_last V c t ht]
  have hz' : (fun a => win2_8.index t a * main_v42_1.ty.shape.size a) = fun _ => 0 := funext fun a => by
    match a with
    | ⟨0, _⟩ => show win2_8.index t (0 : Fin 2) * 1 = 0; omega
    | ⟨1, _⟩ => show win2_8.index t (1 : Fin 2) * 128 = 0; omega
  exact (Memref.read_access_unit_zero (Elt Ideal) main_v42_1 hz' (fun a => by rw [congrFun hz' a]; simp) _).symm

/-- The last point's block covers the first output's array, so the array ends holding the pooled sums. -/
theorem final7 (c : Dev nD) : (dat2 V c).arrAt 7 cfg2.N = Spec.pool (ohA V c) (Hout V c) :=
  (dat2 V c).arrAt_eq_of_cover 7 (Spec.pool (ohA V c) (Hout V c)) (flushed7_eq V c) fun i =>
    ⟨⟨24, h24⟩, (flush2_7 ⟨24, h24⟩).mpr rfl, by
      show i ∈ ((View.whole main_v42_0).slice (win2_7.rect ⟨24, h24⟩)).set
      rw [View.set_slice_whole, Rect.mem_set_unit]
      intro a
      have h0 : (i 0 : Nat) < 128 := (i 0).isLt
      have h1 : (i 1 : Nat) < 256 := (i 1).isLt
      have e := idx_facts ⟨24, h24⟩
      match a with
      | ⟨0, _⟩ =>
        show win2_7.index ⟨24, h24⟩ (0 : Fin 2) * 128 ≤ (i 0 : Nat) ∧ (i 0 : Nat) < win2_7.index ⟨24, h24⟩ (0 : Fin 2) * 128 + 128
        omega
      | ⟨1, _⟩ =>
        show win2_7.index ⟨24, h24⟩ (1 : Fin 2) * 256 ≤ (i 1 : Nat) ∧ (i 1 : Nat) < win2_7.index ⟨24, h24⟩ (1 : Fin 2) * 256 + 256
        omega⟩

/-- The last point's block covers the second output's array, so the array ends holding the counts. -/
theorem final8 (c : Dev nD) : (dat2 V c).arrAt 8 cfg2.N = Spec.count (ohA V c) :=
  (dat2 V c).arrAt_eq_of_cover 8 (Spec.count (ohA V c)) (flushed8_eq V c) fun i =>
    ⟨⟨24, h24⟩, (flush2_8 ⟨24, h24⟩).mpr rfl, by
      show i ∈ ((View.whole main_v42_1).slice (win2_8.rect ⟨24, h24⟩)).set
      rw [View.set_slice_whole, Rect.mem_set_unit]
      intro a
      have h0 : (i 0 : Nat) < 1 := (i 0).isLt
      have h1 : (i 1 : Nat) < 128 := (i 1).isLt
      have e := idx_facts ⟨24, h24⟩
      match a with
      | ⟨0, _⟩ =>
        show win2_8.index ⟨24, h24⟩ (0 : Fin 2) * 1 ≤ (i 0 : Nat) ∧ (i 0 : Nat) < win2_8.index ⟨24, h24⟩ (0 : Fin 2) * 1 + 1
        omega
      | ⟨1, _⟩ =>
        show win2_8.index ⟨24, h24⟩ (1 : Fin 2) * 128 ≤ (i 1 : Nat) ∧ (i 1 : Nat) < win2_8.index ⟨24, h24⟩ (1 : Fin 2) * 128 + 128
        omega⟩

end Final

variable (V : (c : Dev nD) → (b : Ref sig .tc) → Buf (Elt Ideal) ((c : Thread nD τ).loc b))

/-- After the third launch the first output holds the pooled sums of the perceptron's rows. -/
theorem region2_sums (c : Dev nD) :
    ((dat2 V c).arrAt 7 cfg2.N : Spec.A2 128 256)
      = Spec.pool (V c main_v41 : Spec.A2 100000 128)
          (Spec.mlp (V c main_v33 : Spec.A2 100000 256) (V c main_v40 : Spec.A2 100000 256)
            (V c main_arg15 : Spec.A2 256 256) (fun j => (V c main_v24 : Spec.A2 1 256) (ix2 0 j))
            (V c main_arg17 : Spec.A2 256 256) (fun j => (V c main_v25 : Spec.A2 1 256) (ix2 0 j))) :=
  final7 V c

/-- After the third launch the second output holds the pooled counts. -/
theorem region2_cnts (c : Dev nD) :
    ((dat2 V c).arrAt 8 cfg2.N : Spec.A2 1 128) = Spec.count (V c main_v41 : Spec.A2 100000 128) :=
  final8 V c

end Cert.KernelIdeal.Value2

end
-- ==== Proof.KChainA.lean ====
/-
  The kernel's buffers up to the first launch's exit, read back to the launch contents: the gathered embedding and
  the reshaped bias the first launch reads, its output as the stage function of the arguments, and every argument
  still as launched.
-/
import proofs.«411472_j4595615007316_2_alg».proof.Proof.Gen.KernelIdeal.Frame
import proofs.«411472_j4595615007316_2_alg».proof.Proof.KTerm
import proofs.«411472_j4595615007316_2_alg».proof.Proof.Region0
import proofs.«411472_j4595615007316_2_alg».proof.Proof.Region1
import proofs.«411472_j4595615007316_2_alg».proof.Proof.Region2
import Idealize.ShloMosaic.Lib.StableHlo.Run

set_option maxRecDepth 16384

noncomputable section

namespace Cert.KernelIdeal.KChainA

open Cert.KernelIdeal Cert.KernelIdeal.Gen Cert.KernelIdeal.KValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 4000000 in
set_option maxRecDepth 200000 in
/-- Entering the first launch, the embedding buffer holds the sum of the two looked-up rows. -/
theorem W5_v6 : (W5 m ρ c (Proc.devRef .tc main_v6)) = kEmb (m ((c : Thread nD τ).loc main_arg0)) (m ((c : Thread nD τ).loc main_arg5)) (m ((c : Thread nD τ).loc main_arg6)) := by
  dsimp only [W5, W4, W3, W2, W1, W0, hostOps0, hostOps0_1, hostOps0_2, hostOps0_3, hostOps0_4]
  after_results_simp
  rfl

/-- Entering the first launch, the bias buffer holds the bias as one row. -/
theorem W5_v7 : (W5 m ρ c (Proc.devRef .tc main_v7)) = biasRow (m ((c : Thread nD τ).loc main_arg8)) := by
  dsimp only [W5, W4, W3, W2, W1, W0, hostOps0, hostOps0_1, hostOps0_2, hostOps0_3, hostOps0_4]
  after_results_simp
  rfl

/-- Entering the first launch, the node features are as launched. -/
theorem W5_arg1 : (W5 m ρ c (Proc.devRef .tc main_arg1)) = (m ((c : Thread nD τ).loc main_arg1)) := by
  dsimp only [W5, W4, W3, W2, W1, W0, hostOps0, hostOps0_1, hostOps0_2, hostOps0_3, hostOps0_4]
  after_results_simp

/-- Entering the first launch, the projection matrix is as launched. -/
theorem W5_arg7 : (W5 m ρ c (Proc.devRef .tc main_arg7)) = (m ((c : Thread nD τ).loc main_arg7)) := by
  dsimp only [W5, W4, W3, W2, W1, W0, hostOps0, hostOps0_1, hostOps0_2, hostOps0_3, hostOps0_4]
  after_results_simp

/-- Leaving the first launch, its output holds the first stage of the arguments. -/
theorem W6_v8 : (W6 m ρ c (Proc.devRef .tc main_v8)) = kH0 (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) := by
  refine (W6_arr m ρ c 4).trans ?_
  refine (Cert.KernelIdeal.Value0.region0_value (V5 m ρ) c).trans ?_
  show Spec.add (Spec.lin (W5 m ρ c (Proc.devRef .tc main_arg1) : Spec.A2 100000 1536) (W5 m ρ c (Proc.devRef .tc main_arg7) : Spec.A2 1536 256)
      (fun j => (W5 m ρ c (Proc.devRef .tc main_v7) : Spec.A2 1 256) (ix2 0 j))) (W5 m ρ c (Proc.devRef .tc main_v6) : Spec.A2 100000 256) = _
  rw [W5_arg1, W5_arg7, W5_v7, W5_v6]
  rfl

/-- Leaving the first launch, argument 2 is as launched. -/
theorem W6_arg2 : (W6 m ρ c (Proc.devRef .tc main_arg2)) = (m ((c : Thread nD τ).loc main_arg2)) := by
  refine (W6_of_ne m ρ c main_arg2 (by decide)).trans ?_
  dsimp only [W5, W4, W3, W2, W1, W0, hostOps0, hostOps0_1, hostOps0_2, hostOps0_3, hostOps0_4]
  after_results_simp

/-- Leaving the first launch, argument 3 is as launched. -/
theorem W6_arg3 : (W6 m ρ c (Proc.devRef .tc main_arg3)) = (m ((c : Thread nD τ).loc main_arg3)) := by
  refine (W6_of_ne m ρ c main_arg3 (by decide)).trans ?_
  dsimp only [W5, W4, W3, W2, W1, W0, hostOps0, hostOps0_1, hostOps0_2, hostOps0_3, hostOps0_4]
  after_results_simp

/-- Leaving the first launch, argument 4 is as launched. -/
theorem W6_arg4 : (W6 m ρ c (Proc.devRef .tc main_arg4)) = (m ((c : Thread nD τ).loc main_arg4)) := by
  refine (W6_of_ne m ρ c main_arg4 (by decide)).trans ?_
  dsimp only [W5, W4, W3, W2, W1, W0, hostOps0, hostOps0_1, hostOps0_2, hostOps0_3, hostOps0_4]
  after_results_simp

/-- Leaving the first launch, argument 9 is as launched. -/
theorem W6_arg9 : (W6 m ρ c (Proc.devRef .tc main_arg9)) = (m ((c : Thread nD τ).loc main_arg9)) := by
  refine (W6_of_ne m ρ c main_arg9 (by decide)).trans ?_
  dsimp only [W5, W4, W3, W2, W1, W0, hostOps0, hostOps0_1, hostOps0_2, hostOps0_3, hostOps0_4]
  after_results_simp

/-- Leaving the first launch, argument 10 is as launched. -/
theorem W6_arg10 : (W6 m ρ c (Proc.devRef .tc main_arg10)) = (m ((c : Thread nD τ).loc main_arg10)) := by
  refine (W6_of_ne m ρ c main_arg10 (by decide)).trans ?_
  dsimp only [W5, W4, W3, W2, W1, W0, hostOps0, hostOps0_1, hostOps0_2, hostOps0_3, hostOps0_4]
  after_results_simp

/-- Leaving the first launch, argument 11 is as launched. -/
theorem W6_arg11 : (W6 m ρ c (Proc.devRef .tc main_arg11)) = (m ((c : Thread nD τ).loc main_arg11)) := by
  refine (W6_of_ne m ρ c main_arg11 (by decide)).trans ?_
  dsimp only [W5, W4, W3, W2, W1, W0, hostOps0, hostOps0_1, hostOps0_2, hostOps0_3, hostOps0_4]
  after_results_simp

/-- Leaving the first launch, argument 12 is as launched. -/
theorem W6_arg12 : (W6 m ρ c (Proc.devRef .tc main_arg12)) = (m ((c : Thread nD τ).loc main_arg12)) := by
  refine (W6_of_ne m ρ c main_arg12 (by decide)).trans ?_
  dsimp only [W5, W4, W3, W2, W1, W0, hostOps0, hostOps0_1, hostOps0_2, hostOps0_3, hostOps0_4]
  after_results_simp

/-- Leaving the first launch, argument 13 is as launched. -/
theorem W6_arg13 : (W6 m ρ c (Proc.devRef .tc main_arg13)) = (m ((c : Thread nD τ).loc main_arg13)) := by
  refine (W6_of_ne m ρ c main_arg13 (by decide)).trans ?_
  dsimp only [W5, W4, W3, W2, W1, W0, hostOps0, hostOps0_1, hostOps0_2, hostOps0_3, hostOps0_4]
  after_results_simp

/-- Leaving the first launch, argument 14 is as launched. -/
theorem W6_arg14 : (W6 m ρ c (Proc.devRef .tc main_arg14)) = (m ((c : Thread nD τ).loc main_arg14)) := by
  refine (W6_of_ne m ρ c main_arg14 (by decide)).trans ?_
  dsimp only [W5, W4, W3, W2, W1, W0, hostOps0, hostOps0_1, hostOps0_2, hostOps0_3, hostOps0_4]
  after_results_simp

/-- Leaving the first launch, argument 15 is as launched. -/
theorem W6_arg15 : (W6 m ρ c (Proc.devRef .tc main_arg15)) = (m ((c : Thread nD τ).loc main_arg15)) := by
  refine (W6_of_ne m ρ c main_arg15 (by decide)).trans ?_
  dsimp only [W5, W4, W3, W2, W1, W0, hostOps0, hostOps0_1, hostOps0_2, hostOps0_3, hostOps0_4]
  after_results_simp

/-- Leaving the first launch, argument 16 is as launched. -/
theorem W6_arg16 : (W6 m ρ c (Proc.devRef .tc main_arg16)) = (m ((c : Thread nD τ).loc main_arg16)) := by
  refine (W6_of_ne m ρ c main_arg16 (by decide)).trans ?_
  dsimp only [W5, W4, W3, W2, W1, W0, hostOps0, hostOps0_1, hostOps0_2, hostOps0_3, hostOps0_4]
  after_results_simp

/-- Leaving the first launch, argument 17 is as launched. -/
theorem W6_arg17 : (W6 m ρ c (Proc.devRef .tc main_arg17)) = (m ((c : Thread nD τ).loc main_arg17)) := by
  refine (W6_of_ne m ρ c main_arg17 (by decide)).trans ?_
  dsimp only [W5, W4, W3, W2, W1, W0, hostOps0, hostOps0_1, hostOps0_2, hostOps0_3, hostOps0_4]
  after_results_simp

/-- Leaving the first launch, argument 18 is as launched. -/
theorem W6_arg18 : (W6 m ρ c (Proc.devRef .tc main_arg18)) = (m ((c : Thread nD τ).loc main_arg18)) := by
  refine (W6_of_ne m ρ c main_arg18 (by decide)).trans ?_
  dsimp only [W5, W4, W3, W2, W1, W0, hostOps0, hostOps0_1, hostOps0_2, hostOps0_3, hostOps0_4]
  after_results_simp

/-- Leaving the first launch, argument 19 is as launched. -/
theorem W6_arg19 : (W6 m ρ c (Proc.devRef .tc main_arg19)) = (m ((c : Thread nD τ).loc main_arg19)) := by
  refine (W6_of_ne m ρ c main_arg19 (by decide)).trans ?_
  dsimp only [W5, W4, W3, W2, W1, W0, hostOps0, hostOps0_1, hostOps0_2, hostOps0_3, hostOps0_4]
  after_results_simp

/-- Leaving the first launch, argument 20 is as launched. -/
theorem W6_arg20 : (W6 m ρ c (Proc.devRef .tc main_arg20)) = (m ((c : Thread nD τ).loc main_arg20)) := by
  refine (W6_of_ne m ρ c main_arg20 (by decide)).trans ?_
  dsimp only [W5, W4, W3, W2, W1, W0, hostOps0, hostOps0_1, hostOps0_2, hostOps0_3, hostOps0_4]
  after_results_simp

end Cert.KernelIdeal.KChainA

end
-- ==== Proof.KChainB.lean ====
/-
  The kernel's buffers from the first launch's exit to the second launch's exit, in terms of the contents at the
  first launch's exit: the edge embedding, the index vectors, the aggregated messages and reshaped biases the second
  launch reads, its output as one convolution, and what later stages still read carried through.
-/
import proofs.«411472_j4595615007316_2_alg».proof.Proof.Gen.KernelIdeal.Frame
import proofs.«411472_j4595615007316_2_alg».proof.Proof.KTerm
import proofs.«411472_j4595615007316_2_alg».proof.Proof.Region0
import proofs.«411472_j4595615007316_2_alg».proof.Proof.Region1
import proofs.«411472_j4595615007316_2_alg».proof.Proof.Region2
import Idealize.ShloMosaic.Lib.StableHlo.Run

set_option maxRecDepth 16384

noncomputable section

namespace Cert.KernelIdeal.KChainB

open Cert.KernelIdeal Cert.KernelIdeal.Gen Cert.KernelIdeal.KValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 4000000 in
set_option maxRecDepth 200000 in
/-- Entering the second launch, the aggregated messages of the first layer. -/
theorem W16_v32 : (W16 m ρ c (Proc.devRef .tc main_v32)) = kAgg (W6 m ρ c (Proc.devRef .tc main_v8) : FVec Ideal S100000x256 .f32) (W6 m ρ c (Proc.devRef .tc main_arg3) : IVec S2x300000 32) (kEa (W6 m ρ c (Proc.devRef .tc main_arg2) : IVec S300000x2 32) (W6 m ρ c (Proc.devRef .tc main_arg9) : FVec Ideal S8x256 .f32) (W6 m ρ c (Proc.devRef .tc main_arg10) : FVec Ideal S200x256 .f32)) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp
  simp only [TRef.ofBuf, TRef.toBuf, cast_eq]
  generalize W6 m ρ c (Proc.devRef .tc main_v8) = h
  generalize W6 m ρ c (Proc.devRef .tc main_arg3) = a3
  generalize W6 m ρ c (Proc.devRef .tc main_arg2) = a2
  generalize W6 m ρ c (Proc.devRef .tc main_arg9) = a9
  generalize W6 m ρ c (Proc.devRef .tc main_arg10) = a10
  rfl

/-- Entering the second launch, the first stage's output is carried. -/
theorem W16_v8 : (W16 m ρ c (Proc.devRef .tc main_v8)) = (W6 m ρ c (Proc.devRef .tc main_v8) : FVec Ideal S100000x256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp

theorem W16_v22 : (W16 m ρ c (Proc.devRef .tc main_v22)) = biasRow (W6 m ρ c (Proc.devRef .tc main_arg12) : FVec Ideal S256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp
  rfl

theorem W16_v23 : (W16 m ρ c (Proc.devRef .tc main_v23)) = biasRow (W6 m ρ c (Proc.devRef .tc main_arg14) : FVec Ideal S256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp
  rfl

theorem W16_arg11 : (W16 m ρ c (Proc.devRef .tc main_arg11)) = (W6 m ρ c (Proc.devRef .tc main_arg11) : FVec Ideal S256x256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp

theorem W16_arg13 : (W16 m ρ c (Proc.devRef .tc main_arg13)) = (W6 m ρ c (Proc.devRef .tc main_arg13) : FVec Ideal S256x256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp

/-- Leaving the second launch, its output is the first convolution. -/
theorem W17_v33 : (W17 m ρ c (Proc.devRef .tc main_v33))
    = kConv (W6 m ρ c (Proc.devRef .tc main_v8) : FVec Ideal S100000x256 .f32) (W6 m ρ c (Proc.devRef .tc main_arg3) : IVec S2x300000 32) (kEa (W6 m ρ c (Proc.devRef .tc main_arg2) : IVec S300000x2 32) (W6 m ρ c (Proc.devRef .tc main_arg9) : FVec Ideal S8x256 .f32) (W6 m ρ c (Proc.devRef .tc main_arg10) : FVec Ideal S200x256 .f32)) (W6 m ρ c (Proc.devRef .tc main_arg11) : FVec Ideal S256x256 .f32) (W6 m ρ c (Proc.devRef .tc main_arg12) : FVec Ideal S256 .f32) (W6 m ρ c (Proc.devRef .tc main_arg13) : FVec Ideal S256x256 .f32) (W6 m ρ c (Proc.devRef .tc main_arg14) : FVec Ideal S256 .f32) := by
  refine (W17_arr m ρ c 6).trans ?_
  refine (Cert.KernelIdeal.Value1.region1_value (V16 m ρ) c).trans ?_
  show Spec.mlp (W16 m ρ c (Proc.devRef .tc main_v8)) (W16 m ρ c (Proc.devRef .tc main_v32)) (W16 m ρ c (Proc.devRef .tc main_arg11))
      (fun j => W16 m ρ c (Proc.devRef .tc main_v22) (ix2 0 j)) (W16 m ρ c (Proc.devRef .tc main_arg13))
      (fun j => W16 m ρ c (Proc.devRef .tc main_v23) (ix2 0 j)) = _
  rw [W16_v8, W16_v32, W16_arg11, W16_v22, W16_arg13, W16_v23]
  rfl

/-! What later stages read, as it stands entering the second launch: the launch owns none of these buffers, so each
    leaves the launch as it entered. -/

set_option maxHeartbeats 4000000 in
set_option maxRecDepth 200000 in
/-- Entering the second launch, the edge embedding: the role row plus the child row (the child index clamped), narrowed. -/
theorem W16_v17 : (W16 m ρ c (Proc.devRef .tc main_v17)) = kEa (W6 m ρ c (Proc.devRef .tc main_arg2) : IVec S300000x2 32) (W6 m ρ c (Proc.devRef .tc main_arg9) : FVec Ideal S8x256 .f32) (W6 m ρ c (Proc.devRef .tc main_arg10) : FVec Ideal S200x256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp
  simp only [TRef.ofBuf, TRef.toBuf, cast_eq]
  generalize W6 m ρ c (Proc.devRef .tc main_arg2) = a2
  generalize W6 m ρ c (Proc.devRef .tc main_arg9) = a9
  generalize W6 m ρ c (Proc.devRef .tc main_arg10) = a10
  rfl

theorem W16_v19 : (W16 m ρ c (Proc.devRef .tc main_v19)) = idxSrc (W6 m ρ c (Proc.devRef .tc main_arg3) : IVec S2x300000 32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp
  rfl

theorem W16_v21 : (W16 m ρ c (Proc.devRef .tc main_v21)) = idxDst (W6 m ρ c (Proc.devRef .tc main_arg3) : IVec S2x300000 32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp
  rfl

theorem W16_v24 : (W16 m ρ c (Proc.devRef .tc main_v24)) = biasRow (W6 m ρ c (Proc.devRef .tc main_arg16) : FVec Ideal S256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp
  rfl

theorem W16_v25 : (W16 m ρ c (Proc.devRef .tc main_v25)) = biasRow (W6 m ρ c (Proc.devRef .tc main_arg18) : FVec Ideal S256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp
  rfl

theorem W16_arg4 : (W16 m ρ c (Proc.devRef .tc main_arg4)) = (W6 m ρ c (Proc.devRef .tc main_arg4) : IVec S100000 32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp

theorem W16_arg15 : (W16 m ρ c (Proc.devRef .tc main_arg15)) = (W6 m ρ c (Proc.devRef .tc main_arg15) : FVec Ideal S256x256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp

theorem W16_arg17 : (W16 m ρ c (Proc.devRef .tc main_arg17)) = (W6 m ρ c (Proc.devRef .tc main_arg17) : FVec Ideal S256x256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp

theorem W16_arg19 : (W16 m ρ c (Proc.devRef .tc main_arg19)) = (W6 m ρ c (Proc.devRef .tc main_arg19) : FVec Ideal S256x256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp

theorem W16_arg20 : (W16 m ρ c (Proc.devRef .tc main_arg20)) = (W6 m ρ c (Proc.devRef .tc main_arg20) : FVec Ideal S256 .f32) := by
  dsimp only [W16, W15, W14, W13, W12, W11, W10, W9, W8, W7, hostOps1, hostOps1_1, hostOps1_2, hostOps1_3, hostOps1_4, hostOps1_5, hostOps1_6, hostOps1_7, hostOps1_8, hostOps1_9]
  after_results_simp

/-- Leaving the second launch, the edge embedding is carried. -/
theorem W17_v17 : (W17 m ρ c (Proc.devRef .tc main_v17)) = kEa (W6 m ρ c (Proc.devRef .tc main_arg2) : IVec S300000x2 32) (W6 m ρ c (Proc.devRef .tc main_arg9) : FVec Ideal S8x256 .f32) (W6 m ρ c (Proc.devRef .tc main_arg10) : FVec Ideal S200x256 .f32) :=
  (W17_of_ne m ρ c main_v17 (by decide)).trans (W16_v17 m ρ c)

theorem W17_v19 : (W17 m ρ c (Proc.devRef .tc main_v19)) = idxSrc (W6 m ρ c (Proc.devRef .tc main_arg3) : IVec S2x300000 32) :=
  (W17_of_ne m ρ c main_v19 (by decide)).trans (W16_v19 m ρ c)

theorem W17_v21 : (W17 m ρ c (Proc.devRef .tc main_v21)) = idxDst (W6 m ρ c (Proc.devRef .tc main_arg3) : IVec S2x300000 32) :=
  (W17_of_ne m ρ c main_v21 (by decide)).trans (W16_v21 m ρ c)

theorem W17_v24 : (W17 m ρ c (Proc.devRef .tc main_v24)) = biasRow (W6 m ρ c (Proc.devRef .tc main_arg16) : FVec Ideal S256 .f32) :=
  (W17_of_ne m ρ c main_v24 (by decide)).trans (W16_v24 m ρ c)

theorem W17_v25 : (W17 m ρ c (Proc.devRef .tc main_v25)) = biasRow (W6 m ρ c (Proc.devRef .tc main_arg18) : FVec Ideal S256 .f32) :=
  (W17_of_ne m ρ c main_v25 (by decide)).trans (W16_v25 m ρ c)

theorem W17_arg4 : (W17 m ρ c (Proc.devRef .tc main_arg4)) = (W6 m ρ c (Proc.devRef .tc main_arg4) : IVec S100000 32) :=
  (W17_of_ne m ρ c main_arg4 (by decide)).trans (W16_arg4 m ρ c)

theorem W17_arg15 : (W17 m ρ c (Proc.devRef .tc main_arg15)) = (W6 m ρ c (Proc.devRef .tc main_arg15) : FVec Ideal S256x256 .f32) :=
  (W17_of_ne m ρ c main_arg15 (by decide)).trans (W16_arg15 m ρ c)

theorem W17_arg17 : (W17 m ρ c (Proc.devRef .tc main_arg17)) = (W6 m ρ c (Proc.devRef .tc main_arg17) : FVec Ideal S256x256 .f32) :=
  (W17_of_ne m ρ c main_arg17 (by decide)).trans (W16_arg17 m ρ c)

theorem W17_arg19 : (W17 m ρ c (Proc.devRef .tc main_arg19)) = (W6 m ρ c (Proc.devRef .tc main_arg19) : FVec Ideal S256x256 .f32) :=
  (W17_of_ne m ρ c main_arg19 (by decide)).trans (W16_arg19 m ρ c)

theorem W17_arg20 : (W17 m ρ c (Proc.devRef .tc main_arg20)) = (W6 m ρ c (Proc.devRef .tc main_arg20) : FVec Ideal S256 .f32) :=
  (W17_of_ne m ρ c main_arg20 (by decide)).trans (W16_arg20 m ρ c)

end Cert.KernelIdeal.KChainB

end
-- ==== Proof.KChainC.lean ====
/-
  The kernel's buffers from the second launch's exit to the end, in terms of the contents at the second launch's
  exit: the second layer's aggregated messages and the membership matrix the third launch reads, its two outputs as
  the pooled sums and counts of the second convolution, and the tail.
-/
import proofs.«411472_j4595615007316_2_alg».proof.Proof.Gen.KernelIdeal.Frame
import proofs.«411472_j4595615007316_2_alg».proof.Proof.KTerm
import proofs.«411472_j4595615007316_2_alg».proof.Proof.Region0
import proofs.«411472_j4595615007316_2_alg».proof.Proof.Region1
import proofs.«411472_j4595615007316_2_alg».proof.Proof.Region2
import Idealize.ShloMosaic.Lib.StableHlo.Run

set_option maxRecDepth 16384

noncomputable section

namespace Cert.KernelIdeal.KChainC

open Cert.KernelIdeal Cert.KernelIdeal.Gen Cert.KernelIdeal.KValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## From the second launch's exit to the third launch's entry -/

/-- Entering the third launch, the first convolution is carried from the second launch's exit. -/
theorem W22_v33 : (W22 m ρ c (Proc.devRef .tc main_v33)) = (W17 m ρ c (Proc.devRef .tc main_v33) : FVec Ideal S100000x256 .f32) := by
  dsimp only [W22, W21, W20, W19, W18, hostOps2, hostOps2_1, hostOps2_2, hostOps2_3, hostOps2_4]
  after_results_simp

/-- Entering the third launch, the second layer's first matrix is carried from the second launch's exit. -/
theorem W22_arg15 : (W22 m ρ c (Proc.devRef .tc main_arg15)) = (W17 m ρ c (Proc.devRef .tc main_arg15) : FVec Ideal S256x256 .f32) := by
  dsimp only [W22, W21, W20, W19, W18, hostOps2, hostOps2_1, hostOps2_2, hostOps2_3, hostOps2_4]
  after_results_simp

/-- Entering the third launch, the second layer's second matrix is carried from the second launch's exit. -/
theorem W22_arg17 : (W22 m ρ c (Proc.devRef .tc main_arg17)) = (W17 m ρ c (Proc.devRef .tc main_arg17) : FVec Ideal S256x256 .f32) := by
  dsimp only [W22, W21, W20, W19, W18, hostOps2, hostOps2_1, hostOps2_2, hostOps2_3, hostOps2_4]
  after_results_simp

/-- Entering the third launch, the second layer's first bias row is carried from the second launch's exit. -/
theorem W22_v24 : (W22 m ρ c (Proc.devRef .tc main_v24)) = (W17 m ρ c (Proc.devRef .tc main_v24) : FVec Ideal S1x256 .f32) := by
  dsimp only [W22, W21, W20, W19, W18, hostOps2, hostOps2_1, hostOps2_2, hostOps2_3, hostOps2_4]
  after_results_simp

/-- Entering the third launch, the second layer's second bias row is carried from the second launch's exit. -/
theorem W22_v25 : (W22 m ρ c (Proc.devRef .tc main_v25)) = (W17 m ρ c (Proc.devRef .tc main_v25) : FVec Ideal S1x256 .f32) := by
  dsimp only [W22, W21, W20, W19, W18, hostOps2, hostOps2_1, hostOps2_2, hostOps2_3, hostOps2_4]
  after_results_simp

/-- Entering the third launch, the output projection is carried from the second launch's exit. -/
theorem W22_arg19 : (W22 m ρ c (Proc.devRef .tc main_arg19)) = (W17 m ρ c (Proc.devRef .tc main_arg19) : FVec Ideal S256x256 .f32) := by
  dsimp only [W22, W21, W20, W19, W18, hostOps2, hostOps2_1, hostOps2_2, hostOps2_3, hostOps2_4]
  after_results_simp

/-- Entering the third launch, the output bias is carried from the second launch's exit. -/
theorem W22_arg20 : (W22 m ρ c (Proc.devRef .tc main_arg20)) = (W17 m ρ c (Proc.devRef .tc main_arg20) : FVec Ideal S256 .f32) := by
  dsimp only [W22, W21, W20, W19, W18, hostOps2, hostOps2_1, hostOps2_2, hostOps2_3, hostOps2_4]
  after_results_simp

set_option maxHeartbeats 4000000 in
set_option maxRecDepth 200000 in
/-- Entering the third launch, the membership matrix of the graph ids. -/
theorem W22_v41 : (W22 m ρ c (Proc.devRef .tc main_v41)) = kOh (W17 m ρ c (Proc.devRef .tc main_arg4) : IVec S100000 32) := by
  dsimp only [W22, W21, W20, W19, W18, hostOps2, hostOps2_1, hostOps2_2, hostOps2_3, hostOps2_4]
  after_results_simp
  rfl

set_option maxHeartbeats 4000000 in
set_option maxRecDepth 200000 in
/-- Entering the third launch, the second layer's aggregated messages: the first convolution's rows looked up at the
    source indices, the edge embedding added, rectified, and summed at the destination indices. -/
theorem W22_v40 (a3 : IVec S2x300000 32) (ea : FVec Ideal S300000x256 .bf16)
    (h17 : (W17 m ρ c (Proc.devRef .tc main_v17)) = ea) (h19 : (W17 m ρ c (Proc.devRef .tc main_v19)) = idxSrc a3)
    (h21 : (W17 m ρ c (Proc.devRef .tc main_v21)) = idxDst a3) :
    (W22 m ρ c (Proc.devRef .tc main_v40)) = kAgg (W17 m ρ c (Proc.devRef .tc main_v33) : FVec Ideal S100000x256 .f32) a3 ea := by
  dsimp only [W22, W21, W20, W19, W18, hostOps2, hostOps2_1, hostOps2_2, hostOps2_3, hostOps2_4]
  after_results_simp
  rw [h17, h19, h21]
  simp only [TRef.ofBuf, TRef.toBuf, cast_eq]
  unfold kAgg kMsg takeNode kTake LibTake.rangeTest LibTake.wrapIdx
  rfl

/-! ## The third launch's exit -/

/-- Leaving the third launch, its first output holds the pooled sums of the second convolution. -/
theorem W23_v42_0 (a3 : IVec S2x300000 32) (ea : FVec Ideal S300000x256 .bf16) (a16 a18 : FVec Ideal S256 .f32)
    (h17 : (W17 m ρ c (Proc.devRef .tc main_v17)) = ea) (h19 : (W17 m ρ c (Proc.devRef .tc main_v19)) = idxSrc a3)
    (h21 : (W17 m ρ c (Proc.devRef .tc main_v21)) = idxDst a3)
    (h24 : (W17 m ρ c (Proc.devRef .tc main_v24)) = biasRow a16) (h25 : (W17 m ρ c (Proc.devRef .tc main_v25)) = biasRow a18) :
    (W23 m ρ c (Proc.devRef .tc main_v42_0))
      = Spec.pool (kOh (W17 m ρ c (Proc.devRef .tc main_arg4) : IVec S100000 32))
          (kConv (W17 m ρ c (Proc.devRef .tc main_v33) : FVec Ideal S100000x256 .f32) a3 ea
            (W17 m ρ c (Proc.devRef .tc main_arg15) : FVec Ideal S256x256 .f32) a16
            (W17 m ρ c (Proc.devRef .tc main_arg17) : FVec Ideal S256x256 .f32) a18) := by
  refine (W23_arr m ρ c 7).trans ?_
  refine (Cert.KernelIdeal.Value2.region2_sums (V22 m ρ) c).trans ?_
  show Spec.pool (W22 m ρ c (Proc.devRef .tc main_v41) : Spec.A2 100000 128)
      (Spec.mlp (W22 m ρ c (Proc.devRef .tc main_v33) : Spec.A2 100000 256) (W22 m ρ c (Proc.devRef .tc main_v40) : Spec.A2 100000 256)
        (W22 m ρ c (Proc.devRef .tc main_arg15) : Spec.A2 256 256) (fun j => (W22 m ρ c (Proc.devRef .tc main_v24) : Spec.A2 1 256) (ix2 0 j))
        (W22 m ρ c (Proc.devRef .tc main_arg17) : Spec.A2 256 256) (fun j => (W22 m ρ c (Proc.devRef .tc main_v25) : Spec.A2 1 256) (ix2 0 j))) = _
  rw [W22_v41, W22_v33, W22_v40 m ρ c a3 ea h17 h19 h21, W22_arg15, W22_arg17, W22_v24, W22_v25, h24, h25]
  rfl

/-- Leaving the third launch, its second output holds the pooled counts. -/
theorem W23_v42_1 :
    (W23 m ρ c (Proc.devRef .tc main_v42_1)) = Spec.count (kOh (W17 m ρ c (Proc.devRef .tc main_arg4) : IVec S100000 32)) := by
  refine (W23_arr m ρ c 8).trans ?_
  refine (Cert.KernelIdeal.Value2.region2_cnts (V22 m ρ) c).trans ?_
  show Spec.count (W22 m ρ c (Proc.devRef .tc main_v41) : Spec.A2 100000 128) = _
  rw [W22_v41]

/-- Leaving the third launch, the output projection is carried. -/
theorem W23_arg19 : (W23 m ρ c (Proc.devRef .tc main_arg19)) = (W17 m ρ c (Proc.devRef .tc main_arg19) : FVec Ideal S256x256 .f32) :=
  (W23_of_ne m ρ c main_arg19 (by decide)).trans (W22_arg19 m ρ c)

/-- Leaving the third launch, the output bias is carried. -/
theorem W23_arg20 : (W23 m ρ c (Proc.devRef .tc main_arg20)) = (W17 m ρ c (Proc.devRef .tc main_arg20) : FVec Ideal S256 .f32) :=
  (W23_of_ne m ρ c main_arg20 (by decide)).trans (W22_arg20 m ρ c)

/-! ## The tail -/

set_option maxHeartbeats 4000000 in
set_option maxRecDepth 200000 in
/-- The result buffer at the end is the tail of what the third launch leaves. -/
theorem W24_tail : (W24 m ρ c (Proc.devRef .tc main_v51))
    = kTail (W23 m ρ c (Proc.devRef .tc main_v42_0) : FVec Ideal S128x256 .f32) (W23 m ρ c (Proc.devRef .tc main_v42_1) : FVec Ideal S1x128 .f32)
        (W23 m ρ c (Proc.devRef .tc main_arg19) : FVec Ideal S256x256 .f32) (W23 m ρ c (Proc.devRef .tc main_arg20) : FVec Ideal S256 .f32) := by
  dsimp only [W24, hostOps3]
  after_results_simp
  rfl

/-- The result buffer at the end: the tail of the pooled second convolution, given what the carried edge embedding,
    index vectors and reshaped biases hold at the second launch's exit. -/
theorem W24_v51 (a3 : IVec S2x300000 32) (ea : FVec Ideal S300000x256 .bf16) (a16 a18 : FVec Ideal S256 .f32)
    (h17 : (W17 m ρ c (Proc.devRef .tc main_v17)) = ea) (h19 : (W17 m ρ c (Proc.devRef .tc main_v19)) = idxSrc a3) (h21 : (W17 m ρ c (Proc.devRef .tc main_v21)) = idxDst a3)
    (h24 : (W17 m ρ c (Proc.devRef .tc main_v24)) = biasRow a16) (h25 : (W17 m ρ c (Proc.devRef .tc main_v25)) = biasRow a18) :
    (W24 m ρ c (Proc.devRef .tc main_v51))
      = kTail (Spec.pool (kOh (W17 m ρ c (Proc.devRef .tc main_arg4) : IVec S100000 32)) (kConv (W17 m ρ c (Proc.devRef .tc main_v33) : FVec Ideal S100000x256 .f32) a3 ea (W17 m ρ c (Proc.devRef .tc main_arg15) : FVec Ideal S256x256 .f32) a16 (W17 m ρ c (Proc.devRef .tc main_arg17) : FVec Ideal S256x256 .f32) a18))
          (Spec.count (kOh (W17 m ρ c (Proc.devRef .tc main_arg4) : IVec S100000 32))) (W17 m ρ c (Proc.devRef .tc main_arg19) : FVec Ideal S256x256 .f32) (W17 m ρ c (Proc.devRef .tc main_arg20) : FVec Ideal S256 .f32) := by
  rw [W24_tail, W23_v42_0 m ρ c a3 ea a16 a18 h17 h19 h21 h24 h25, W23_v42_1, W23_arg19, W23_arg20]

end Cert.KernelIdeal.KChainC

end
-- ==== Proof.KFinal.lean ====
/-
  The kernel's result buffer at the end of the run is the kernel's stage-by-stage function of the launch contents:
  the three stretches of the program, each read back to the one before, composed.
-/
import proofs.«411472_j4595615007316_2_alg».proof.Proof.KChainA
import proofs.«411472_j4595615007316_2_alg».proof.Proof.KChainB
import proofs.«411472_j4595615007316_2_alg».proof.Proof.KChainC

set_option maxRecDepth 16384

noncomputable section

namespace Cert.KernelIdeal.KFinal

open Cert.KernelIdeal Cert.KernelIdeal.Gen Cert.KernelIdeal.KValue
open Idealize.ShloMosaic Idealize.ShloMosaic.TcCoe Idealize.SL.Sem

variable (m : (ℓ : Loc nD τ sig) → Buf (Elt Ideal) ℓ) (ρ : Dev nD → PrngReg) (c : Dev nD)

/-- The result buffer at the last boundary is `kOut` of the twenty-one arguments' launch contents. -/
theorem W24_v51_eq : W24 m ρ c (Proc.devRef .tc main_v51)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h := KChainC.W24_v51 m ρ c (W6 m ρ c (Proc.devRef .tc main_arg3)) (kEa (W6 m ρ c (Proc.devRef .tc main_arg2)) (W6 m ρ c (Proc.devRef .tc main_arg9)) (W6 m ρ c (Proc.devRef .tc main_arg10))) (W6 m ρ c (Proc.devRef .tc main_arg16)) (W6 m ρ c (Proc.devRef .tc main_arg18))
    (KChainB.W17_v17 m ρ c) (KChainB.W17_v19 m ρ c) (KChainB.W17_v21 m ρ c) (KChainB.W17_v24 m ρ c) (KChainB.W17_v25 m ρ c)
  rw [h, KChainB.W17_v33 m ρ c, KChainB.W17_arg4 m ρ c, KChainB.W17_arg15 m ρ c, KChainB.W17_arg17 m ρ c, KChainB.W17_arg19 m ρ c,
    KChainB.W17_arg20 m ρ c, KChainA.W6_v8 m ρ c, KChainA.W6_arg2 m ρ c, KChainA.W6_arg3 m ρ c, KChainA.W6_arg4 m ρ c, KChainA.W6_arg9 m ρ c, KChainA.W6_arg10 m ρ c, KChainA.W6_arg11 m ρ c, KChainA.W6_arg12 m ρ c, KChainA.W6_arg13 m ρ c, KChainA.W6_arg14 m ρ c, KChainA.W6_arg15 m ρ c, KChainA.W6_arg16 m ρ c, KChainA.W6_arg17 m ρ c, KChainA.W6_arg18 m ρ c, KChainA.W6_arg19 m ρ c, KChainA.W6_arg20 m ρ c]
  rfl

end Cert.KernelIdeal.KFinal

end
-- ==== Proof.RefDefs.lean ====
/-
  The reference's result as one function of its twenty-one arguments, written stage by stage: the gathered node
  and edge embeddings, two convolutions (messages gathered at the source, rectified, summed at the destination,
  then the perceptron), the pooled sums and counts by graph id, the mean and the output projection.
-/
import proofs.«411472_j4595615007316_2_alg».proof.Proof.Gen.ReferenceIdeal
import Idealize.ShloMosaic.PureOps.Ideal

noncomputable section

namespace Cert.ReferenceIdeal.RefValue

open Cert.ReferenceIdeal Cert.ReferenceIdeal.Gen
open Idealize.ShloMosaic Idealize.ShloMosaic.TcCoe Idealize.SL.Sem

/-! ## The index vectors -/

def idxX0 (a0 : IVec S100000x2 32) : IVec S100000 32 :=
  shapeCast S100000 (extractStridedSlice S100000x1 ![0, 0] a0 slices_S100000x2_S100000x1_0_0) shapeCasts_S100000x1_S100000
def idxX1 (a0 : IVec S100000x2 32) : IVec S100000 32 :=
  shapeCast S100000 (extractStridedSlice S100000x1 ![0, 1] a0 slices_S100000x2_S100000x1_0_1) shapeCasts_S100000x1_S100000
def idxE0 (a2 : IVec S300000x2 32) : IVec S300000 32 :=
  shapeCast S300000 (extractStridedSlice S300000x1 ![0, 0] a2 slices_S300000x2_S300000x1_0_0) shapeCasts_S300000x1_S300000
def idxE1 (a2 : IVec S300000x2 32) : IVec S300000 32 :=
  shapeCast S300000 (extractStridedSlice S300000x1 ![0, 1] a2 slices_S300000x2_S300000x1_0_1) shapeCasts_S300000x1_S300000
def idxSrc (a3 : IVec S2x300000 32) : IVec S300000 32 :=
  shapeCast S300000 (extractStridedSlice S1x300000 ![0, 0] a3 slices_S2x300000_S1x300000_0_0) shapeCasts_S1x300000_S300000
def idxDst (a3 : IVec S2x300000 32) : IVec S300000 32 :=
  shapeCast S300000 (extractStridedSlice S1x300000 ![1, 0] a3 slices_S2x300000_S1x300000_1_0) shapeCasts_S1x300000_S300000

/-- A negative index wrapped by the table's length (node-indexed vectors). -/
def wrapN (n : BitVec 32) (i : IVec S100000 32) : IVec S100000 32 :=
  select (cmpi .slt i (broadcastInDim S100000 ![] bcast_S_S100000 (constantI S_ 32 0#32)))
    (addi i (broadcastInDim S100000 ![] bcast_S_S100000 (constantI S_ 32 n))) i
/-- A negative index wrapped by the table's length (edge-indexed vectors). -/
def wrapE (n : BitVec 32) (i : IVec S300000 32) : IVec S300000 32 :=
  select (cmpi .slt i (broadcastInDim S300000 ![] bcast_S_S300000 (constantI S_ 32 0#32)))
    (addi i (broadcastInDim S300000 ![] bcast_S_S300000 (constantI S_ 32 n))) i
/-- The child index clamped into [0, 199]. -/
def clipE (v : IVec S300000 32) : IVec S300000 32 :=
  minsi (broadcastInDim S300000 ![] bcast_S_S300000 (id (constantI S_ 32 199#32)))
    (maxsi (broadcastInDim S300000 ![] bcast_S_S300000 (id (constantI S_ 32 0#32))) v)
def colN (i : IVec S100000 32) : IVec S100000x1 32 := broadcastInDim S100000x1 ![0] bcast_S100000_S100000x1_0 i
def colE (i : IVec S300000 32) : IVec S300000x1 32 := broadcastInDim S300000x1 ![0] bcast_S300000_S300000x1_0 i

/-! ## The stages -/

/-- A bias vector along the rows of a node-indexed array. -/
def biasN (b : FVec Ideal S256 .f32) : FVec Ideal S100000x256 .f32 :=
  broadcastInDim S100000x256 ![0, 1] bcast_S1x256_S100000x256_0_1 (broadcastInDim S1x256 ![1] bcast_S256_S1x256_1 b)
/-- The node-indexed array of zeros. -/
def zerosN : FVec Ideal S100000x256 .f32 :=
  broadcastInDim S100000x256 ![] bcast_S_S100000x256 (constant (F := Ideal) S_ .f32 0x00000000#32)

def rEmb (a0 : IVec S100000x2 32) (a5 : FVec Ideal S10000x256 .f32) (a6 : FVec Ideal S3x256 .f32) : FVec Ideal S100000x256 .f32 :=
  addf (Host.gather gather_S10000x256_S100000x1_S100000x256_1_0_n_n_0_1_1256 a5 (colN (wrapN 10000#32 (idxX0 a0))))
    (Host.gather gather_S3x256_S100000x1_S100000x256_1_0_n_n_0_1_1256 a6 (colN (wrapN 3#32 (idxX1 a0))))

def rH0 (a0 : IVec S100000x2 32) (a1 : FVec Ideal S100000x1536 .f32) (a5 : FVec Ideal S10000x256 .f32) (a6 : FVec Ideal S3x256 .f32)
    (a7 : FVec Ideal S1536x256 .f32) (a8 : FVec Ideal S256 .f32) : FVec Ideal S100000x256 .f32 :=
  addf (rEmb a0 a5 a6) (addf (Host.dotGeneral dot_S100000x1536_S1536x256_S100000x256_1_0_0_1_n_n none a1 a7) (biasN a8))

def rEa (a2 : IVec S300000x2 32) (a9 : FVec Ideal S8x256 .f32) (a10 : FVec Ideal S200x256 .f32) : FVec Ideal S300000x256 .f32 :=
  addf (Host.gather gather_S8x256_S300000x1_S300000x256_1_0_n_n_0_1_1256 a9 (colE (wrapE 8#32 (idxE0 a2))))
    (Host.gather gather_S200x256_S300000x1_S300000x256_1_0_n_n_0_1_1256 a10 (colE (wrapE 200#32 (clipE (idxE1 a2)))))

def rMsg (h : FVec Ideal S100000x256 .f32) (a3 : IVec S2x300000 32) (ea : FVec Ideal S300000x256 .f32) : FVec Ideal S300000x256 .f32 :=
  maximumf (addf (Host.gather gather_S100000x256_S300000x1_S300000x256_1_0_n_n_0_1_1256 h (colE (wrapE 100000#32 (idxSrc a3)))) ea)
    (broadcastInDim S300000x256 ![] bcast_S_S300000x256 (constant (F := Ideal) S_ .f32 0x00000000#32))

def rAgg (h : FVec Ideal S100000x256 .f32) (a3 : IVec S2x300000 32) (ea : FVec Ideal S300000x256 .f32) : FVec Ideal S100000x256 .f32 :=
  Host.scatterAdd scatter_S100000x256_S300000x1_S300000x256_1_0_0_1 zerosN (colE (idxDst a3)) (rMsg h a3 ea)

def rConv (h : FVec Ideal S100000x256 .f32) (a3 : IVec S2x300000 32) (ea : FVec Ideal S300000x256 .f32)
    (W1 : FVec Ideal S256x256 .f32) (b1 : FVec Ideal S256 .f32) (W2 : FVec Ideal S256x256 .f32) (b2 : FVec Ideal S256 .f32) : FVec Ideal S100000x256 .f32 :=
  addf (Host.dotGeneral dot_S100000x256_S256x256_S100000x256_1_0_0_1_n_n none
      (maximumf (addf (Host.dotGeneral dot_S100000x256_S256x256_S100000x256_1_0_0_1_n_n none (addf h (rAgg h a3 ea)) W1) (biasN b1)) zerosN) W2)
    (biasN b2)

/-- The pooled sums by graph id. -/
def rSums (a4 : IVec S100000 32) (H : FVec Ideal S100000x256 .f32) : FVec Ideal S128x256 .f32 :=
  Host.scatterAdd scatter_S128x256_S100000x1_S100000x256_1_0_0_1
    (broadcastInDim S128x256 ![] bcast_S_S128x256 (constant (F := Ideal) S_ .f32 0x00000000#32)) (colN a4) H
/-- The node counts by graph id. -/
def rCnts (a4 : IVec S100000 32) : FVec Ideal S128 .f32 :=
  Host.scatterAdd scatter_S128_S100000x1_S100000_n_0_0_1
    (broadcastInDim S128 ![] bcast_S_S128 (constant (F := Ideal) S_ .f32 0x00000000#32)) (colN a4)
    (broadcastInDim S100000 ![] bcast_S_S100000 (constant (F := Ideal) S_ .f32 0x3F800000#32))

/-- The reference's tail: the sums divided by the counts (at least 1), then the output projection. -/
def rTail (S : FVec Ideal S128x256 .f32) (C : FVec Ideal S128 .f32) (a19 : FVec Ideal S256x256 .f32) (a20 : FVec Ideal S256 .f32) : FVec Ideal S128x256 .f32 :=
  addf (Host.dotGeneral dot_S128x256_S256x256_S128x256_1_0_0_1_n_n none
      (Host.divf S (broadcastInDim S128x256 ![0, 1] bcast_S128x1_S128x256_0_1 (broadcastInDim S128x1 ![0] bcast_S128_S128x1_0
        (maximumf C (broadcastInDim S128 ![] bcast_S_S128 (constant (F := Ideal) S_ .f32 0x3F800000#32)))))) a19)
    (broadcastInDim S128x256 ![0, 1] bcast_S1x256_S128x256_0_1 (broadcastInDim S1x256 ![1] bcast_S256_S1x256_1 a20))

/-- The reference's result as one function of its twenty-one arguments. -/
def rOut (a0 : IVec S100000x2 32) (a1 : FVec Ideal S100000x1536 .f32) (a2 : IVec S300000x2 32) (a3 : IVec S2x300000 32) (a4 : IVec S100000 32)
    (a5 : FVec Ideal S10000x256 .f32) (a6 : FVec Ideal S3x256 .f32) (a7 : FVec Ideal S1536x256 .f32) (a8 : FVec Ideal S256 .f32)
    (a9 : FVec Ideal S8x256 .f32) (a10 : FVec Ideal S200x256 .f32)
    (a11 : FVec Ideal S256x256 .f32) (a12 : FVec Ideal S256 .f32) (a13 : FVec Ideal S256x256 .f32) (a14 : FVec Ideal S256 .f32)
    (a15 : FVec Ideal S256x256 .f32) (a16 : FVec Ideal S256 .f32) (a17 : FVec Ideal S256x256 .f32) (a18 : FVec Ideal S256 .f32)
    (a19 : FVec Ideal S256x256 .f32) (a20 : FVec Ideal S256 .f32) : FVec Ideal S128x256 .f32 :=
  rTail
    (rSums a4 (rConv (rConv (rH0 a0 a1 a5 a6 a7 a8) a3 (rEa a2 a9 a10) a11 a12 a13 a14) a3 (rEa a2 a9 a10) a15 a16 a17 a18))
    (rCnts a4) a19 a20

end Cert.ReferenceIdeal.RefValue

end
-- ==== Proof.RefTerm.lean ====
/-
  The generated run's composed term of the reference is the stage-by-stage function of the launch contents.
-/
import proofs.«411472_j4595615007316_2_alg».proof.Proof.Gen.ReferenceIdeal.Run
import proofs.«411472_j4595615007316_2_alg».proof.Proof.RefDefs

noncomputable section

namespace Cert.ReferenceIdeal.RefValue

open Cert.ReferenceIdeal Cert.ReferenceIdeal.Gen
open Idealize.ShloMosaic Idealize.ShloMosaic.TcCoe Idealize.SL.Sem

set_option maxRecDepth 8192 in
/-- The generated run's composed term is `rOut` of the launch contents. -/
theorem res_eq (m : (ℓ : Loc nD τ sig) → Buf (Elt Ideal) ℓ) (c : Dev nD) :
    Cert.ReferenceIdeal.Value.res_main_v107 (F := Ideal) m c
      = rOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20)) := by
  unfold Cert.ReferenceIdeal.Value.res_main_v107
  rfl

end Cert.ReferenceIdeal.RefValue

end
-- ==== Proof.HostLin.lean ====
/-
  The reference's host stages as specification functions: a matrix product of rows plus a bias broadcast along the
  rows is the affine map of rows; the maximum with the zero array is the rectifier; so one convolution's dense part
  is the perceptron, and the first stage is the embedding plus the affine map of the node features.
-/
import proofs.«411472_j4595615007316_2_alg».proof.Proof.RefDefs
import proofs.«411472_j4595615007316_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen
open Idealize.ShloMosaic Idealize.ShloMosaic.ValueIdx

/-- A bias vector as a function of the column. -/
def vecOf (b : FVec Ideal S256 .f32) : Fin 256 → EReal := fun j => b (ix1 j)

/-! ## The broadcasts read at an entry -/

/-- The bias array at (r, j) is the bias vector at j: the row axis of extent one is read at 0, the column axis is kept. -/
theorem biasN_apply (b : FVec Ideal S256 .f32) (p : Fin 100000) (q : Fin 256) : biasN b (ix2 p q) = b (ix1 q) := by
  unfold biasN
  rw [broadcastInDim_apply _ bcast_S1x256_S100000x256_0_1 _ (ix2 p q) (ix2 ⟨0, Nat.one_pos⟩ q) (fun a => match a with
    | ⟨0, _⟩ => by show 0 = if (1 : Nat) = 1 then 0 else p.val; rw [if_pos rfl]
    | ⟨1, _⟩ => by show q.val = if (256 : Nat) = 1 then 0 else q.val; rw [if_neg (by decide)])]
  exact broadcastInDim_apply _ bcast_S256_S1x256_1 b _ (ix1 q) (fun a => match a with
    | ⟨0, _⟩ => by show q.val = if (256 : Nat) = 1 then 0 else q.val; rw [if_neg (by decide)])

/-- The zero array is 0 at every entry: the broadcast scalar is the zero word, which is the real 0. -/
theorem zerosN_apply (i : S100000x256.Idx) : zerosN i = 0 := by
  unfold zerosN
  rw [broadcastInDim_apply _ bcast_S_S100000x256 _ i ix0 (fun a => a.elim0)]
  exact Ideal.ofBits_zero_f32

/-! ## The two matrix products read at an entry

  The contraction has one axis: the left operand's axis 1 against the right operand's axis 0. At the output entry (r, j)
  and the contraction coordinate k the left operand is read at (r, k) and the right at (k, j). -/

theorem lhs_big_0 (i : S100000x256.Idx) (q : dot_S100000x1536_S1536x256_S100000x256_1_0_0_1_n_n.contr.Idx) :
    (dot_S100000x1536_S1536x256_S100000x256_1_0_0_1_n_n.lhsIdx i q 0).val = (i 0).val := by
  unfold DotDims.lhsIdx
  rw [dif_neg (show ¬(0 : Fin S100000x1536.rank) ∈ dot_S100000x1536_S1536x256_S100000x256_1_0_0_1_n_n.lhsBatch by decide), dif_pos (show (0 : Fin S100000x1536.rank) ∈ dot_S100000x1536_S1536x256_S100000x256_1_0_0_1_n_n.lhsNonContracting by decide)]
  rfl
theorem lhs_big_1 (i : S100000x256.Idx) (q : dot_S100000x1536_S1536x256_S100000x256_1_0_0_1_n_n.contr.Idx) :
    (dot_S100000x1536_S1536x256_S100000x256_1_0_0_1_n_n.lhsIdx i q 1).val = (q ⟨0, by decide⟩).val :=
  dot_S100000x1536_S1536x256_S100000x256_1_0_0_1_n_n.lhsIdx_val_of_single rfl i q
theorem rhs_big_0 (i : S100000x256.Idx) (q : dot_S100000x1536_S1536x256_S100000x256_1_0_0_1_n_n.contr.Idx) :
    (dot_S100000x1536_S1536x256_S100000x256_1_0_0_1_n_n.rhsIdx i q 0).val = (q ⟨0, by decide⟩).val :=
  dot_S100000x1536_S1536x256_S100000x256_1_0_0_1_n_n.rhsIdx_val_of_single rfl i q
theorem rhs_big_1 (i : S100000x256.Idx) (q : dot_S100000x1536_S1536x256_S100000x256_1_0_0_1_n_n.contr.Idx) :
    (dot_S100000x1536_S1536x256_S100000x256_1_0_0_1_n_n.rhsIdx i q 1).val = (i 1).val := by
  unfold DotDims.rhsIdx
  rw [dif_neg (show ¬(1 : Fin S1536x256.rank) ∈ dot_S100000x1536_S1536x256_S100000x256_1_0_0_1_n_n.rhsBatch by decide), dif_pos (show (1 : Fin S1536x256.rank) ∈ dot_S100000x1536_S1536x256_S100000x256_1_0_0_1_n_n.rhsNonContracting by decide)]
  rfl

/-- The node features' product at (r, j) is the sum over k of x(r,k)·w(k,j). -/
theorem dot_big_apply (x : FVec Ideal S100000x1536 .f32) (w : FVec Ideal S1536x256 .f32) (p : Fin 100000) (q : Fin 256) :
    Host.dotGeneral dot_S100000x1536_S1536x256_S100000x256_1_0_0_1_n_n none x w (ix2 p q)
      = ∑ k : Fin 1536, x (ix2 p k) * w (ix2 k q) := by
  simp only [Host.dotGeneral]
  rw [Ideal.dotGeneral_apply, ← Equiv.sum_comp (contrEquiv1 dot_S100000x1536_S1536x256_S100000x256_1_0_0_1_n_n 1536 rfl rfl).symm]
  refine Finset.sum_congr rfl fun k _ => ?_
  have hk := contrEquiv1_symm_val dot_S100000x1536_S1536x256_S100000x256_1_0_0_1_n_n 1536 rfl rfl k
  have el : dot_S100000x1536_S1536x256_S100000x256_1_0_0_1_n_n.lhsIdx (ix2 p q) ((contrEquiv1 dot_S100000x1536_S1536x256_S100000x256_1_0_0_1_n_n 1536 rfl rfl).symm k) = ix2 p k := funext fun a => Fin.ext (by
    match a with
    | ⟨0, _⟩ => exact lhs_big_0 _ _
    | ⟨1, _⟩ => exact (lhs_big_1 _ _).trans hk)
  have er : dot_S100000x1536_S1536x256_S100000x256_1_0_0_1_n_n.rhsIdx (ix2 p q) ((contrEquiv1 dot_S100000x1536_S1536x256_S100000x256_1_0_0_1_n_n 1536 rfl rfl).symm k) = ix2 k q := funext fun a => Fin.ext (by
    match a with
    | ⟨0, _⟩ => exact (rhs_big_0 _ _).trans hk
    | ⟨1, _⟩ => exact rhs_big_1 _ _)
  rw [el, er]

theorem lhs_mid_0 (i : S100000x256.Idx) (q : dot_S100000x256_S256x256_S100000x256_1_0_0_1_n_n.contr.Idx) :
    (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl
theorem lhs_mid_1 (i : S100000x256.Idx) (q : dot_S100000x256_S256x256_S100000x256_1_0_0_1_n_n.contr.Idx) :
    (dot_S100000x256_S256x256_S100000x256_1_0_0_1_n_n.lhsIdx i q 1).val = (q ⟨0, by decide⟩).val :=
  dot_S100000x256_S256x256_S100000x256_1_0_0_1_n_n.lhsIdx_val_of_single rfl i q
theorem rhs_mid_0 (i : S100000x256.Idx) (q : dot_S100000x256_S256x256_S100000x256_1_0_0_1_n_n.contr.Idx) :
    (dot_S100000x256_S256x256_S100000x256_1_0_0_1_n_n.rhsIdx i q 0).val = (q ⟨0, by decide⟩).val :=
  dot_S100000x256_S256x256_S100000x256_1_0_0_1_n_n.rhsIdx_val_of_single rfl i q
theorem rhs_mid_1 (i : S100000x256.Idx) (q : dot_S100000x256_S256x256_S100000x256_1_0_0_1_n_n.contr.Idx) :
    (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl

/-- A hidden layer's product at (r, j) is the sum over k of x(r,k)·w(k,j). -/
theorem dot_mid_apply (x : FVec Ideal S100000x256 .f32) (w : FVec Ideal S256x256 .f32) (p : Fin 100000) (q : Fin 256) :
    Host.dotGeneral dot_S100000x256_S256x256_S100000x256_1_0_0_1_n_n none x w (ix2 p q)
      = ∑ k : Fin 256, x (ix2 p k) * w (ix2 k q) := by
  simp only [Host.dotGeneral]
  rw [Ideal.dotGeneral_apply, ← Equiv.sum_comp (contrEquiv1 dot_S100000x256_S256x256_S100000x256_1_0_0_1_n_n 256 rfl rfl).symm]
  refine Finset.sum_congr rfl fun k _ => ?_
  have hk := contrEquiv1_symm_val dot_S100000x256_S256x256_S100000x256_1_0_0_1_n_n 256 rfl rfl k
  have el : dot_S100000x256_S256x256_S100000x256_1_0_0_1_n_n.lhsIdx (ix2 p q) ((contrEquiv1 dot_S100000x256_S256x256_S100000x256_1_0_0_1_n_n 256 rfl rfl).symm k) = ix2 p k := funext fun a => Fin.ext (by
    match a with
    | ⟨0, _⟩ => exact lhs_mid_0 _ _
    | ⟨1, _⟩ => exact (lhs_mid_1 _ _).trans hk)
  have er : dot_S100000x256_S256x256_S100000x256_1_0_0_1_n_n.rhsIdx (ix2 p q) ((contrEquiv1 dot_S100000x256_S256x256_S100000x256_1_0_0_1_n_n 256 rfl rfl).symm k) = ix2 k q := funext fun a => Fin.ext (by
    match a with
    | ⟨0, _⟩ => exact (rhs_mid_0 _ _).trans hk
    | ⟨1, _⟩ => exact rhs_mid_1 _ _)
  rw [el, er]

/-! ## The stages as specification functions -/

/-- The node features' projection plus its bias is the affine map of rows. -/
theorem lin_big (x : FVec Ideal S100000x1536 .f32) (w : FVec Ideal S1536x256 .f32) (b : FVec Ideal S256 .f32) :
    addf (Host.dotGeneral dot_S100000x1536_S1536x256_S100000x256_1_0_0_1_n_n none x w) (biasN b)
      = Spec.lin (x : Spec.A2 100000 1536) (w : Spec.A2 1536 256) (vecOf b) := by
  funext i
  obtain ⟨p, q, rfl⟩ : ∃ (p : Fin 100000) (q : Fin 256), i = ix2 p q := ⟨i 0, i 1, eq_ix2 i⟩
  show Host.dotGeneral dot_S100000x1536_S1536x256_S100000x256_1_0_0_1_n_n none x w (ix2 p q) + biasN b (ix2 p q) = _
  rw [dot_big_apply, biasN_apply]
  rfl

/-- A hidden layer's product plus its bias is the affine map of rows. -/
theorem lin_mid (x : FVec Ideal S100000x256 .f32) (w : FVec Ideal S256x256 .f32) (b : FVec Ideal S256 .f32) :
    addf (Host.dotGeneral dot_S100000x256_S256x256_S100000x256_1_0_0_1_n_n none x w) (biasN b)
      = Spec.lin (x : Spec.A2 100000 256) (w : Spec.A2 256 256) (vecOf b) := by
  funext i
  obtain ⟨p, q, rfl⟩ : ∃ (p : Fin 100000) (q : Fin 256), i = ix2 p q := ⟨i 0, i 1, eq_ix2 i⟩
  show Host.dotGeneral dot_S100000x256_S256x256_S100000x256_1_0_0_1_n_n none x w (ix2 p q) + biasN b (ix2 p q) = _
  rw [dot_mid_apply, biasN_apply]
  rfl

/-- The maximum with the zero array is the rectifier. -/
theorem relu_mid (x : FVec Ideal S100000x256 .f32) : maximumf x zerosN = Spec.relu (x : Spec.A2 100000 256) := by
  funext i
  show max (x i) (zerosN i) = max (x i) 0
  rw [zerosN_apply]

/-- The entrywise sum is the specification's. -/
theorem add_mid (x y : FVec Ideal S100000x256 .f32) : addf x y = Spec.add (x : Spec.A2 100000 256) (y : Spec.A2 100000 256) := rfl

/-- The specification's sum commutes. -/
theorem add_comm_mid (x y : Spec.A2 100000 256) : Spec.add x y = Spec.add y x := by
  funext i
  exact add_comm (x i) (y i)

/-- One convolution of the reference is the perceptron of h plus its aggregated messages. -/
theorem rConv_eq (h : FVec Ideal S100000x256 .f32) (a3 : IVec S2x300000 32) (ea : FVec Ideal S300000x256 .f32)
    (W1 : FVec Ideal S256x256 .f32) (b1 : FVec Ideal S256 .f32) (W2 : FVec Ideal S256x256 .f32) (b2 : FVec Ideal S256 .f32) :
    rConv h a3 ea W1 b1 W2 b2
      = Spec.mlp (h : Spec.A2 100000 256) (rAgg h a3 ea : Spec.A2 100000 256) (W1 : Spec.A2 256 256) (vecOf b1) (W2 : Spec.A2 256 256) (vecOf b2) := by
  unfold rConv Spec.mlp
  rw [lin_mid, lin_mid, relu_mid, add_mid]

/-- The reference's first stage is the affine map of the node features plus the gathered embedding. -/
theorem rH0_eq (a0 : IVec S100000x2 32) (a1 : FVec Ideal S100000x1536 .f32) (a5 : FVec Ideal S10000x256 .f32) (a6 : FVec Ideal S3x256 .f32)
    (a7 : FVec Ideal S1536x256 .f32) (a8 : FVec Ideal S256 .f32) :
    rH0 a0 a1 a5 a6 a7 a8
      = Spec.add (Spec.lin (a1 : Spec.A2 100000 1536) (a7 : Spec.A2 1536 256) (vecOf a8)) (rEmb a0 a5 a6 : Spec.A2 100000 256) := by
  unfold rH0
  rw [lin_big, add_mid, add_comm_mid]

end Cert.ReferenceIdeal.RefValue

end
-- ==== Proof.LibPointScatter.lean ====
/-
  General facts about a scatter-add read at the exact instance (floats as extended reals), for any shapes and any
  dimension numbers:
  * `resultIdx?_eq_some_iff`: an update lands at operand index p exactly when, on every operand axis, its start
    (the index array's entry read signed, unclamped) plus its window coordinate is p's coordinate — being inside
    the operand is then automatic, so the "dropped when outside" clause disappears;
  * `scatterAdd_apply`: `Host.scatterAdd` at a result entry is the operand's entry plus the sum of the updates
    that land there;
  * `sum_filter_equiv`: two sums over filtered index sets agree when a bijection of the index types carries one
    predicate to the other and one summand to the other — the step that joins a scatter over flattened updates to
    the scatter over the unflattened ones.
  All three are stated over variables (shapes, index types), so instantiating them never makes Lean evaluate over
  a large literal extent.
-/
import Idealize.ShloMosaic.PureOps.Ideal

noncomputable section

open Idealize.ShloMosaic

namespace Cert.Lib.PointScatter

/-- An update lands at operand index `p` exactly when, on every operand axis, its start plus its window
    coordinate is `p`'s coordinate: being inside the operand is then automatic. -/
theorem resultIdx?_eq_some_iff {s si u : Shape} (d : ScatterDims s si u) {w : Nat} (j : u.Idx) (idx : IVec si w) (p : s.Idx) :
    d.resultIdx? j idx = some p ↔ ∀ a, d.start j idx a + (d.window j a : Int) = ((p a).val : Int) := by
  unfold ScatterDims.resultIdx?
  constructor
  · intro h
    by_cases hh : ∀ a, 0 ≤ d.start j idx a + d.window j a ∧ d.start j idx a + d.window j a < s.size a
    · rw [dif_pos hh] at h
      intro a
      have h1 := congrArg Fin.val (congrFun (Option.some.inj h) a)
      have h2 := hh a
      simp only at h1
      omega
    · rw [dif_neg hh] at h
      exact absurd h (by simp)
  · intro h
    have hh : ∀ a, 0 ≤ d.start j idx a + d.window j a ∧ d.start j idx a + d.window j a < s.size a := fun a => by
      have := h a; have := (p a).isLt; omega
    rw [dif_pos hh]
    congr 1
    funext a
    apply Fin.ext
    have := h a
    simp only
    omega

/-- The exact scatter-add at a result entry: the operand's entry plus the sum of the updates that land there. -/
theorem scatterAdd_apply {s si su : Shape} (d : ScatterDims s si su) {w : Nat} (x : FVec Ideal s .f32) (idx : IVec si w)
    (upd : FVec Ideal su .f32) (i : s.Idx) [DecidablePred fun j : su.Idx => d.resultIdx? j idx = some i] :
    Host.scatterAdd d x idx upd i = x i + ∑ j ∈ Finset.univ.filter (fun j => d.resultIdx? j idx = some i), upd j := by
  show Ideal.hostScatterAdd d x idx upd i = _
  unfold Ideal.hostScatterAdd
  congr

/-- Two sums over filtered index sets agree when a bijection of the index types carries one predicate to the
    other and one summand to the other. -/
theorem sum_filter_equiv {ι κ M : Type} [Fintype ι] [Fintype κ] [AddCommMonoid M] (e : ι ≃ κ) (P : ι → Prop) (Q : κ → Prop)
    [DecidablePred P] [DecidablePred Q] (f : ι → M) (g : κ → M) (hPQ : ∀ j, P j ↔ Q (e j)) (hfg : ∀ j, f j = g (e j)) :
    ∑ j ∈ Finset.univ.filter P, f j = ∑ k ∈ Finset.univ.filter Q, g k :=
  Finset.sum_equiv e (fun j => by simp only [Finset.mem_filter, Finset.mem_univ, true_and]; exact hPQ j) (fun j _ => hfg j)

end Cert.Lib.PointScatter

end
-- ==== Proof.PoolScatter.lean ====
/-
  Pooling against a membership matrix is a scatter-add by graph id. Entry (n, g) of the membership matrix is 1 where
  node n's graph id is g and 0 elsewhere, so the sum over all nodes of membership(n, g)·H(n, d) is the sum of H(n, d)
  over the nodes whose id is g: what a scatter-add of the rows of H at their ids leaves at (g, d) over zeros (an id
  outside [0, 128) matches no column and lands nowhere). The count is the same with every row's value 1.
-/
import proofs.«411472_j4595615007316_2_alg».proof.Proof.KTerm
import proofs.«411472_j4595615007316_2_alg».proof.Proof.RefDefs
import proofs.«411472_j4595615007316_2_alg».proof.Proof.Spec
import proofs.«411472_j4595615007316_2_alg».proof.Proof.LibPointScatter
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate

noncomputable section

open scoped BigOperators

namespace Cert.PoolScatter

open Idealize.ShloMosaic Idealize.ShloMosaic.ValueIdx

local notation "dS" => Cert.ReferenceIdeal.scatter_S128x256_S100000x1_S100000x256_1_0_0_1
local notation "dC" => Cert.ReferenceIdeal.scatter_S128_S100000x1_S100000_n_0_0_1

/-! ## Broadcasts read at an index -/

/-- An [n]-vector laid as an [n, 1] column reads, at (p, 0), the vector at p. -/
theorem col_apply {α : Type} {N : Nat} (hN : N ≠ 1) (h : (⟨1, ![N]⟩ : Shape).BroadcastsInDim ⟨2, ![N, 1]⟩ ![0])
    (v : (⟨1, ![N]⟩ : Shape).Idx → α) (p : Fin N) (z : Fin 1) :
    broadcastInDim ⟨2, ![N, 1]⟩ ![0] h v (ix2 p z) = v (ix1 p) :=
  broadcastInDim_apply ![0] h v (ix2 p z) (ix1 p) (fun a => match a with
    | ⟨0, _⟩ => by show p.val = if N = 1 then 0 else p.val; rw [if_neg hN])

/-- An [n, 1] column laid along the rows of an [n, m] array reads, at (p, q), the column at (p, 0). -/
theorem ofCol_apply {α : Type} {N M : Nat} (hN : N ≠ 1) (h : (⟨2, ![N, 1]⟩ : Shape).BroadcastsInDim ⟨2, ![N, M]⟩ ![0, 1])
    (v : (⟨2, ![N, 1]⟩ : Shape).Idx → α) (p : Fin N) (q : Fin M) :
    broadcastInDim ⟨2, ![N, M]⟩ ![0, 1] h v (ix2 p q) = v (ix2 p (0 : Fin 1)) :=
  broadcastInDim_apply ![0, 1] h v (ix2 p q) (ix2 p (0 : Fin 1)) (fun a => match a with
    | ⟨0, _⟩ => by show p.val = if N = 1 then 0 else p.val; rw [if_neg hN]
    | ⟨1, _⟩ => by show 0 = if (1 : Nat) = 1 then 0 else q.val; rw [if_pos rfl])

/-- A [1, m] row laid down the columns of an [n, m] array reads, at (p, q), the row at (0, q). -/
theorem ofRow_apply {α : Type} {N M : Nat} (hM : M ≠ 1) (h : (⟨2, ![1, M]⟩ : Shape).BroadcastsInDim ⟨2, ![N, M]⟩ ![0, 1])
    (v : (⟨2, ![1, M]⟩ : Shape).Idx → α) (p : Fin N) (q : Fin M) :
    broadcastInDim ⟨2, ![N, M]⟩ ![0, 1] h v (ix2 p q) = v (ix2 (0 : Fin 1) q) :=
  broadcastInDim_apply ![0, 1] h v (ix2 p q) (ix2 (0 : Fin 1) q) (fun a => match a with
    | ⟨0, _⟩ => by show 0 = if (1 : Nat) = 1 then 0 else p.val; rw [if_pos rfl]
    | ⟨1, _⟩ => by show q.val = if M = 1 then 0 else q.val; rw [if_neg hM])

/-! ## The membership matrix -/

/-- The membership matrix at (n, g): 1 where node n's id is the word g, else 0. -/
theorem oh_apply (a4 : IVec Cert.KernelIdeal.S100000 32) (n : Fin 100000) (g : Fin 128) :
    Cert.KernelIdeal.KValue.kOh a4 (ix2 n g) = if a4 (ix1 n) = BitVec.ofNat 32 g.val then (1 : EReal) else 0 := by
  unfold Cert.KernelIdeal.KValue.kOh
  show FloatOps.uitofp (F := Ideal) .bf16 (IntOp.cmpi .eq
    (broadcastInDim Cert.KernelIdeal.S100000x128 ![0, 1] _ (broadcastInDim Cert.KernelIdeal.S100000x1 ![0] _ a4) (ix2 n g))
    (broadcastInDim Cert.KernelIdeal.S100000x128 ![0, 1] _ (iotaInDim Cert.KernelIdeal.S1x128 32 1) (ix2 n g))) = _
  rw [ofCol_apply (by decide), col_apply (by decide), ofRow_apply (by decide)]
  show FloatOps.uitofp (F := Ideal) .bf16 (IntOp.cmpi .eq (a4 (ix1 n)) (BitVec.ofNat 32 g.val)) = _
  by_cases h : a4 (ix1 n) = BitVec.ofNat 32 g.val
  · rw [if_pos h, StableHlo.Predicate.cmpi_eq_iff.mpr h]
    show (((1#1 : BitVec 1).toNat : ℝ) : EReal) = 1
    simp
  · rw [if_neg h, eq_zero_of_ne_one (fun hc => h (StableHlo.Predicate.cmpi_eq_iff.mp hc))]
    show (((0#1 : BitVec 1).toNat : ℝ) : EReal) = 0
    simp

/-- An id is the word g (below 128) exactly when it reads, signed, as g. -/
theorem id_eq_iff (w : BitVec 32) (g : Fin 128) : w = BitVec.ofNat 32 g.val ↔ w.toInt = (g.val : Int) := by
  have hg : (BitVec.ofNat 32 g.val).toInt = (g.val : Int) :=
    StableHlo.Predicate.toInt_ofNat_small g.val (by have := g.isLt; omega)
  constructor
  · rintro rfl; exact hg
  · intro h; exact BitVec.eq_of_toInt_eq (h.trans hg.symm)

/-! ## Where an update lands: the sums' scatter -/

/-- On the operand's row axis the window starts at the update row's id, read signed. -/
theorem sS_start0 (n : Fin 100000) (c : Fin 256) (idx : IVec Cert.ReferenceIdeal.S100000x1 32) :
    ScatterDims.start dS (ix2 n c) idx 0 = (idx (ix2 n (0 : Fin 1))).toInt := by
  unfold ScatterDims.start
  rw [dif_pos (show (0 : Fin Cert.ReferenceIdeal.S128x256.rank) ∈ ScatterDims.scatterDimsToOperandDims dS by decide)]
  refine congrArg (fun k => (idx k).toInt) (funext fun b => Fin.ext ?_)
  match b with
  | ⟨0, _⟩ => rfl
  | ⟨1, _⟩ => rfl

/-- On the operand's column axis the window starts at 0. -/
theorem sS_start1 (n : Fin 100000) (c : Fin 256) (idx : IVec Cert.ReferenceIdeal.S100000x1 32) :
    ScatterDims.start dS (ix2 n c) idx 1 = 0 := by
  unfold ScatterDims.start
  rw [dif_neg (show ¬(1 : Fin Cert.ReferenceIdeal.S128x256.rank) ∈ ScatterDims.scatterDimsToOperandDims dS by decide)]

/-- The row axis is inserted: the window coordinate there is 0. -/
theorem sS_window0 (n : Fin 100000) (c : Fin 256) : ScatterDims.window dS (ix2 n c) 0 = 0 := by
  unfold ScatterDims.window
  rw [dif_neg (show ¬(0 : Fin Cert.ReferenceIdeal.S128x256.rank) ∈ ScatterDims.sKept dS by decide)]

/-- The column axis carries the update's column. -/
theorem sS_window1 (n : Fin 100000) (c : Fin 256) : ScatterDims.window dS (ix2 n c) 1 = c.val := by
  unfold ScatterDims.window
  rw [dif_pos (show (1 : Fin Cert.ReferenceIdeal.S128x256.rank) ∈ ScatterDims.sKept dS by decide)]
  rfl

/-- Update element (n, c) lands at (g, d) exactly when row n's id reads as g and c is d. -/
theorem sS_lands (n : Fin 100000) (c : Fin 256) (idx : IVec Cert.ReferenceIdeal.S100000x1 32) (g : Fin 128) (d : Fin 256) :
    ScatterDims.resultIdx? dS (ix2 n c) idx = some (ix2 g d) ↔ (idx (ix2 n (0 : Fin 1))).toInt = (g.val : Int) ∧ c = d := by
  rw [Cert.Lib.PointScatter.resultIdx?_eq_some_iff]
  have e0 : ScatterDims.start dS (ix2 n c) idx 0 + (ScatterDims.window dS (ix2 n c) 0 : Int) = (idx (ix2 n (0 : Fin 1))).toInt := by
    rw [sS_start0, sS_window0]; simp
  have e1 : ScatterDims.start dS (ix2 n c) idx 1 + (ScatterDims.window dS (ix2 n c) 1 : Int) = (c.val : Int) := by
    rw [sS_start1, sS_window1]; simp
  constructor
  · intro h
    have h0 := h 0
    have h1 := h 1
    rw [e0] at h0
    rw [e1] at h1
    exact ⟨h0, Fin.ext (by exact_mod_cast h1)⟩
  · rintro ⟨h0, rfl⟩ a
    match a with
    | ⟨0, _⟩ => exact e0.trans h0
    | ⟨1, _⟩ => exact e1

/-! ## Sums -/

/-- A sum over c of a term present only where a condition A holds and c is d is that term at d, where A holds. -/
theorem sum_and_eq {K : Nat} (A : Prop) [Decidable A] (d : Fin K) [∀ c : Fin K, Decidable (A ∧ c = d)] (f : Fin K → EReal) :
    (∑ c : Fin K, (if A ∧ c = d then f c else 0)) = if A then f d else 0 := by
  by_cases hA : A
  · simp [hA]
  · simp [hA]

/-- The pooled sums against the membership matrix are the scatter-add of the rows at their graph ids. -/
theorem pool_eq_rSums (a4 : IVec Cert.KernelIdeal.S100000 32) (H : FVec Ideal Cert.KernelIdeal.S100000x256 .f32) :
    (Spec.pool (Cert.KernelIdeal.KValue.kOh a4 : Spec.A2 100000 128) (H : Spec.A2 100000 256) : Spec.A2 128 256)
      = Cert.ReferenceIdeal.RefValue.rSums a4 H := by
  classical
  funext i
  obtain ⟨g, d, rfl⟩ : ∃ (g : Fin 128) (d : Fin 256), i = ix2 g d := ⟨i 0, i 1, eq_ix2 i⟩
  show (∑ n : Fin 100000, Cert.KernelIdeal.KValue.kOh a4 (ix2 n g) * H (ix2 n d)) = _
  unfold Cert.ReferenceIdeal.RefValue.rSums Cert.ReferenceIdeal.RefValue.colN
  rw [Cert.Lib.PointScatter.scatterAdd_apply, broadcastInDim_scalar_apply, constant_apply, Ideal.ofBits_zero_f32, zero_add,
    Finset.sum_filter, sum_idx2]
  refine Finset.sum_congr rfl fun n _ => ?_
  simp only [sS_lands]
  rw [sum_and_eq, col_apply (by decide), oh_apply]
  by_cases h : a4 (ix1 n) = BitVec.ofNat 32 g.val
  · rw [if_pos h, if_pos ((id_eq_iff _ g).mp h), one_mul]
  · rw [if_neg h, if_neg (fun hc => h ((id_eq_iff _ g).mpr hc)), zero_mul]

/-! ## Where an update lands: the counts' scatter -/

/-- On the operand's one axis the window starts at the update's id, read signed. -/
theorem sC_start0 (n : Fin 100000) (idx : IVec Cert.ReferenceIdeal.S100000x1 32) :
    ScatterDims.start dC (ix1 n) idx 0 = (idx (ix2 n (0 : Fin 1))).toInt := by
  unfold ScatterDims.start
  rw [dif_pos (show (0 : Fin Cert.ReferenceIdeal.S128.rank) ∈ ScatterDims.scatterDimsToOperandDims dC by decide)]
  refine congrArg (fun k => (idx k).toInt) (funext fun b => Fin.ext ?_)
  match b with
  | ⟨0, _⟩ => rfl
  | ⟨1, _⟩ => rfl

/-- That axis is inserted: the window coordinate there is 0. -/
theorem sC_window0 (n : Fin 100000) : ScatterDims.window dC (ix1 n) 0 = 0 := by
  unfold ScatterDims.window
  rw [dif_neg (show ¬(0 : Fin Cert.ReferenceIdeal.S128.rank) ∈ ScatterDims.sKept dC by decide)]

/-- Update element n lands at g exactly when its id reads as g. -/
theorem sC_lands (n : Fin 100000) (idx : IVec Cert.ReferenceIdeal.S100000x1 32) (g : Fin 128) :
    ScatterDims.resultIdx? dC (ix1 n) idx = some (ix1 g) ↔ (idx (ix2 n (0 : Fin 1))).toInt = (g.val : Int) := by
  rw [Cert.Lib.PointScatter.resultIdx?_eq_some_iff]
  have e0 : ScatterDims.start dC (ix1 n) idx 0 + (ScatterDims.window dC (ix1 n) 0 : Int) = (idx (ix2 n (0 : Fin 1))).toInt := by
    rw [sC_start0, sC_window0]; simp
  constructor
  · intro h
    have h0 := h 0
    rw [e0] at h0
    exact h0
  · intro h0 a
    match a with
    | ⟨0, _⟩ => exact e0.trans h0

/-- With the ids laid as a column: update element n lands at g exactly when node n's id is the word g. -/
theorem sC_lands_col (a4 : IVec Cert.ReferenceIdeal.S100000 32)
    (hb : Cert.ReferenceIdeal.S100000.BroadcastsInDim Cert.ReferenceIdeal.S100000x1 ![0]) (n : Fin 100000) (g : Fin 128) :
    ScatterDims.resultIdx? dC (ix1 n) (broadcastInDim Cert.ReferenceIdeal.S100000x1 ![0] hb a4) = some (ix1 g)
      ↔ a4 (ix1 n) = BitVec.ofNat 32 g.val := by
  rw [sC_lands, col_apply (by decide), id_eq_iff]

/-- A sum over a rank-1 index set is the sum over its one coordinate. -/
theorem sum_idx1 {M : Type*} [AddCommMonoid M] {N : Nat} (f : (⟨1, ![N]⟩ : Shape).Idx → M) :
    ∑ i, f i = ∑ a : Fin N, f (ix1 a) :=
  Fintype.sum_equiv ⟨fun i => i 0, fun a => ix1 a, fun i => (eq_ix1 i).symm, fun _ => rfl⟩ _ _ (fun i => congrArg f (eq_ix1 i))

/-- The pooled counts against the membership matrix are the scatter-add of ones at the graph ids. -/
theorem count_eq_rCnts (a4 : IVec Cert.KernelIdeal.S100000 32) (g : Fin 128) :
    (Spec.count (Cert.KernelIdeal.KValue.kOh a4 : Spec.A2 100000 128) : Spec.A2 1 128) (ix2 0 g)
      = Cert.ReferenceIdeal.RefValue.rCnts a4 (ix1 g) := by
  classical
  show (∑ n : Fin 100000, Cert.KernelIdeal.KValue.kOh a4 (ix2 n g)) = _
  unfold Cert.ReferenceIdeal.RefValue.rCnts Cert.ReferenceIdeal.RefValue.colN
  rw [Cert.Lib.PointScatter.scatterAdd_apply, broadcastInDim_scalar_apply, constant_apply, Ideal.ofBits_zero_f32, zero_add,
    Finset.sum_filter, sum_idx1]
  refine Finset.sum_congr rfl fun n _ => ?_
  rw [broadcastInDim_scalar_apply, constant_apply, Ideal.ofBits_one_f32, oh_apply]
  by_cases h : a4 (ix1 n) = BitVec.ofNat 32 g.val
  · rw [if_pos h, if_pos ((sC_lands_col a4 _ n g).mpr h)]
  · rw [if_neg h, if_neg (fun hc => h ((sC_lands_col a4 _ n g).mp hc))]

end Cert.PoolScatter

end
-- ==== Proof.TailEq.lean ====
/-
  The two programs' tails agree: the kernel keeps the counts as a one-row array and reshapes it to a column, the
  reference keeps them as a vector and broadcasts it to a column; entry (g, 0) of either column is the count of
  graph g, so the two divisors, and with them the two results, are the same arrays.
-/
import proofs.«411472_j4595615007316_2_alg».proof.Proof.KTerm
import proofs.«411472_j4595615007316_2_alg».proof.Proof.RefDefs
import Idealize.ShloMosaic.Lib.ValueIdx
import Idealize.ShloMosaic.Lib.ValueLayout
import Idealize.ShloMosaic.Lib.Pipeline.Value

noncomputable section

namespace Cert.TailEq

open Idealize.ShloMosaic Idealize.ShloMosaic.ValueIdx

/-- A one-row array of 128 entries reshaped to a column reads, at (g, d), the row's entry g: both have flat position g. -/
theorem col_of_row (C : FVec Ideal Cert.KernelIdeal.S1x128 .f32) (g : Fin 128) (d : Fin 1) :
    shapeCast Cert.KernelIdeal.S128x1 C Cert.KernelIdeal.Gen.shapeCasts_S1x128_S128x1 (ix2 g d) = C (ix2 0 g) :=
  shapeCast_apply C _ (ix2 g d) (ix2 0 g) (by
    have hd : d.val = 0 := by omega
    rw [Shape.rowMajor_val_two, Shape.rowMajor_val_two]
    show 0 * 128 + g.val = g.val * 1 + d.val
    rw [hd, Nat.zero_mul, Nat.zero_add, Nat.mul_one, Nat.add_zero])

/-- A vector of 128 entries broadcast along axis 0 of a column reads, at (g, d), the vector's entry g. -/
theorem col_of_vec (v : FVec Ideal Cert.ReferenceIdeal.S128 .f32) (g : Fin 128) (d : Fin 1) :
    broadcastInDim Cert.ReferenceIdeal.S128x1 ![0] Cert.ReferenceIdeal.Gen.bcast_S128_S128x1_0 v (ix2 g d) = v (ix1 g) :=
  broadcastInDim_apply _ _ v (ix2 g d) (ix1 g) fun a => match a with | ⟨0, _⟩ => rfl

/-- The two divisor columns are one array: entry (g, d) of either is the larger of graph g's count and 1. -/
theorem divisor_eq (C : FVec Ideal Cert.KernelIdeal.S1x128 .f32) (C' : FVec Ideal Cert.ReferenceIdeal.S128 .f32)
    (hC : ∀ g : Fin 128, C (ix2 0 g) = C' (ix1 g)) :
    maximumf (shapeCast Cert.KernelIdeal.S128x1 C Cert.KernelIdeal.Gen.shapeCasts_S1x128_S128x1)
        (broadcastInDim Cert.KernelIdeal.S128x1 ![] Cert.KernelIdeal.Gen.bcast_S_S128x1
          (constant (F := Ideal) Cert.KernelIdeal.S_ .f32 0x3F800000#32))
      = broadcastInDim Cert.ReferenceIdeal.S128x1 ![0] Cert.ReferenceIdeal.Gen.bcast_S128_S128x1_0
          (maximumf C' (broadcastInDim Cert.ReferenceIdeal.S128 ![] Cert.ReferenceIdeal.Gen.bcast_S_S128
            (constant (F := Ideal) Cert.ReferenceIdeal.S_ .f32 0x3F800000#32))) := by
  funext j
  obtain ⟨g, d, rfl⟩ : ∃ g d, j = ix2 g d := ⟨j 0, j 1, eq_ix2 j⟩
  rw [col_of_vec, maximumf_apply, maximumf_apply, col_of_row, hC g]
  rfl

/-- With equal sums and counts that agree graph by graph, the kernel's tail is the reference's. -/
theorem kTail_eq_rTail (S : FVec Ideal Cert.KernelIdeal.S128x256 .f32) (C : FVec Ideal Cert.KernelIdeal.S1x128 .f32)
    (C' : FVec Ideal Cert.ReferenceIdeal.S128 .f32) (hC : ∀ g : Fin 128, C (ix2 0 g) = C' (ix1 g))
    (a19 : FVec Ideal Cert.KernelIdeal.S256x256 .f32) (a20 : FVec Ideal Cert.KernelIdeal.S256 .f32) :
    Cert.KernelIdeal.KValue.kTail S C a19 a20 = Cert.ReferenceIdeal.RefValue.rTail S C' a19 a20 := by
  unfold Cert.KernelIdeal.KValue.kTail Cert.ReferenceIdeal.RefValue.rTail
  rw [divisor_eq C C' hC]
  rfl

/-- A bias vector reshaped to one row, read back as a function of the column, is the vector. -/
theorem rowOf_biasRow (b : FVec Ideal Cert.KernelIdeal.S256 .f32) :
    Cert.KernelIdeal.KValue.rowOf (Cert.KernelIdeal.KValue.biasRow b) = fun j => b (ix1 j) := by
  funext j
  exact shapeCast_a_1a_apply b Cert.KernelIdeal.Gen.shapeCasts_S256_S1x256 0 j

/-- Widening after narrowing is the identity on extended reals. -/
theorem extf_truncf (x : FVec Ideal Cert.KernelIdeal.S300000x256 .f32) :
    extf .f32 (truncf .bf16 x Cert.KernelIdeal.Gen.bitsLt_bf16_f32) Cert.KernelIdeal.Gen.bitsLt_bf16_f32 = x := by
  funext i
  rw [extf_apply, truncf_apply]

end Cert.TailEq

end
-- ==== Proof.Bridge.lean ====
/-
  The two programs compute one function. With the four index vectors in range of their tables a bounds-checked
  lookup is the plain lookup, so the gathered embeddings agree; narrowing then widening the edge embedding changes
  nothing over the extended reals; the launches' specification functions are the reference's dense stages; pooling
  against the membership matrix is the scatter-add by graph id; and the two tails divide the same sums by the same
  counts.
-/
import proofs.«411472_j4595615007316_2_alg».proof.Proof.KTerm
import proofs.«411472_j4595615007316_2_alg».proof.Proof.RefDefs
import proofs.«411472_j4595615007316_2_alg».proof.Proof.HostLin
import proofs.«411472_j4595615007316_2_alg».proof.Proof.PoolScatter
import proofs.«411472_j4595615007316_2_alg».proof.Proof.TailEq

noncomputable section

namespace Cert.Bridge

open Idealize.ShloMosaic Idealize.ShloMosaic.ValueIdx
open Cert.KernelIdeal (S100000x2 S100000x1536 S300000x2 S2x300000 S100000 S10000x256 S3x256 S1536x256 S256 S8x256 S200x256 S256x256 S100000x256 S300000 S300000x256)

/-! ## The lookups -/

theorem takeLabel_eq (tab : FVec Ideal S10000x256 .f32) (idx : IVec S100000 32) (h : LibTake.InRange 10000#32 idx) :
    Cert.KernelIdeal.KValue.takeLabel tab idx
      = Host.gather Cert.ReferenceIdeal.gather_S10000x256_S100000x1_S100000x256_1_0_n_n_0_1_1256 tab (Cert.ReferenceIdeal.RefValue.colN (Cert.ReferenceIdeal.RefValue.wrapN 10000#32 idx)) := by
  unfold Cert.KernelIdeal.KValue.takeLabel
  rw [Cert.KernelIdeal.KValue.kTake_eq _ _ _ _ _ _ _ _ _ _ 10000#32 9999#32 (by decide) (by decide) tab idx h]
  rfl

theorem takeType_eq (tab : FVec Ideal S3x256 .f32) (idx : IVec S100000 32) (h : LibTake.InRange 3#32 idx) :
    Cert.KernelIdeal.KValue.takeType tab idx
      = Host.gather Cert.ReferenceIdeal.gather_S3x256_S100000x1_S100000x256_1_0_n_n_0_1_1256 tab (Cert.ReferenceIdeal.RefValue.colN (Cert.ReferenceIdeal.RefValue.wrapN 3#32 idx)) := by
  unfold Cert.KernelIdeal.KValue.takeType
  rw [Cert.KernelIdeal.KValue.kTake_eq _ _ _ _ _ _ _ _ _ _ 3#32 2#32 (by decide) (by decide) tab idx h]
  rfl

theorem takeRole_eq (tab : FVec Ideal S8x256 .f32) (idx : IVec S300000 32) (h : LibTake.InRange 8#32 idx) :
    Cert.KernelIdeal.KValue.takeRole tab idx
      = Host.gather Cert.ReferenceIdeal.gather_S8x256_S300000x1_S300000x256_1_0_n_n_0_1_1256 tab (Cert.ReferenceIdeal.RefValue.colE (Cert.ReferenceIdeal.RefValue.wrapE 8#32 idx)) := by
  unfold Cert.KernelIdeal.KValue.takeRole
  rw [Cert.KernelIdeal.KValue.kTake_eq _ _ _ _ _ _ _ _ _ _ 8#32 7#32 (by decide) (by decide) tab idx h]
  rfl

theorem takeChild_eq (tab : FVec Ideal S200x256 .f32) (idx : IVec S300000 32) (h : LibTake.InRange 200#32 idx) :
    Cert.KernelIdeal.KValue.takeChild tab idx
      = Host.gather Cert.ReferenceIdeal.gather_S200x256_S300000x1_S300000x256_1_0_n_n_0_1_1256 tab (Cert.ReferenceIdeal.RefValue.colE (Cert.ReferenceIdeal.RefValue.wrapE 200#32 idx)) := by
  unfold Cert.KernelIdeal.KValue.takeChild
  rw [Cert.KernelIdeal.KValue.kTake_eq _ _ _ _ _ _ _ _ _ _ 200#32 199#32 (by decide) (by decide) tab idx h]
  rfl

theorem takeNode_eq (tab : FVec Ideal S100000x256 .f32) (idx : IVec S300000 32) (h : LibTake.InRange 100000#32 idx) :
    Cert.KernelIdeal.KValue.takeNode tab idx
      = Host.gather Cert.ReferenceIdeal.gather_S100000x256_S300000x1_S300000x256_1_0_n_n_0_1_1256 tab (Cert.ReferenceIdeal.RefValue.colE (Cert.ReferenceIdeal.RefValue.wrapE 100000#32 idx)) := by
  unfold Cert.KernelIdeal.KValue.takeNode
  rw [Cert.KernelIdeal.KValue.kTake_eq _ _ _ _ _ _ _ _ _ _ 100000#32 99999#32 (by decide) (by decide) tab idx h]
  rfl

/-- The clamped child index is in range of its table of 200 rows. -/
theorem clip_inRange (v : IVec S300000 32) : LibTake.InRange 200#32 (Cert.KernelIdeal.KValue.clipE v) := by
  have h := LibTake.clamp_inRange (N := 300000) Cert.KernelIdeal.Gen.bcast_S_S300000 199#32 (by decide) v
  have e : (199#32 + 1#32 : BitVec 32) = 200#32 := by decide
  rw [e] at h
  exact h

/-! ## The stages -/

section Stages

variable (a0 : IVec S100000x2 32) (a1 : FVec Ideal S100000x1536 .f32) (a2 : IVec S300000x2 32) (a3 : IVec S2x300000 32) (a4 : IVec S100000 32)
  (a5 : FVec Ideal S10000x256 .f32) (a6 : FVec Ideal S3x256 .f32) (a7 : FVec Ideal S1536x256 .f32) (a8 : FVec Ideal S256 .f32)
  (a9 : FVec Ideal S8x256 .f32) (a10 : FVec Ideal S200x256 .f32)
  (hX0 : LibTake.InRange 10000#32 (Cert.KernelIdeal.KValue.idxX0 a0)) (hX1 : LibTake.InRange 3#32 (Cert.KernelIdeal.KValue.idxX1 a0))
  (hE0 : LibTake.InRange 8#32 (Cert.KernelIdeal.KValue.idxE0 a2)) (hSrc : LibTake.InRange 100000#32 (Cert.KernelIdeal.KValue.idxSrc a3))

include hX0 hX1 in
theorem kEmb_eq : Cert.KernelIdeal.KValue.kEmb a0 a5 a6 = Cert.ReferenceIdeal.RefValue.rEmb a0 a5 a6 := by
  unfold Cert.KernelIdeal.KValue.kEmb
  rw [takeLabel_eq a5 _ hX0, takeType_eq a6 _ hX1]
  rfl

include hX0 hX1 in
theorem kH0_eq : Cert.KernelIdeal.KValue.kH0 a0 a1 a5 a6 a7 a8 = Cert.ReferenceIdeal.RefValue.rH0 a0 a1 a5 a6 a7 a8 := by
  unfold Cert.KernelIdeal.KValue.kH0
  rw [Cert.ReferenceIdeal.RefValue.rH0_eq, kEmb_eq a0 a5 a6 hX0 hX1, Cert.TailEq.rowOf_biasRow]
  rfl

include hE0 in
theorem kEa_eq : extf .f32 (Cert.KernelIdeal.KValue.kEa a2 a9 a10) Cert.KernelIdeal.Gen.bitsLt_bf16_f32 = Cert.ReferenceIdeal.RefValue.rEa a2 a9 a10 := by
  unfold Cert.KernelIdeal.KValue.kEa
  rw [Cert.TailEq.extf_truncf, takeRole_eq a9 _ hE0, takeChild_eq a10 _ (clip_inRange _)]
  rfl

include hE0 hSrc in
theorem kMsg_eq (h : FVec Ideal S100000x256 .f32) :
    Cert.KernelIdeal.KValue.kMsg h a3 (Cert.KernelIdeal.KValue.kEa a2 a9 a10) = Cert.ReferenceIdeal.RefValue.rMsg h a3 (Cert.ReferenceIdeal.RefValue.rEa a2 a9 a10) := by
  unfold Cert.KernelIdeal.KValue.kMsg
  rw [kEa_eq a2 a9 a10 hE0, takeNode_eq h _ hSrc]
  rfl

include hE0 hSrc in
theorem kAgg_eq (h : FVec Ideal S100000x256 .f32) :
    Cert.KernelIdeal.KValue.kAgg h a3 (Cert.KernelIdeal.KValue.kEa a2 a9 a10) = Cert.ReferenceIdeal.RefValue.rAgg h a3 (Cert.ReferenceIdeal.RefValue.rEa a2 a9 a10) := by
  unfold Cert.KernelIdeal.KValue.kAgg
  rw [kMsg_eq a2 a3 a9 a10 hE0 hSrc h]
  rfl

include hE0 hSrc in
theorem kConv_eq (h : FVec Ideal S100000x256 .f32) (W1 : FVec Ideal S256x256 .f32) (b1 : FVec Ideal S256 .f32)
    (W2 : FVec Ideal S256x256 .f32) (b2 : FVec Ideal S256 .f32) :
    Cert.KernelIdeal.KValue.kConv h a3 (Cert.KernelIdeal.KValue.kEa a2 a9 a10) W1 b1 W2 b2 = Cert.ReferenceIdeal.RefValue.rConv h a3 (Cert.ReferenceIdeal.RefValue.rEa a2 a9 a10) W1 b1 W2 b2 := by
  unfold Cert.KernelIdeal.KValue.kConv
  rw [Cert.ReferenceIdeal.RefValue.rConv_eq, kAgg_eq a2 a3 a9 a10 hE0 hSrc h, Cert.TailEq.rowOf_biasRow, Cert.TailEq.rowOf_biasRow]
  rfl

include hX0 hX1 hE0 hSrc in
/-- Under the index ranges the kernel's function of the arguments is the reference's. -/
theorem kOut_eq_rOut (a11 : FVec Ideal S256x256 .f32) (a12 : FVec Ideal S256 .f32) (a13 : FVec Ideal S256x256 .f32) (a14 : FVec Ideal S256 .f32)
    (a15 : FVec Ideal S256x256 .f32) (a16 : FVec Ideal S256 .f32) (a17 : FVec Ideal S256x256 .f32) (a18 : FVec Ideal S256 .f32)
    (a19 : FVec Ideal S256x256 .f32) (a20 : FVec Ideal S256 .f32) :
    Cert.KernelIdeal.KValue.kOut a0 a1 a2 a3 a4 a5 a6 a7 a8 a9 a10 a11 a12 a13 a14 a15 a16 a17 a18 a19 a20
      = Cert.ReferenceIdeal.RefValue.rOut a0 a1 a2 a3 a4 a5 a6 a7 a8 a9 a10 a11 a12 a13 a14 a15 a16 a17 a18 a19 a20 := by
  unfold Cert.KernelIdeal.KValue.kOut Cert.ReferenceIdeal.RefValue.rOut
  rw [kH0_eq a0 a1 a5 a6 a7 a8 hX0 hX1, kConv_eq a2 a3 a9 a10 hE0 hSrc, kConv_eq a2 a3 a9 a10 hE0 hSrc, Cert.PoolScatter.pool_eq_rSums]
  exact Cert.TailEq.kTail_eq_rTail _ _ _ (fun g => Cert.PoolScatter.count_eq_rCnts a4 g) a19 a20

end Stages

end Cert.Bridge

end
-- ==== Proof.PreDecode.lean ====
/-
  Reading the precondition: where it is all ones, each of the four index vectors the program looks rows up with —
  the label ids, the type ids, the edge role ids and the source node ids — lies, word by word and signed, in the
  range of the table it indexes. The precondition is a conjunction, each range conjunct a universal "and" over a
  vector of the word tests 0 ≤ idx and idx < n.
-/
import proofs.«411472_j4595615007316_2_alg».proof.Pre_finite_inputs
import proofs.«411472_j4595615007316_2_alg».proof.Proof.Gen.Pre_finite_inputs
import proofs.«411472_j4595615007316_2_alg».proof.Proof.KTerm
import Idealize.ShloMosaic.Lib.ReduceAll
import Idealize.ShloMosaic.Lib.Affine

noncomputable section

namespace Cert.PreDecode

open Idealize.ShloMosaic Idealize.ShloMosaic.ValueIdx
open Cert.KernelIdeal Cert.KernelIdeal.KValue

/-- The scalar shape has one index. -/
instance : Subsingleton LibTake.S0.Idx := ⟨fun a b => funext fun d => d.elim0⟩

/-- A universal "and" over a vector of the two word tests 0 ≤ idx and idx < n that came out 1: every word of the
    vector passes both tests, which is the vector being in range of a table of n rows. -/
theorem inRange_of_all {N : Nat} (n : BitVec 32) (idx : IVec (LibTake.V1 N) 32)
    (hb : LibTake.S0.BroadcastsInDim (LibTake.V1 N) (![] : Fin 0 → Fin (LibTake.V1 N).rank))
    (hred : (LibTake.V1 N).ReducesTo [0] LibTake.S0) (h0 : 0 < LibTake.S0.numel) (j : LibTake.S0.Idx)
    (e : Host.reduce IntOp.andi
        (andi (cmpi .sge idx (broadcastInDim (LibTake.V1 N) ![] hb (constantI LibTake.S0 32 0#32)))
              (cmpi .slt idx (broadcastInDim (LibTake.V1 N) ![] hb (constantI LibTake.S0 32 n))))
        (constantI LibTake.S0 1 1#1) hred h0 j = 1#1) : LibTake.InRange n idx := by
  intro p
  exact IntOp.andi_eq_one.1 (Host.reduce_andi_all _ _ hred h0 j e p)

/-- Where the precondition is all ones, the four index vectors are in range of their tables. -/
theorem ranges_of_pre (a0 : IVec S100000x2 32) (a1 : FVec Ideal S100000x1536 .f32) (a2 : IVec S300000x2 32) (a3 : IVec S2x300000 32) (a4 : IVec S100000 32)
    (a5 : FVec Ideal S10000x256 .f32) (a6 : FVec Ideal S3x256 .f32) (a7 : FVec Ideal S1536x256 .f32) (a8 : FVec Ideal S256 .f32)
    (a9 : FVec Ideal S8x256 .f32) (a10 : FVec Ideal S200x256 .f32)
    (a11 : FVec Ideal S256x256 .f32) (a12 : FVec Ideal S256 .f32) (a13 : FVec Ideal S256x256 .f32) (a14 : FVec Ideal S256 .f32)
    (a15 : FVec Ideal S256x256 .f32) (a16 : FVec Ideal S256 .f32) (a17 : FVec Ideal S256x256 .f32) (a18 : FVec Ideal S256 .f32)
    (a19 : FVec Ideal S256x256 .f32) (a20 : FVec Ideal S256 .f32)
    (h : Cert.Pre_finite_inputs.fn (F := Ideal) a0 a1 a2 a3 a4 a5 a6 a7 a8 a9 a10 a11 a12 a13 a14 a15 a16 a17 a18 a19 a20 = fun _ => 1#1) :
    LibTake.InRange 10000#32 (idxX0 a0) ∧ LibTake.InRange 3#32 (idxX1 a0)
      ∧ LibTake.InRange 8#32 (idxE0 a2) ∧ LibTake.InRange 100000#32 (idxSrc a3) := by
  -- the precondition at its one index, its operations written out: a five-fold conjunction whose last four
  -- conjuncts are the range tests of x[:,0], x[:,1], edge_attr[:,0] and edge_index[0]
  have h1 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at h1
  obtain ⟨h116, hSrc⟩ := IntOp.andi_eq_one.1 h1
  obtain ⟨h105, hE0⟩ := IntOp.andi_eq_one.1 h116
  obtain ⟨h94, hX1⟩ := IntOp.andi_eq_one.1 h105
  obtain ⟨-, hX0⟩ := IntOp.andi_eq_one.1 h94
  exact ⟨inRange_of_all (N := 100000) _ _ _ _ _ _ hX0, inRange_of_all (N := 100000) _ _ _ _ _ _ hX1,
    inRange_of_all (N := 300000) _ _ _ _ _ _ hE0, inRange_of_all (N := 300000) _ _ _ _ _ _ hSrc⟩

end Cert.PreDecode

end
-- ==== Proof.lean ====
/-
  The kernel — node-embedding fusion, two graph-isomorphism convolutions with edge features and a global mean pool,
  in three launches among host lookups and scatter-adds — against its reference, over the extended reals.

  Where every lookup index lies in its table the two programs are one function of the arguments: a bounds-checked
  lookup is then the plain lookup; every launch computes an affine map of rows, a two-layer perceptron of rows, or
  the perceptron pooled against the one-hot membership matrix of the graph ids, all exact sums over the extended
  reals whatever the tiling and the order of accumulation; the pooled sums and counts are the reference's
  scatter-adds by graph id; the two tails divide the same sums by the same counts. The precondition states the four
  index ranges (label ids, type ids, edge role ids, source node ids); the child index is clamped by both programs and
  the destination and graph ids enter both programs through the same scatter semantics, so they need no range.
  The frames are the generated ones; the kernel's run with its result named repeats the generated launch with the
  result buffer kept in the final condition.
-/
import proofs.«411472_j4595615007316_2_alg».proof.Defs
import proofs.«411472_j4595615007316_2_alg».proof.Proof.Gen.Kernel
import proofs.«411472_j4595615007316_2_alg».proof.Proof.Gen.Kernel.Frame
import proofs.«411472_j4595615007316_2_alg».proof.Proof.Gen.KernelIdeal
import proofs.«411472_j4595615007316_2_alg».proof.Proof.Gen.KernelIdeal.Frame
import proofs.«411472_j4595615007316_2_alg».proof.Proof.Gen.ReferenceIdeal
import proofs.«411472_j4595615007316_2_alg».proof.Proof.Gen.ReferenceIdeal.Run
import proofs.«411472_j4595615007316_2_alg».proof.Proof.Gen.Pre_finite_inputs
import proofs.«411472_j4595615007316_2_alg».proof.Proof.KRun
import proofs.«411472_j4595615007316_2_alg».proof.Proof.KFinal
import proofs.«411472_j4595615007316_2_alg».proof.Proof.RefTerm
import proofs.«411472_j4595615007316_2_alg».proof.Proof.Bridge
import proofs.«411472_j4595615007316_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments and satisfy the precondition, the kernel's result buffer ends at the
    reference's result. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))) :
    Cert.KernelIdeal.Gen.W24 m ρ c (Proc.devRef .tc Cert.KernelIdeal.main_v51)
      = Cert.ReferenceIdeal.Value.res_main_v107 (F := Ideal) m' c := by
  obtain ⟨e0, e1, e2, e3, e4, e5, e6, e7, e8, e9, e10, e11, e12, e13, e14, e15, e16, e17, e18, e19, e20⟩ := hag
  rw [Cert.KernelIdeal.KFinal.W24_v51_eq m ρ c, Cert.ReferenceIdeal.RefValue.res_eq m' c,
    e0, e1, e2, e3, e4, e5, e6, e7, e8, e9, e10, e11, e12, e13, e14, e15, e16, e17, e18, e19, e20]
  obtain ⟨hX0, hX1, hE0, hSrc⟩ := Cert.PreDecode.ranges_of_pre _ _ _ _ _ _ _ _ _ _ _ _ _ _ _ _ _ _ _ _ _ (hpre c)
  exact Cert.Bridge.kOut_eq_rOut _ _ _ _ _ _ _ _ _ _ _ hX0 hX1 hE0 hSrc _ _ _ _ _ _ _ _ _ _

theorem algebraic : Cert.algebraic_KernelIdeal_ReferenceIdeal := by
  intro m ρ m' ρ' hpre hagree
  refine ⟨fun c => Cert.ReferenceIdeal.Value.res_main_v107 (F := Ideal) m' c, ?_, ?_⟩
  · exact (θ_run Cert.KernelIdeal.defs _ _).mono
      (fun _ h c => ⟨(h c).1.trans (result_eq m ρ m' hpre c (hagree c)), (h c).2⟩)
      (Cert.KernelIdeal.GenValue.run_value (F := Ideal) m ρ)
  · exact Cert.ReferenceIdeal.Value.run (F := Ideal) m' ρ'

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
